-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1600000 : Shape := ⟨2, ![2, 1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S128x64 .f32) (main_arg10 : FVec F S64 .f32) (main_arg11 : FVec F S64x1 .f32) (main_arg12 : FVec F S1 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x64 .f32) (main_arg10 : FVec F S64 .f32) (main_arg11 : FVec F S64x1 .f32) (main_arg12 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x1 .f32) (main_arg1 : IVec S2x1600000 32) (main_arg2 : IVec S100000 32) (main_arg3 : FVec F S1x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) (main_arg11 : FVec F S64x1 .f32) (main_arg12 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x128 .f32 := Host.absf main_arg3
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x1 : Shape := ⟨2, ![100000, 1]⟩
abbrev S2x1600000 : Shape := ⟨2, ![2, 1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x128 : Shape := ⟨2, ![100000, 128]⟩
abbrev S2000x1 : Shape := ⟨2, ![2000, 1]⟩
abbrev S2000x128 : Shape := ⟨2, ![2000, 128]⟩
abbrev S1600000x128 : Shape := ⟨2, ![1600000, 128]⟩
abbrev S512 : Shape := ⟨1, ![512]⟩
abbrev S1x512 : Shape := ⟨2, ![1, 512]⟩
abbrev S2x512x128 : Shape := ⟨3, ![2, 512, 128]⟩
abbrev S2x512x1 : Shape := ⟨3, ![2, 512, 1]⟩
abbrev S1x512x128 : Shape := ⟨3, ![1, 512, 128]⟩
abbrev S1x512x1 : Shape := ⟨3, ![1, 512, 1]⟩
abbrev S512x128 : Shape := ⟨2, ![512, 128]⟩
abbrev S512x1 : Shape := ⟨2, ![512, 1]⟩
abbrev S2000x512 : Shape := ⟨2, ![2000, 512]⟩
abbrev S1x64 : Shape := ⟨2, ![1, 64]⟩
abbrev S1x1 : Shape := ⟨2, ![1, 1]⟩
abbrev S512x64 : Shape := ⟨2, ![512, 64]⟩

abbrev nBuf : Space → Nat
  | .hbm => 101
  | .vmem => 43
  | .smem => 0
  | _ => 0

abbrev bufTy : (tb : Table) → Fin (tcTables nBuf tb) → BufTy
  | .hbm, ⟨0, _⟩ => ⟨S100000x1, .f32⟩
  | .hbm, ⟨1, _⟩ => ⟨S2x1600000, .i32⟩
  | .hbm, ⟨2, _⟩ => ⟨S100000, .i32⟩
  | .hbm, ⟨3, _⟩ => ⟨S1x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S100000x1, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x1, .f32⟩
  | .hbm, ⟨41, _⟩ => ⟨S_, .f32⟩
  | .hbm, ⟨42, _⟩ => ⟨S100000x1, .f32⟩
  | .hbm, ⟨43, _⟩ => ⟨S1600000x1, .i32⟩
  | .hbm, ⟨44, _⟩ => ⟨S100000x1, .f32⟩
  | .hbm, ⟨45, _⟩ => ⟨S100000x1, .f32⟩
  | .hbm, ⟨46, _⟩ => ⟨S100000x128, .bf16⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .bf16⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .bf16⟩
  | .hbm, ⟨63, _⟩ => ⟨S100000x128, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .bf16⟩
  | .hbm, ⟨73, _⟩ => ⟨S1600000x128, .f32⟩
  | .hbm, ⟨74, _⟩ => ⟨S_, .f32⟩
  | .hbm, ⟨75, _⟩ => ⟨S100000x128, .f32⟩
  | .hbm, ⟨76, _⟩ => ⟨S1600000x1, .i32⟩
  | .hbm, ⟨77, _⟩ => ⟨S100000x128, .f32⟩
  | .hbm, ⟨78, _⟩ => ⟨S512, .i32⟩
  | .hbm, ⟨79, _⟩ => ⟨S1x512, .i32⟩
  | .hbm, ⟨80, _⟩ => ⟨S100000x1, .i32⟩
  | .hbm, ⟨81, _⟩ => ⟨S2x512x128, .f32⟩
  | .hbm, ⟨82, _⟩ => ⟨S2x512x1, .f32⟩
  | .hbm, ⟨83, _⟩ => ⟨S1x512x128, .f32⟩
  | .hbm, ⟨84, _⟩ => ⟨S512x128, .f32⟩
  | .hbm, ⟨85, _⟩ => ⟨S1x512x128, .f32⟩
  | .hbm, ⟨86, _⟩ => ⟨S512x128, .f32⟩
  | .hbm, ⟨87, _⟩ => ⟨S512x128, .f32⟩
  | .hbm, ⟨88, _⟩ => ⟨S1x512x1, .f32⟩
  | .hbm, ⟨89, _⟩ => ⟨S512x1, .f32⟩
  | .hbm, ⟨90, _⟩ => ⟨S1x512x1, .f32⟩
  | .hbm, ⟨91, _⟩ => ⟨S512x1, .f32⟩
  | .hbm, ⟨92, _⟩ => ⟨S512x1, .f32⟩
  | .hbm, ⟨93, _⟩ => ⟨S_, .f32⟩
  | .hbm, ⟨94, _⟩ => ⟨S512x1, .f32⟩
  | .hbm, ⟨95, _⟩ => ⟨S512x1, .f32⟩
  | .hbm, ⟨96, _⟩ => ⟨S512x128, .f32⟩
  | .hbm, ⟨97, _⟩ => ⟨S512x128, .f32⟩
  | .hbm, ⟨98, _⟩ => ⟨S1x64, .f32⟩
  | .hbm, ⟨99, _⟩ => ⟨S1x1, .f32⟩
  | .hbm, ⟨100, _⟩ => ⟨S512x1, .f32⟩
  | .local _ .vmem, ⟨0, _⟩ => ⟨S2000x1, .f32⟩
  | .local _ .vmem, ⟨1, _⟩ => ⟨S2000x1, .f32⟩
  | .local _ .vmem, ⟨2, _⟩ => ⟨S2000x1, .f32⟩
  | .local _ .vmem, ⟨3, _⟩ => ⟨S2000x1, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S2000x128, .bf16⟩
  | .local _ .vmem, ⟨8, _⟩ => ⟨S2000x128, .bf16⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x1, .f32⟩
  | .local _ .vmem, ⟨16, _⟩ => ⟨S2000x1, .f32⟩
  | .local _ .vmem, ⟨17, _⟩ => ⟨S1x128, .f32⟩
  | .local _ .vmem, ⟨18, _⟩ => ⟨S128x128, .f32⟩
  | .local _ .vmem, ⟨19, _⟩ => ⟨S2000x128, .bf16⟩
  | .local _ .vmem, ⟨20, _⟩ => ⟨S2000x128, .bf16⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x1, .f32⟩
  | .local _ .vmem, ⟨28, _⟩ => ⟨S2000x1, .f32⟩
  | .local _ .vmem, ⟨29, _⟩ => ⟨S1x128, .f32⟩
  | .local _ .vmem, ⟨30, _⟩ => ⟨S2000x1, .i32⟩
  | .local _ .vmem, ⟨31, _⟩ => ⟨S2000x1, .i32⟩
  | .local _ .vmem, ⟨32, _⟩ => ⟨S1x512, .i32⟩
  | .local _ .vmem, ⟨33, _⟩ => ⟨S1x512x128, .f32⟩
  | .local _ .vmem, ⟨34, _⟩ => ⟨S1x512x128, .f32⟩
  | .local _ .vmem, ⟨35, _⟩ => ⟨S1x512x1, .f32⟩
  | .local _ .vmem, ⟨36, _⟩ => ⟨S1x512x1, .f32⟩
  | .local _ .vmem, ⟨37, _⟩ => ⟨S512x128, .f32⟩
  | .local _ .vmem, ⟨38, _⟩ => ⟨S128x64, .f32⟩
  | .local _ .vmem, ⟨39, _⟩ => ⟨S1x64, .f32⟩
  | .local _ .vmem, ⟨40, _⟩ => ⟨S64x1, .f32⟩
  | .local _ .vmem, ⟨41, _⟩ => ⟨S1x1, .f32⟩
  | .local _ .vmem, ⟨42, _⟩ => ⟨S512x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27_0 : Ref sig .tc := ⟨.hbm, 46, rfl⟩
abbrev main_v27_1 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39_0 : Ref sig .tc := ⟨.hbm, 62, rfl⟩
abbrev main_v39_1 : Ref sig .tc := ⟨.hbm, 63, rfl⟩
abbrev main_c_7 : Ref sig .tc := ⟨.hbm, 64, rfl⟩
abbrev main_v40 : Ref sig .tc := ⟨.hbm, 65, rfl⟩
abbrev main_v41 : Ref sig .tc := ⟨.hbm, 66, rfl⟩
abbrev main_c_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_9 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54_0 : Ref sig .tc := ⟨.hbm, 81, rfl⟩
abbrev main_v54_1 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_10 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg6_1 : Ref sig .tc := ⟨.vmem, 34, rfl⟩
abbrev cc2_stg7_0 : Ref sig .tc := ⟨.vmem, 35, rfl⟩
abbrev cc2_stg7_1 : Ref sig .tc := ⟨.vmem, 36, rfl⟩
abbrev cc3_stg0_0 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem5_1 : DmaSem sig := 20
abbrev cc1_sem6_0 : DmaSem sig := 21
abbrev cc1_sem6_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem4_1 : DmaSem sig := 31
abbrev cc2_sem5_0 : DmaSem sig := 32
abbrev cc2_sem6_0 : DmaSem sig := 33
abbrev cc2_sem6_1 : DmaSem sig := 34
abbrev cc2_sem7_0 : DmaSem sig := 35
abbrev cc2_sem7_1 : DmaSem sig := 36
abbrev cc3_sem0_0 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![2, 25], ![false, false]⟩

def cc2_transform_0 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S2000x1 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 1 → Memref sig .tc .vmem S1x512 .i32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x512x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S1x512x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  bcast_S_S100000x1 : S_.BroadcastsInDim S100000x1 (![] : Fin 0 → Fin S100000x1.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  broadcasts_S2000x1_S2000x128 : S2000x1.Broadcasts S2000x128
  broadcasts_S1x128_S2000x128 : S1x128.Broadcasts S2000x128
  shapeCasts_S1x128_S1x128 : S1x128.ShapeCasts S1x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S100000x128 : S_.BroadcastsInDim S100000x128 (![] : Fin 0 → Fin S100000x128.rank)
  shapeCasts_S2000x128_S2000x128 : S2000x128.ShapeCasts S2000x128
  shapeCasts_S512_S1x512 : S512.ShapeCasts S1x512
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2000x1_S2000x512 : S2000x1.Broadcasts S2000x512
  broadcasts_S1x512_S2000x512 : S1x512.Broadcasts S2000x512
  natLt_1_32 : 1 < 32
  slices_S2x512x128_S1x512x128_0_0_0 : S2x512x128.Slices ![0, 0, 0] S1x512x128
  slices_S2x512x128_S1x512x128_1_0_0 : S2x512x128.Slices ![1, 0, 0] S1x512x128
  slices_S2x512x1_S1x512x1_0_0_0 : S2x512x1.Slices ![0, 0, 0] S1x512x1
  slices_S2x512x1_S1x512x1_1_0_0 : S2x512x1.Slices ![1, 0, 0] S1x512x1
  bcast_S_S512x1 : S_.BroadcastsInDim S512x1 (![] : Fin 0 → Fin S512x1.rank)
  bcast_S512x1_S512x128_0_1 : S512x1.BroadcastsInDim S512x128 (![0, 1] : Fin 2 → Fin S512x128.rank)
  shapeCasts_S64_S1x64 : S64.ShapeCasts S1x64
  shapeCasts_S1_S1x1 : S1.ShapeCasts S1x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S100000_S1600000x1_S1600000_n_0_0_1_wf : ScatterDims.WF S100000 S1600000x1 S1600000 [] [0] [0] 1
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x512_S2000x128_S512x128_0_0_1_1_n_n_wf : DotDims.WF S2000x512 S2000x128 S512x128 [0] [0] [1] [1] [] []
  dot_S2000x512_S2000x1_S512x1_0_0_1_1_n_n_wf : DotDims.WF S2000x512 S2000x1 S512x1 [0] [0] [1] [1] [] []
  dot_S512x128_S128x64_S512x64_1_0_0_1_n_n_wf : DotDims.WF S512x128 S128x64 S512x64 [1] [0] [0] [1] [] []
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S100000x1.size a
  hwx0_0 : ∀ i : grid0.Coords, EltTy.bits .f32 = 32 ∨ (Rect.block (s := S100000x1) S2000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .bf16 = 32 ∨ (Rect.block (s := S100000x128) S2000x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .bf16 = 32 ∨ (Rect.block (s := S100000x128) S2000x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x1.size a ≤ S100000x1.size a
  hwx2_4 : ∀ i : grid2.Coords, EltTy.bits .i32 = 32 ∨ (Rect.block (s := S100000x1) S2000x1.size (cc2_transform_4 i) (hinb2_4 i)).WholeWords (EltTy.packing .i32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x512.size a
  hwx2_5 : ∀ i : grid2.Coords, EltTy.bits .i32 = 32 ∨ (Rect.block (s := S1x512) S1x512.size (cc2_transform_5 i) (hinb2_5 i)).WholeWords (EltTy.packing .i32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x512x128.size a ≤ S2x512x128.size a
  hwx2_6 : ∀ i : grid2.Coords, EltTy.bits .f32 = 32 ∨ (Rect.block (s := S2x512x128) S1x512x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x512x1.size a ≤ S2x512x1.size a
  hwx2_7 : ∀ i : grid2.Coords, EltTy.bits .f32 = 32 ∨ (Rect.block (s := S2x512x1) S1x512x1.size (cc2_transform_7 i) (hinb2_7 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x1.size a ≤ S64x1.size a
  hwx3_3 : ∀ i : grid3.Coords, EltTy.bits .f32 = 32 ∨ (Rect.block (s := S64x1) S64x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x1.size a ≤ S512x1.size a
  hwx3_5 : ∀ i : grid3.Coords, EltTy.bits .f32 = 32 ∨ (Rect.block (s := S512x1) S512x1.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def dot_S2000x512_S2000x1_S512x1_0_0_1_1_n_n : DotDims S2000x512 S2000x1 S512x1 where
  lhsContracting := [0]
  rhsContracting := [0]
  lhsNonContracting := [1]
  rhsNonContracting := [1]
  lhsBatch := []
  rhsBatch := []
  wf := dot_S2000x512_S2000x1_S512x1_0_0_1_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_v26) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v27_1) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27_1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39_0) S2000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v39_1) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v50) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39_1) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S2000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v52) S1x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v54_0) S1x512x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v54_1) S1x512x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v68) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S64x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v71) S512x1.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x1 : Shape := ⟨2, ![100000, 1]⟩
abbrev S2x1600000 : Shape := ⟨2, ![2, 1600000]⟩
abbrev S100000 : Shape := ⟨1, ![100000]⟩
abbrev S1x128 : Shape := ⟨2, ![1, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S512x128 : Shape := ⟨2, ![512, 128]⟩
abbrev S512 : Shape := ⟨1, ![512]⟩
abbrev S512x1 : Shape := ⟨2, ![512, 1]⟩
abbrev S512x64 : Shape := ⟨2, ![512, 64]⟩
abbrev S1x64 : Shape := ⟨2, ![1, 64]⟩
abbrev S1x1 : Shape := ⟨2, ![1, 1]⟩

abbrev nBuf : Space → Nat
  | .hbm => 224
  | .vmem => 0
  | .smem => 0
  | _ => 0

abbrev hbmTy0_0 (i : Nat) : BufTy := match i % 128 with
  | 0 => ⟨S100000x1, .f32⟩
  | 1 => ⟨S2x1600000, .i32⟩
  | 2 => ⟨S100000, .i32⟩
  | 3 => ⟨S1x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S64x1, .f32⟩
  | 12 => ⟨S1, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S100000x128, .f32⟩
  | 21 => ⟨S_, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x1, .f32⟩
  | 67 => ⟨S1700000x128, .f32⟩
  | 68 => ⟨S1700000x128, .f32⟩
  | 69 => ⟨S_, .f32⟩
  | 70 => ⟨S100000x128, .f32⟩
  | 71 => ⟨S1700000x1, .i32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x128, .f32⟩
  | 80 => ⟨S_, .f32⟩
  | 81 => ⟨S1700000, .f32⟩
  | 82 => ⟨S_, .f32⟩
  | 83 => ⟨S100000, .f32⟩
  | 84 => ⟨S1700000x1, .i32⟩
  | 85 => ⟨S100000, .f32⟩
  | 86 => ⟨S_, .f32⟩
  | 87 => ⟨S100000, .f32⟩
  | 88 => ⟨S100000, .i1⟩
  | 89 => ⟨S_, .f32⟩
  | 90 => ⟨S100000, .f32⟩
  | 91 => ⟨S100000, .f32⟩
  | 92 => ⟨S100000, .f32⟩
  | 93 => ⟨S_, .f32⟩
  | 94 => ⟨S_, .f32⟩
  | 95 => ⟨S100000, .f32⟩
  | 96 => ⟨S100000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000, .f32⟩
  | 115 => ⟨S1700000, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000x128, .f32⟩
  | 125 => ⟨S1700000x1, .f32⟩
  | 126 => ⟨S1700000x128, .f32⟩
  | 127 => ⟨S1700000x128, .f32⟩
  | _ => ⟨S100000x1, .f32⟩

abbrev hbmTy0_1 (i : Nat) : BufTy := match i % 128 with
  | 0 => ⟨S_, .f32⟩
  | 1 => ⟨S100000x128, .f32⟩
  | 2 => ⟨S1700000x1, .i32⟩
  | 3 => ⟨S100000x128, .f32⟩
  | 4 => ⟨S1x128, .f32⟩
  | 5 => ⟨S100000x128, .f32⟩
  | 6 => ⟨S100000x128, .f32⟩
  | 7 => ⟨S_, .f32⟩
  | 8 => ⟨S100000x128, .f32⟩
  | 9 => ⟨S100000x128, .f32⟩
  | 10 => ⟨S100000x128, .f32⟩
  | 11 => ⟨S_, .f32⟩
  | 12 => ⟨S1700000, .f32⟩
  | 13 => ⟨S_, .f32⟩
  | 14 => ⟨S100000, .f32⟩
  | 15 => ⟨S1700000x1, .i32⟩
  | 16 => ⟨S100000, .f32⟩
  | 17 => ⟨S_, .f32⟩
  | 18 => ⟨S100000, .f32⟩
  | 19 => ⟨S100000, .i1⟩
  | 20 => ⟨S_, .f32⟩
  | 21 => ⟨S100000, .f32⟩
  | 22 => ⟨S100000, .f32⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S_, .f32⟩
  | 70 => ⟨S512x128, .f32⟩
  | 71 => ⟨S100000x1, .i32⟩
  | 72 => ⟨S512x128, .f32⟩
  | 73 => ⟨S_, .f32⟩
  | 74 => ⟨S100000, .f32⟩
  | 75 => ⟨S_, .f32⟩
  | 76 => ⟨S512, .f32⟩
  | 77 => ⟨S100000x1, .i32⟩
  | 78 => ⟨S512, .f32⟩
  | 79 => ⟨S_, .f32⟩
  | 80 => ⟨S512, .f32⟩
  | 81 => ⟨S512, .f32⟩
  | 82 => ⟨S512x1, .f32⟩
  | 83 => ⟨S512x128, .f32⟩
  | 84 => ⟨S512x128, .f32⟩
  | 85 => ⟨S512x64, .f32⟩
  | 86 => ⟨S1x64, .f32⟩
  | 87 => ⟨S512x64, .f32⟩
  | 88 => ⟨S512x64, .f32⟩
  | 89 => ⟨S_, .f32⟩
  | 90 => ⟨S512x64, .f32⟩
  | 91 => ⟨S512x64, .f32⟩
  | 92 => ⟨S512x1, .f32⟩
  | 93 => ⟨S1x1, .f32⟩
  | 94 => ⟨S512x1, .f32⟩
  | 95 => ⟨S512x1, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_cst : Ref sig .tc := ⟨.hbm, 76, rfl⟩
abbrev main_call1_v0 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_cst_11 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_12 : Ref sig .tc := ⟨.hbm, 86, rfl⟩
abbrev main_v55 : Ref sig .tc := ⟨.hbm, 87, rfl⟩
abbrev main_v56 : Ref sig .tc := ⟨.hbm, 88, rfl⟩
abbrev main_cst_13 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_14 : Ref sig .tc := ⟨.hbm, 93, rfl⟩
abbrev main_call2_v0 : Ref sig .tc := ⟨.hbm, 94, rfl⟩
abbrev main_call2_v1 : Ref sig .tc := ⟨.hbm, 95, rfl⟩
abbrev main_v60 : Ref sig .tc := ⟨.hbm, 96, rfl⟩
abbrev main_c_15 : Ref sig .tc := ⟨.hbm, 97, rfl⟩
abbrev main_v61 : Ref sig .tc := ⟨.hbm, 98, rfl⟩
abbrev main_v62 : Ref sig .tc := ⟨.hbm, 99, rfl⟩
abbrev main_c_16 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_c_17 : Ref sig .tc := ⟨.hbm, 106, rfl⟩
abbrev main_v68 : Ref sig .tc := ⟨.hbm, 107, rfl⟩
abbrev main_v69 : Ref sig .tc := ⟨.hbm, 108, rfl⟩
abbrev main_c_18 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_c_19 : Ref sig .tc := ⟨.hbm, 116, rfl⟩
abbrev main_v76 : Ref sig .tc := ⟨.hbm, 117, rfl⟩
abbrev main_v77 : Ref sig .tc := ⟨.hbm, 118, rfl⟩
abbrev main_c_20 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_21 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_call3_cst : Ref sig .tc := ⟨.hbm, 135, rfl⟩
abbrev main_call3_v0 : Ref sig .tc := ⟨.hbm, 136, rfl⟩
abbrev main_v92 : Ref sig .tc := ⟨.hbm, 137, rfl⟩
abbrev main_v93 : Ref sig .tc := ⟨.hbm, 138, rfl⟩
abbrev main_cst_22 : Ref sig .tc := ⟨.hbm, 139, rfl⟩
abbrev main_v94 : Ref sig .tc := ⟨.hbm, 140, rfl⟩
abbrev main_cst_23 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_24 : Ref sig .tc := ⟨.hbm, 145, rfl⟩
abbrev main_v98 : Ref sig .tc := ⟨.hbm, 146, rfl⟩
abbrev main_v99 : Ref sig .tc := ⟨.hbm, 147, rfl⟩
abbrev main_cst_25 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_cst_26 : Ref sig .tc := ⟨.hbm, 152, rfl⟩
abbrev main_call4_v0 : Ref sig .tc := ⟨.hbm, 153, rfl⟩
abbrev main_call4_v1 : Ref sig .tc := ⟨.hbm, 154, rfl⟩
abbrev main_v103 : Ref sig .tc := ⟨.hbm, 155, rfl⟩
abbrev main_c_27 : Ref sig .tc := ⟨.hbm, 156, rfl⟩
abbrev main_v104 : Ref sig .tc := ⟨.hbm, 157, rfl⟩
abbrev main_v105 : Ref sig .tc := ⟨.hbm, 158, rfl⟩
abbrev main_c_28 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_c_29 : Ref sig .tc := ⟨.hbm, 165, rfl⟩
abbrev main_v111 : Ref sig .tc := ⟨.hbm, 166, rfl⟩
abbrev main_v112 : Ref sig .tc := ⟨.hbm, 167, rfl⟩
abbrev main_c_30 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_c_31 : Ref sig .tc := ⟨.hbm, 175, rfl⟩
abbrev main_v119 : Ref sig .tc := ⟨.hbm, 176, rfl⟩
abbrev main_v120 : Ref sig .tc := ⟨.hbm, 177, rfl⟩
abbrev main_c_32 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_cst_33 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_call5_cst : Ref sig .tc := ⟨.hbm, 194, rfl⟩
abbrev main_call5_v0 : Ref sig .tc := ⟨.hbm, 195, rfl⟩
abbrev main_v135 : Ref sig .tc := ⟨.hbm, 196, rfl⟩
abbrev main_cst_34 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_cst_35 : Ref sig .tc := ⟨.hbm, 201, rfl⟩
abbrev main_v139 : Ref sig .tc := ⟨.hbm, 202, rfl⟩
abbrev main_cst_36 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_cst_37 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_call6_cst : Ref sig .tc := ⟨.hbm, 217, rfl⟩
abbrev main_call6_v0 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  dot_S100000x1_S1x128_S100000x128_1_0_0_1_n_n_wf : DotDims.WF S100000x1 S1x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x64_S512x64_1_0_0_1_n_n_wf : DotDims.WF S512x128 S128x64 S512x64 [1] [0] [0] [1] [] []
  dot_S512x64_S64x1_S512x1_1_0_0_1_n_n_wf : DotDims.WF S512x64 S64x1 S512x1 [1] [0] [0] [1] [] []

variable [Facts₀]

def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.Gcn.lean ====
/-
  A three-layer graph convolution with mean pooling and a two-layer head, as plain functions of node, edge and
  feature indices over the extended reals, in the two arrangements the two programs use.

  Nodes 0 … 99999, edges 0 … 1599999. An edge e points from node row (src e) to the node its raw destination
  word names: it lands at node i exactly when that word, read signed, is i (a word outside the range lands
  nowhere). The source row is read as a table lookup reads it: a negative word gets the table length added
  once, and the result is read signed and clamped into the table.

  Every node also has a self loop, so its degree is one more than the number of edges landing on it, and
  dinv i = 1 / sqrt (degree i): a positive real.

  The reference sums, over the landing edges and the self loop, lin[source] * (dinv[source] * dinv[i]).
  The kernel scales rows first, hs[r] = lin[r] * dinv[r], sums hs over the landing edges, adds hs[i] for the
  self loop and multiplies the total by dinv[i]. The two agree because dinv[i] is a nonnegative real: a
  product by such a number distributes over any sum of extended reals.
-/
import Idealize.ShloMosaic.PureOps.Ideal
import Idealize.ShloMosaic.Lib.ValueIdx

noncomputable section

open scoped BigOperators

namespace Cert.Gcn

open Idealize.ShloMosaic

abbrev NN : Nat := 100000
abbrev EE : Nat := 1600000

/-- A lookup's negative-index wrap: a negative word gets the table length added once. -/
def wrap (v : BitVec 32) : BitVec 32 := Scalar.select (IntOp.cmpi .slt v 0#32) (IntOp.addi v 100000#32) v

/-- The table row a raw index word selects: wrapped, read signed, clamped into the table. -/
def rowOf (v : BitVec 32) : Fin NN :=
  ⟨min (wrap v).toInt.toNat 99999, by have := Nat.min_le_right (wrap v).toInt.toNat 99999; show _ < 100000; omega⟩

/-- The edges landing at node i: those whose destination word, read signed, is i. -/
def landsAt (dst : Fin EE → BitVec 32) (i : Fin NN) : Finset (Fin EE) :=
  Finset.univ.filter (fun e => (dst e).toInt = (i.val : Int))

/-- A node's degree, its self loop included. -/
def degR (dst : Fin EE → BitVec 32) (i : Fin NN) : ℝ := ((landsAt dst i).card : ℝ) + 1

/-- 1 / sqrt (degree). -/
def dinvR (dst : Fin EE → BitVec 32) (i : Fin NN) : ℝ := (Real.sqrt (degR dst i))⁻¹

theorem degR_pos (dst : Fin EE → BitVec 32) (i : Fin NN) : 0 < degR dst i := by
  unfold degR; positivity

theorem one_le_degR (dst : Fin EE → BitVec 32) (i : Fin NN) : 1 ≤ degR dst i := by
  unfold degR
  have : (0 : ℝ) ≤ ((landsAt dst i).card : ℝ) := Nat.cast_nonneg _
  linarith

theorem dinvR_nonneg (dst : Fin EE → BitVec 32) (i : Fin NN) : 0 ≤ dinvR dst i := by
  unfold dinvR; positivity

/-- A product by a nonnegative real distributes over any finite sum of extended reals. -/
theorem mul_sum_of_nonneg_of_ne_top {ι : Type} (c : EReal) (hc0 : 0 ≤ c) (hct : c ≠ ⊤) (S : Finset ι) (f : ι → EReal) :
    c * ∑ e ∈ S, f e = ∑ e ∈ S, c * f e := by
  classical
  induction S using Finset.induction_on with
  | empty => simp
  | insert a s ha ih =>
    rw [Finset.sum_insert ha, Finset.sum_insert ha, EReal.left_distrib_of_nonneg_of_ne_top hc0 hct, ih]

/-- A finite sum of reals, as an extended real, is the sum of the extended reals. -/
theorem coe_sum {ι : Type} (S : Finset ι) (f : ι → ℝ) : ((∑ e ∈ S, f e : ℝ) : EReal) = ∑ e ∈ S, (f e : EReal) := by
  classical
  induction S using Finset.induction_on with
  | empty => simp
  | insert a s ha ih => rw [Finset.sum_insert ha, Finset.sum_insert ha, EReal.coe_add, ih]

/-- The sum, over the edges landing at i, of a per-node quantity at each edge's source row. -/
def agg (src dst : Fin EE → BitVec 32) (t : Fin NN → EReal) (i : Fin NN) : EReal :=
  ∑ e ∈ landsAt dst i, t (rowOf (src e))

/-- A layer's output at one node and one feature, in the kernel's arrangement, from the row-scaled values hs. -/
def finK (src dst : Fin EE → BitVec 32) (hs : Fin NN → EReal) (b : EReal) (i : Fin NN) : EReal :=
  max (((dinvR dst i : ℝ) : EReal) * (agg src dst hs i + hs i) + b) 0

/-- The same, in the reference's arrangement, from the unscaled values lin. -/
def finRef (src dst : Fin EE → BitVec 32) (lin : Fin NN → EReal) (b : EReal) (i : Fin NN) : EReal :=
  max ((∑ e ∈ landsAt dst i,
          lin (rowOf (src e)) * (((dinvR dst (rowOf (src e)) : ℝ) : EReal) * ((dinvR dst i : ℝ) : EReal)))
        + lin i * (((dinvR dst i : ℝ) : EReal) * ((dinvR dst i : ℝ) : EReal)) + b) 0

/-- A matrix product's element. -/
def dense {a n k : Nat} (h : Fin a → Fin n → EReal) (W : Fin n → Fin k → EReal) (i : Fin a) (j : Fin k) : EReal :=
  ∑ t : Fin n, h i t * W t j

/-- The nodes of graph g: those whose graph word, read signed, is g. -/
def inGraph (batch : Fin NN → BitVec 32) (g : Fin 512) : Finset (Fin NN) :=
  Finset.univ.filter (fun r => (batch r).toInt = (g.val : Int))

/-- The inputs, as plain functions. -/
structure Params where
  x : Fin NN → EReal
  src : Fin EE → BitVec 32
  dst : Fin EE → BitVec 32
  batch : Fin NN → BitVec 32
  W0 : Fin 128 → EReal
  b0 : Fin 128 → EReal
  W1 : Fin 128 → Fin 128 → EReal
  b1 : Fin 128 → EReal
  W2 : Fin 128 → Fin 128 → EReal
  b2 : Fin 128 → EReal
  F1 : Fin 128 → Fin 64 → EReal
  c1 : Fin 64 → EReal
  F2 : Fin 64 → EReal
  c2 : EReal

variable (P : Params)

/-- dinv as an extended real. -/
def dv (i : Fin NN) : EReal := ((dinvR P.dst i : ℝ) : EReal)

/-- The kernel's width-one pre-aggregate: z i = (sum over landing edges of x[source] * dinv[source]) + x i * dinv i. -/
def zK (i : Fin NN) : EReal := agg P.src P.dst (fun r => P.x r * dv P r) i + P.x i * dv P i

/-- Layer 0's activation in the kernel's arrangement. -/
def h1K (i : Fin NN) (k : Fin 128) : EReal := max (dv P i * (zK P i * P.W0 k) + P.b0 k) 0

/-- A dense transform followed by the row scaling. -/
def hsK (h : Fin NN → Fin 128 → EReal) (W : Fin 128 → Fin 128 → EReal) (i : Fin NN) (k : Fin 128) : EReal :=
  dense h W i k * dv P i

/-- The next activation from row-scaled values, in the kernel's arrangement. -/
def nextK (hs : Fin NN → Fin 128 → EReal) (b : Fin 128 → EReal) (i : Fin NN) (k : Fin 128) : EReal :=
  finK P.src P.dst (fun r => hs r k) (b k) i

def h2K : Fin NN → Fin 128 → EReal := nextK P (hsK P (h1K P) P.W1) P.b1
def h3K : Fin NN → Fin 128 → EReal := nextK P (hsK P (h2K P) P.W2) P.b2

/-- Layer 0's activation in the reference's arrangement. -/
def h1R (i : Fin NN) (k : Fin 128) : EReal := finRef P.src P.dst (fun r => P.x r * P.W0 k) (P.b0 k) i

/-- The next activation in the reference's arrangement. -/
def nextR (h : Fin NN → Fin 128 → EReal) (W : Fin 128 → Fin 128 → EReal) (b : Fin 128 → EReal)
    (i : Fin NN) (k : Fin 128) : EReal :=
  finRef P.src P.dst (fun r => dense h W r k) (b k) i

def h2R : Fin NN → Fin 128 → EReal := nextR P (h1R P) P.W1 P.b1
def h3R : Fin NN → Fin 128 → EReal := nextR P (h2R P) P.W2 P.b2

/-- Mean pooling: the sum of a graph's node features over the larger of its node count and one. -/
def pooled (h : Fin NN → Fin 128 → EReal) (g : Fin 512) (k : Fin 128) : EReal :=
  Ideal.div (∑ r ∈ inGraph P.batch g, h r k) (max (((inGraph P.batch g).card : ℝ) : EReal) 1)

/-- The two-layer head. -/
def head (p : Fin 512 → Fin 128 → EReal) (g : Fin 512) : EReal :=
  (∑ u : Fin 64, max (dense p P.F1 g u + P.c1 u) 0 * P.F2 u) + P.c2

def outK (g : Fin 512) : EReal := head P (pooled P (h3K P)) g
def outR (g : Fin 512) : EReal := head P (pooled P (h3R P)) g

/-! ## What each kernel region computes, at one output index, from the arrays it reads -/

/-- Layer 0's finalization, the dense transform and the row scaling: from the pre-aggregate column z, the dinv
    column, the bias row, the width-one weight row and the next weight matrix. -/
def reg0 (z dcol : Fin NN → EReal) (b0 w0 : Fin 128 → EReal) (W : Fin 128 → Fin 128 → EReal)
    (r : Fin NN) (k : Fin 128) : EReal :=
  dense (fun r t => max (dcol r * (z r * w0 t) + b0 t) 0) W r k * dcol r

/-- A middle layer's finalization, the dense transform and the row scaling: from the edge aggregate, the row-scaled
    values kept for the self loop, the dinv column, the bias row and the next weight matrix. -/
def reg1 (aggv hprev : Fin NN → Fin 128 → EReal) (dcol : Fin NN → EReal) (b : Fin 128 → EReal)
    (W : Fin 128 → Fin 128 → EReal) (r : Fin NN) (k : Fin 128) : EReal :=
  dense (fun r t => max (dcol r * (aggv r t + hprev r t) + b t) 0) W r k * dcol r

/-- The last layer's activation, as the pooling region forms it. -/
def act3 (aggv hprev : Fin NN → Fin 128 → EReal) (dcol : Fin NN → EReal) (b : Fin 128 → EReal)
    (r : Fin NN) (k : Fin 128) : EReal :=
  max (dcol r * (aggv r k + hprev r k) + b k) 0

/-- The head, from the pooled table, the two weight tables and the two bias rows. -/
def reg3 (p : Fin 512 → Fin 128 → EReal) (F1 : Fin 128 → Fin 64 → EReal) (c1 : Fin 64 → EReal)
    (F2 : Fin 64 → EReal) (c2 : EReal) (g : Fin 512) : EReal :=
  (∑ u : Fin 64, max (dense p F1 g u + c1 u) 0 * F2 u) + c2

/-! ## The inputs read off the argument arrays -/

open Idealize.ShloMosaic.ValueIdx in
/-- The thirteen argument arrays as the plain functions above: the node features' one column, the two rows of the
    edge table, the graph words, and the weights and biases by their coordinates. -/
def params (a0 : (⟨2, ![100000, 1]⟩ : Shape).Idx → EReal) (a1 : (⟨2, ![2, 1600000]⟩ : Shape).Idx → BitVec 32)
    (a2 : (⟨1, ![100000]⟩ : Shape).Idx → BitVec 32) (a3 : (⟨2, ![1, 128]⟩ : Shape).Idx → EReal)
    (a4 : (⟨1, ![128]⟩ : Shape).Idx → EReal) (a5 : (⟨2, ![128, 128]⟩ : Shape).Idx → EReal)
    (a6 : (⟨1, ![128]⟩ : Shape).Idx → EReal) (a7 : (⟨2, ![128, 128]⟩ : Shape).Idx → EReal)
    (a8 : (⟨1, ![128]⟩ : Shape).Idx → EReal) (a9 : (⟨2, ![128, 64]⟩ : Shape).Idx → EReal)
    (a10 : (⟨1, ![64]⟩ : Shape).Idx → EReal) (a11 : (⟨2, ![64, 1]⟩ : Shape).Idx → EReal)
    (a12 : (⟨1, ![1]⟩ : Shape).Idx → EReal) : Params where
  x := fun r => a0 (ix2 r 0)
  src := fun e => a1 (ix2 0 e)
  dst := fun e => a1 (ix2 1 e)
  batch := fun r => a2 (ix1 r)
  W0 := fun k => a3 (ix2 0 k)
  b0 := fun k => a4 (ix1 k)
  W1 := fun t k => a5 (ix2 t k)
  b1 := fun k => a6 (ix1 k)
  W2 := fun t k => a7 (ix2 t k)
  b2 := fun k => a8 (ix1 k)
  F1 := fun t u => a9 (ix2 t u)
  c1 := fun u => a10 (ix1 u)
  F2 := fun u => a11 (ix2 u 0)
  c2 := a12 (ix1 0)

/-! ## The two arrangements agree -/

/-- One node, one feature: the reference's arrangement is the kernel's over the row-scaled values. -/
theorem finRef_eq_finK (src dst : Fin EE → BitVec 32) (lin : Fin NN → EReal) (b : EReal) (i : Fin NN) :
    finRef src dst lin b i = finK src dst (fun r => lin r * ((dinvR dst r : ℝ) : EReal)) b i := by
  have hc0 : (0 : EReal) ≤ ((dinvR dst i : ℝ) : EReal) := EReal.coe_nonneg.2 (dinvR_nonneg dst i)
  have hct : ((dinvR dst i : ℝ) : EReal) ≠ ⊤ := EReal.coe_ne_top _
  -- the landing edges' terms and the self loop's term each carry the factor dinv i: take it out of the whole sum
  have key : (∑ e ∈ landsAt dst i,
        lin (rowOf (src e)) * (((dinvR dst (rowOf (src e)) : ℝ) : EReal) * ((dinvR dst i : ℝ) : EReal)))
        + lin i * (((dinvR dst i : ℝ) : EReal) * ((dinvR dst i : ℝ) : EReal))
      = ((dinvR dst i : ℝ) : EReal)
          * ((∑ e ∈ landsAt dst i, lin (rowOf (src e)) * ((dinvR dst (rowOf (src e)) : ℝ) : EReal))
              + lin i * ((dinvR dst i : ℝ) : EReal)) := by
    rw [EReal.left_distrib_of_nonneg_of_ne_top hc0 hct, mul_sum_of_nonneg_of_ne_top _ hc0 hct]
    refine congrArg₂ (· + ·) ?_ ?_
    · refine Finset.sum_congr rfl fun e _ => ?_
      rw [← mul_assoc, mul_comm ((dinvR dst i : ℝ) : EReal), mul_assoc]
    · rw [← mul_assoc, mul_comm ((dinvR dst i : ℝ) : EReal), mul_assoc]
  unfold finRef finK agg
  rw [key]

/-- Layer 0, where the kernel aggregates the width-one input before the outer product with the weight row: equal
    when the inputs and the weight row are real numbers. -/
theorem h1R_eq_h1K (hx : ∀ r, ∃ y : ℝ, P.x r = (y : EReal)) (hw : ∀ k, ∃ y : ℝ, P.W0 k = (y : EReal)) :
    h1R P = h1K P := by
  funext i k
  choose xr hxr using hx
  obtain ⟨w, hw'⟩ := hw k
  unfold h1R
  rw [finRef_eq_finK]
  unfold finK h1K zK agg dv
  -- with real inputs both sides are real: (sum of (x w) d + (x w) d) = (sum of x d + x d) w
  have key : (∑ e ∈ landsAt P.dst i,
        (fun r => P.x r * P.W0 k * ((dinvR P.dst r : ℝ) : EReal)) (rowOf (P.src e)))
        + (fun r => P.x r * P.W0 k * ((dinvR P.dst r : ℝ) : EReal)) i
      = ((∑ e ∈ landsAt P.dst i, (fun r => P.x r * ((dinvR P.dst r : ℝ) : EReal)) (rowOf (P.src e)))
          + P.x i * ((dinvR P.dst i : ℝ) : EReal)) * P.W0 k := by
    simp only [hxr, hw', ← EReal.coe_mul, ← coe_sum, ← EReal.coe_add]
    congr 1
    rw [add_mul, Finset.sum_mul]
    refine congrArg₂ (· + ·) ?_ ?_
    · exact Finset.sum_congr rfl fun e _ => by ring
    · ring
  rw [key]

/-- The whole network: equal results under the same hypothesis. -/
theorem outR_eq_outK (hx : ∀ r, ∃ y : ℝ, P.x r = (y : EReal)) (hw : ∀ k, ∃ y : ℝ, P.W0 k = (y : EReal)) :
    outR P = outK P := by
  have e1 : h1R P = h1K P := h1R_eq_h1K P hx hw
  have e2 : h2R P = h2K P := by
    funext i k
    unfold h2R h2K nextR nextK
    rw [e1, finRef_eq_finK]
    rfl
  have e3 : h3R P = h3K P := by
    funext i k
    unfold h3R h3K nextR nextK
    rw [e2, finRef_eq_finK]
    rfl
  unfold outR outK
  rw [e3]

end Cert.Gcn

end
-- ==== Proof.KParams.lean ====
/-
  The kernel's inputs as plain functions: its thirteen argument arrays, at launch, read by coordinates.
-/
import proofs.«410623_j52072183497149_3_alg».proof.Proof.Gen.KernelIdeal.Frame
import proofs.«410623_j52072183497149_3_alg».proof.Proof.Gcn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx Idealize.ShloMosaic.Pipeline

variable (m : (ℓ : Loc nD τ sig) → Buf (Elt Ideal) ℓ) (ρ : Dev nD → PrngReg)

/-- The inputs of the network, read off core c's argument arrays at launch. -/
abbrev P (c : Dev nD) : Cert.Gcn.Params :=
  Cert.Gcn.params (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

end Cert.KernelIdeal.Val

end
-- ==== Proof.KReg0.lean ====
/-
  Region 0 read as values: the two arrays it writes (the row-scaled layer-1 values, once for the edge gather and once for the self loop), at every index, from the arrays it reads. Fifty row tiles of 2000 rows cover the table; each tile's block is one function of the tile's input blocks, so the table is one function of the input tables.
-/
import proofs.«410623_j52072183497149_3_alg».proof.Proof.Gen.KernelIdeal.Frame
import proofs.«410623_j52072183497149_3_alg».proof.Proof.Gcn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Reg0

open Cert.KernelIdeal Cert.KernelIdeal.Gen Idealize.ShloMosaic Idealize.ShloMosaic.TcCoe Idealize.SL.Sem
open Idealize.ShloMosaic.ValueIdx Idealize.ShloMosaic.Pipeline

/-! ## The tile's matrix product: which operand entries meet at an output entry -/

/-- The left operand is read in the output's row … -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … at the summation index; -/
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand at the summation index … -/
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … in the output's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A product of a 2000-row tile with a 128 × 128 matrix into a zero accumulator, at one entry: the sum over the
    shared index. -/
theorem matmul_tile_apply (a : FVec Ideal S2000x128 .bf16) (w : FVec Ideal S128x128 .bf16) (p : Fin 2000) (k : Fin 128) :
    FloatOps.matmul dot_S2000x128_S128x128_S2000x128_1_0_0_1_n_n none a w (constant (F := Ideal) S2000x128 .f32 0x00000000#32) (ix2 p k)
      = ∑ t : Fin 128, a (ix2 p t) * w (ix2 t k) := by
  rw [Ideal.matmul_constant_zero_apply, ← Equiv.sum_comp (contrEquiv1 dot_S2000x128_S128x128_S2000x128_1_0_0_1_n_n 128 rfl rfl).symm]
  refine Finset.sum_congr rfl fun t _ => ?_
  have ht := contrEquiv1_symm_val dot_S2000x128_S128x128_S2000x128_1_0_0_1_n_n 128 rfl rfl t
  have el : dot_S2000x128_S128x128_S2000x128_1_0_0_1_n_n.lhsIdx (ix2 p k) ((contrEquiv1 dot_S2000x128_S128x128_S2000x128_1_0_0_1_n_n 128 rfl rfl).symm t) = ix2 p t := funext fun a => Fin.ext (by
    match a with
    | ⟨0, _⟩ => exact lhs_row _ _
    | ⟨1, _⟩ => exact (lhs_col _ _).trans ht)
  have er : dot_S2000x128_S128x128_S2000x128_1_0_0_1_n_n.rhsIdx (ix2 p k) ((contrEquiv1 dot_S2000x128_S128x128_S2000x128_1_0_0_1_n_n 128 rfl rfl).symm t) = ix2 t k := funext fun a => Fin.ext (by
    match a with
    | ⟨0, _⟩ => exact (rhs_row _ _).trans ht
    | ⟨1, _⟩ => exact rhs_col _ _)
  rw [el, er]

/-- A column of 2000 entries spread over 128 columns reads, at (p, k), the column's entry p. -/
theorem spread_col_apply {α : Type} (v : S2000x1.Idx → α) (h : S2000x1.Broadcasts S2000x128) (p : Fin 2000) (k : Fin 128) :
    broadcastTo S2000x128 v h (ix2 p k) = v (ix2 p (0 : Fin 1)) := by
  refine broadcastTo_apply v h (ix2 p k) (ix2 p (0 : Fin 1)) fun ax => ?_
  match ax with
  | ⟨0, _⟩ => rfl
  | ⟨1, _⟩ => rfl

/-! ## One tile's result at one entry -/

/-- The tile's arithmetic at entry (p, k), from its five loaded blocks (the dinv column d, the pre-aggregate column z,
    the width-one weight row w0, the bias row b, the next weight matrix W): the activation row
    max (d p * (z p * w0 t) + b t) 0 against column k of W, times d p. -/
theorem pay_apply (d z : Vec Ideal S2000x1 .f32) (w0 b : Vec Ideal S1x128 .f32) (W : Vec Ideal S128x128 .f32) (p : Fin 2000) (k : Fin 128) :
    k0_pay1 (F := Ideal) d z w0 b W (ix2 p k)
      = (∑ t : Fin 128, max (d (ix2 p 0) * (z (ix2 p 0) * w0 (ix2 0 t)) + b (ix2 0 t)) 0 * W (ix2 t k)) * d (ix2 p 0) := by
  unfold k0_pay1
  simp only [shapeCast_self, matmul]
  rw [mulf_apply, matmul_tile_apply, spread_col_apply]
  refine congrArg (· * d (ix2 p 0)) (Finset.sum_congr rfl fun t _ => ?_)
  rw [truncf_apply, truncf_apply, maximumf_apply, addf_apply, mulf_apply, mulf_apply, spread_col_apply, spread_col_apply,
    broadcastTo_1b_ab_apply, broadcastTo_1b_ab_apply, broadcast_apply]
  show max _ (Ideal.ofBits .f32 0x00000000#32) * _ = _
  rw [Ideal.ofBits_zero_f32]

/-- The tile's result at (p, q) is the table's formula at row r and column q, once the tile's five blocks are known to
    hold row r's entries of the two columns and the whole of the two rows and the matrix. -/
theorem tile_eq (x0 x1 : Vec Ideal S2000x1 .f32) (x2 x3 : Vec Ideal S1x128 .f32) (x4 : Vec Ideal S128x128 .f32)
    (zc dc : Fin 100000 → EReal) (bb ww : Fin 128 → EReal) (WW : Fin 128 → Fin 128 → EReal)
    (r : Fin 100000) (p : Fin 2000) (q : Fin 128)
    (h0 : x0 (ix2 p 0) = zc r) (h1 : x1 (ix2 p 0) = dc r) (h2 : ∀ u, x2 (ix2 0 u) = bb u) (h3 : ∀ u, x3 (ix2 0 u) = ww u)
    (h4 : ∀ u k, x4 (ix2 u k) = WW u k) :
    k0_pay1 (F := Ideal) x1 x0 x3 x2 x4 (ix2 p q) = Cert.Gcn.reg0 zc dc bb ww WW r q := by
  rw [pay_apply, h0, h1]
  simp only [h2, h3, h4]
  rfl

variable (V : (c : Dev nD) → (b : Ref sig .tc) → Buf (Elt Ideal) ((c : Thread nD τ).loc b))

/-! ## From tiles to the table -/

theorem hz : (![0, 0] : Fin 2 → Nat) = fun _ => 0 := funext fun a => by fin_cases a <;> rfl

/-- The table region 0 leaves, as one function of the tables it reads. -/
def tbl (c : Dev nD) : S100000x128.Idx → EReal := fun i =>
  Cert.Gcn.reg0 (fun r => V c main_v26 (ix2 r 0)) (fun r => V c main_v11 (ix2 r 0)) (fun t => V c main_v12 (ix2 0 t))
    (fun t => V c main_arg3 (ix2 0 t)) (fun t k => V c main_arg5 (ix2 t k)) ⟨(i 0).val, (i 0).isLt⟩ ⟨(i 1).val, (i 1).isLt⟩

/-- Tile t of a row-tiled window is block (t, 0); a whole-array window is always at block (0, 0). Decided over the
    fifty tiles. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Entry p of tile t is table row 2000 t + p. -/
def rowAt (t : Fin cfg0.N) (p : Fin 2000) : Fin 100000 :=
  ⟨2000 * t.val + p.val, by have ht : t.val < grid0.N := t.isLt; have hN := N_0; have hp := p.isLt; omega⟩

/-- The pre-aggregate column's block at tile t holds rows 2000 t … 2000 t + 1999 of the column. -/
theorem blk0_apply (c : Dev nD) (t : Fin cfg0.N) (p : Fin 2000) :
    (iblk0 V c 0 t : Vec Ideal S2000x1 .f32) (ix2 p 0) = V c main_v26 (ix2 (rowAt t p) 0) := by
  obtain ⟨e0, e1, -⟩ := idx_facts t
  unfold iblk0
  rw [View.read_apply]
  show V c main_v26 (((cfg0.win 0).blk t).view.emb (ix2 p 0)) = V c main_v26 (ix2 (rowAt t p) 0)
  congr 1
  funext a; apply Fin.ext
  match a with
  | ⟨0, _⟩ => show win0_0.index t (0 : Fin 2) * 2000 + 1 * p.val = 2000 * t.val + p.val; rw [e0]; omega
  | ⟨1, _⟩ => show win0_0.index t (1 : Fin 2) * 1 + 1 * 0 = 0; rw [e1]

/-- The dinv column's block at tile t likewise. -/
theorem blk1_apply (c : Dev nD) (t : Fin cfg0.N) (p : Fin 2000) :
    (iblk0 V c 1 t : Vec Ideal S2000x1 .f32) (ix2 p 0) = V c main_v11 (ix2 (rowAt t p) 0) := by
  obtain ⟨-, -, e0, e1, -⟩ := idx_facts t
  unfold iblk0
  rw [View.read_apply]
  show V c main_v11 (((cfg0.win 1).blk t).view.emb (ix2 p 0)) = V c main_v11 (ix2 (rowAt t p) 0)
  congr 1
  funext a; apply Fin.ext
  match a with
  | ⟨0, _⟩ => show win0_1.index t (0 : Fin 2) * 2000 + 1 * p.val = 2000 * t.val + p.val; rw [e0]; omega
  | ⟨1, _⟩ => show win0_1.index t (1 : Fin 2) * 1 + 1 * 0 = 0; rw [e1]

/-- The bias row's block is the whole row at every tile. -/
theorem blk2_apply (c : Dev nD) (t : Fin cfg0.N) (u : Fin 128) :
    (iblk0 V c 2 t : Vec Ideal S1x128 .f32) (ix2 0 u) = V c main_v12 (ix2 0 u) := by
  obtain ⟨-, -, -, -, e0, e1, -⟩ := idx_facts t
  unfold iblk0
  rw [View.read_apply]
  show V c main_v12 (((cfg0.win 2).blk t).view.emb (ix2 0 u)) = V c main_v12 (ix2 0 u)
  congr 1
  funext a; apply Fin.ext
  match a with
  | ⟨0, _⟩ => show win0_2.index t (0 : Fin 2) * 1 + 1 * 0 = 0; rw [e0]
  | ⟨1, _⟩ => show win0_2.index t (1 : Fin 2) * 128 + 1 * u.val = u.val; rw [e1]; omega

/-- So is the width-one weight row's. -/
theorem blk3_apply (c : Dev nD) (t : Fin cfg0.N) (u : Fin 128) :
    (iblk0 V c 3 t : Vec Ideal S1x128 .f32) (ix2 0 u) = V c main_arg3 (ix2 0 u) := by
  obtain ⟨-, -, -, -, -, -, e0, e1, -⟩ := idx_facts t
  unfold iblk0
  rw [View.read_apply]
  show V c main_arg3 (((cfg0.win 3).blk t).view.emb (ix2 0 u)) = V c main_arg3 (ix2 0 u)
  congr 1
  funext a; apply Fin.ext
  match a with
  | ⟨0, _⟩ => show win0_3.index t (0 : Fin 2) * 1 + 1 * 0 = 0; rw [e0]
  | ⟨1, _⟩ => show win0_3.index t (1 : Fin 2) * 128 + 1 * u.val = u.val; rw [e1]; omega

/-- The weight matrix's block is the whole matrix at every tile. -/
theorem blk4_apply (c : Dev nD) (t : Fin cfg0.N) (u k : Fin 128) :
    (iblk0 V c 4 t : Vec Ideal S128x128 .f32) (ix2 u k) = V c main_arg5 (ix2 u k) := by
  obtain ⟨-, -, -, -, -, -, -, -, e0, e1, -⟩ := idx_facts t
  unfold iblk0
  rw [View.read_apply]
  show V c main_arg5 (((cfg0.win 4).blk t).view.emb (ix2 u k)) = V c main_arg5 (ix2 u k)
  congr 1
  funext a; apply Fin.ext
  match a with
  | ⟨0, _⟩ => show win0_4.index t (0 : Fin 2) * 128 + 1 * u.val = u.val; rw [e0]; omega
  | ⟨1, _⟩ => show win0_4.index t (1 : Fin 2) * 128 + 1 * k.val = k.val; rw [e1]; omega

/-- What tile t writes back to the f32 table is block t of the table's formula. -/
theorem flushed6_eq (c : Dev nD) (t : Fin cfg0.N) :
    (dat0 (F := Ideal) V c).flushed 6 t = ((cfg0.win 6).blk t).view.read (Elt Ideal) (tbl V c) := by
  show (cfg0.win 6).cut (grid0.coords t) ((dat0 V c).after 6 t) = _
  rw [after0_6]
  unfold out0_6
  rw [View.canon_unit_zero hz]
  simp only [View.ld_unit_zero (S := S2000x1) hz, View.ld_unit_zero (S := S1x128) hz, View.ld_unit_zero (S := S128x128) hz]
  funext j
  obtain ⟨p, q, rfl⟩ : ∃ (p : Fin 2000) (q : Fin 128), j = ix2 p q := ⟨j 0, j 1, eq_ix2 j⟩
  obtain ⟨-, -, -, -, -, -, -, -, -, -, -, -, e0, e1⟩ := idx_facts t
  rw [View.read_apply]
  have hemb : ((cfg0.win 6).blk t).view.emb (ix2 p q) = ix2 (rowAt t p) q := by
    funext a; apply Fin.ext
    match a with
    | ⟨0, _⟩ => show win0_6.index t (0 : Fin 2) * 2000 + 1 * p.val = 2000 * t.val + p.val; rw [e0]; omega
    | ⟨1, _⟩ => show win0_6.index t (1 : Fin 2) * 128 + 1 * q.val = q.val; rw [e1]; omega
  show k0_pay1 (F := Ideal) (iblk0 V c 1 t) (iblk0 V c 0 t) (iblk0 V c 3 t) (iblk0 V c 2 t) (iblk0 V c 4 t) (ix2 p q)
    = tbl V c (((cfg0.win 6).blk t).view.emb (ix2 p q))
  rw [hemb]
  exact tile_eq (iblk0 V c 0 t) (iblk0 V c 1 t) (iblk0 V c 2 t) (iblk0 V c 3 t) (iblk0 V c 4 t)
    (fun r => V c main_v26 (ix2 r 0)) (fun r => V c main_v11 (ix2 r 0)) (fun u => V c main_v12 (ix2 0 u))
    (fun u => V c main_arg3 (ix2 0 u)) (fun u k => V c main_arg5 (ix2 u k)) (rowAt t p) p q
    (blk0_apply V c t p) (blk1_apply V c t p) (fun u => blk2_apply V c t u) (fun u => blk3_apply V c t u)
    (fun u k => blk4_apply V c t u k)

/-- A table index lies in tile t's block iff each coordinate lies in the block's range on its axis. -/
theorem mem_blk6 (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v27_1).slice (win0_6.rect t)).set ↔ _
  rw [View.set_slice_whole, Rect.mem_set_unit]
  exact Iff.rfl

/-- Row r lies in tile r / 2000: the fifty tiles cover the table. -/
theorem cover6 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, by show _ < grid0.N; rw [N_0]; omega⟩, rfl⟩
  obtain ⟨-, -, -, -, -, -, -, -, -, -, -, -, e0, e1⟩ := idx_facts t
  refine ⟨t, flush0_6 t, ?_⟩
  rw [mem_blk6]
  intro a
  match a with
  | ⟨0, _⟩ =>
    show win0_6.index t (0 : Fin 2) * 2000 ≤ (i 0).val ∧ (i 0).val < win0_6.index t (0 : Fin 2) * 2000 + 2000
    rw [e0, ht]; omega
  | ⟨1, _⟩ =>
    show win0_6.index t (1 : Fin 2) * 128 ≤ (i 1).val ∧ (i 1).val < win0_6.index t (1 : Fin 2) * 128 + 128
    rw [e1]; omega

/-- The f32 table after the region is the formula, everywhere. -/
theorem final6 (c : Dev nD) : (dat0 (F := Ideal) V c).arrAt 6 cfg0.N = tbl V c :=
  (dat0 V c).arrAt_eq_of_cover 6 (tbl V c) (fun t _ => flushed6_eq V c t) cover6

/-- The tile's result in the narrower float format is the same value. -/
theorem tile_eq_narrow (x0 x1 : Vec Ideal S2000x1 .f32) (x2 x3 : Vec Ideal S1x128 .f32) (x4 : Vec Ideal S128x128 .f32)
    (zc dc : Fin 100000 → EReal) (bb ww : Fin 128 → EReal) (WW : Fin 128 → Fin 128 → EReal)
    (r : Fin 100000) (p : Fin 2000) (q : Fin 128)
    (h0 : x0 (ix2 p 0) = zc r) (h1 : x1 (ix2 p 0) = dc r) (h2 : ∀ u, x2 (ix2 0 u) = bb u) (h3 : ∀ u, x3 (ix2 0 u) = ww u)
    (h4 : ∀ u k, x4 (ix2 u k) = WW u k) :
    k0_pay2 (F := Ideal) x1 x0 x3 x2 x4 (ix2 p q) = Cert.Gcn.reg0 zc dc bb ww WW r q := by
  unfold k0_pay2
  rw [truncf_apply]
  exact tile_eq x0 x1 x2 x3 x4 zc dc bb ww WW r p q h0 h1 h2 h3 h4

/-- What tile t writes back to the bf16 table is block t of the same formula. -/
theorem flushed5_eq (c : Dev nD) (t : Fin cfg0.N) :
    (dat0 (F := Ideal) V c).flushed 5 t = ((cfg0.win 5).blk t).view.read (Elt Ideal) (tbl V c) := by
  show (cfg0.win 5).cut (grid0.coords t) ((dat0 V c).after 5 t) = _
  rw [after0_5]
  unfold out0_5
  rw [View.canon_unit_zero hz]
  simp only [View.ld_unit_zero (S := S2000x1) hz, View.ld_unit_zero (S := S1x128) hz, View.ld_unit_zero (S := S128x128) hz]
  funext j
  obtain ⟨p, q, rfl⟩ : ∃ (p : Fin 2000) (q : Fin 128), j = ix2 p q := ⟨j 0, j 1, eq_ix2 j⟩
  obtain ⟨-, -, -, -, -, -, -, -, -, -, e0, e1, -⟩ := idx_facts t
  rw [View.read_apply]
  have hemb : ((cfg0.win 5).blk t).view.emb (ix2 p q) = ix2 (rowAt t p) q := by
    funext a; apply Fin.ext
    match a with
    | ⟨0, _⟩ => show win0_5.index t (0 : Fin 2) * 2000 + 1 * p.val = 2000 * t.val + p.val; rw [e0]; omega
    | ⟨1, _⟩ => show win0_5.index t (1 : Fin 2) * 128 + 1 * q.val = q.val; rw [e1]; omega
  show k0_pay2 (F := Ideal) (iblk0 V c 1 t) (iblk0 V c 0 t) (iblk0 V c 3 t) (iblk0 V c 2 t) (iblk0 V c 4 t) (ix2 p q)
    = tbl V c (((cfg0.win 5).blk t).view.emb (ix2 p q))
  rw [hemb]
  exact tile_eq_narrow (iblk0 V c 0 t) (iblk0 V c 1 t) (iblk0 V c 2 t) (iblk0 V c 3 t) (iblk0 V c 4 t)
    (fun r => V c main_v26 (ix2 r 0)) (fun r => V c main_v11 (ix2 r 0)) (fun u => V c main_v12 (ix2 0 u))
    (fun u => V c main_arg3 (ix2 0 u)) (fun u k => V c main_arg5 (ix2 u k)) (rowAt t p) p q
    (blk0_apply V c t p) (blk1_apply V c t p) (fun u => blk2_apply V c t u) (fun u => blk3_apply V c t u)
    (fun u k => blk4_apply V c t u k)

theorem mem_blk5 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v27_0).slice (win0_5.rect t)).set ↔ _
  rw [View.set_slice_whole, Rect.mem_set_unit]
  exact Iff.rfl

theorem cover5 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, by show _ < grid0.N; rw [N_0]; omega⟩, rfl⟩
  obtain ⟨-, -, -, -, -, -, -, -, -, -, e0, e1, -⟩ := idx_facts t
  refine ⟨t, flush0_5 t, ?_⟩
  rw [mem_blk5]
  intro a
  match a with
  | ⟨0, _⟩ =>
    show win0_5.index t (0 : Fin 2) * 2000 ≤ (i 0).val ∧ (i 0).val < win0_5.index t (0 : Fin 2) * 2000 + 2000
    rw [e0, ht]; omega
  | ⟨1, _⟩ =>
    show win0_5.index t (1 : Fin 2) * 128 ≤ (i 1).val ∧ (i 1).val < win0_5.index t (1 : Fin 2) * 128 + 128
    rw [e1]; omega

/-- The bf16 table after the region is the same formula, everywhere. -/
theorem final5 (c : Dev nD) : (dat0 (F := Ideal) V c).arrAt 5 cfg0.N = tbl V c :=
  (dat0 V c).arrAt_eq_of_cover 5 (tbl V c) (fun t _ => flushed5_eq V c t) cover5

/-- The copy kept for the self loop. -/
theorem arr6 (c : Dev nD) (r : Fin 100000) (k : Fin 128) :
    (dat0 (F := Ideal) V c).arrAt 6 cfg0.N (ix2 r k)
      = Cert.Gcn.reg0 (fun r => V c main_v26 (ix2 r 0)) (fun r => V c main_v11 (ix2 r 0)) (fun t => V c main_v12 (ix2 0 t))
          (fun t => V c main_arg3 (ix2 0 t)) (fun t k => V c main_arg5 (ix2 t k)) r k := by
  rw [final6 V c]
  rfl

/-- The copy that feeds the edge gather: the same values (a change of float format is the identity here). -/
theorem arr5 (c : Dev nD) (r : Fin 100000) (k : Fin 128) :
    (dat0 (F := Ideal) V c).arrAt 5 cfg0.N (ix2 r k)
      = Cert.Gcn.reg0 (fun r => V c main_v26 (ix2 r 0)) (fun r => V c main_v11 (ix2 r 0)) (fun t => V c main_v12 (ix2 0 t))
          (fun t => V c main_arg3 (ix2 0 t)) (fun t k => V c main_arg5 (ix2 t k)) r k := by
  rw [final5 V c]
  rfl

end Cert.KernelIdeal.Reg0

end
-- ==== Proof.KReg1.lean ====
/-
  Region 1 read as values: the two arrays it writes (the row-scaled layer-2 values, once for the edge gather and once for the self loop), at every index, from the arrays it reads. Same shape as region 0: fifty row tiles, each block one function of the tile's input blocks.
-/
import proofs.«410623_j52072183497149_3_alg».proof.Proof.Gen.KernelIdeal.Frame
import proofs.«410623_j52072183497149_3_alg».proof.Proof.Gcn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Reg1

open Cert.KernelIdeal Cert.KernelIdeal.Gen Idealize.ShloMosaic Idealize.ShloMosaic.TcCoe Idealize.SL.Sem
open Idealize.ShloMosaic.ValueIdx Idealize.ShloMosaic.Pipeline

/-! ## The tile's matrix product: which operand entries meet at an output entry -/

/-- The left operand is read in the output's row … -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … at the summation index; -/
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand at the summation index … -/
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … in the output's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A product of a 2000-row tile with a 128 × 128 matrix into a zero accumulator, at one entry: the sum over the
    shared index. -/
theorem matmul_tile_apply (a : FVec Ideal S2000x128 .bf16) (w : FVec Ideal S128x128 .bf16) (p : Fin 2000) (k : Fin 128) :
    FloatOps.matmul dot_S2000x128_S128x128_S2000x128_1_0_0_1_n_n none a w (constant (F := Ideal) S2000x128 .f32 0x00000000#32) (ix2 p k)
      = ∑ t : Fin 128, a (ix2 p t) * w (ix2 t k) := by
  rw [Ideal.matmul_constant_zero_apply, ← Equiv.sum_comp (contrEquiv1 dot_S2000x128_S128x128_S2000x128_1_0_0_1_n_n 128 rfl rfl).symm]
  refine Finset.sum_congr rfl fun t _ => ?_
  have ht := contrEquiv1_symm_val dot_S2000x128_S128x128_S2000x128_1_0_0_1_n_n 128 rfl rfl t
  have el : dot_S2000x128_S128x128_S2000x128_1_0_0_1_n_n.lhsIdx (ix2 p k) ((contrEquiv1 dot_S2000x128_S128x128_S2000x128_1_0_0_1_n_n 128 rfl rfl).symm t) = ix2 p t := funext fun a => Fin.ext (by
    match a with
    | ⟨0, _⟩ => exact lhs_row _ _
    | ⟨1, _⟩ => exact (lhs_col _ _).trans ht)
  have er : dot_S2000x128_S128x128_S2000x128_1_0_0_1_n_n.rhsIdx (ix2 p k) ((contrEquiv1 dot_S2000x128_S128x128_S2000x128_1_0_0_1_n_n 128 rfl rfl).symm t) = ix2 t k := funext fun a => Fin.ext (by
    match a with
    | ⟨0, _⟩ => exact (rhs_row _ _).trans ht
    | ⟨1, _⟩ => exact rhs_col _ _)
  rw [el, er]

/-- A column of 2000 entries spread over 128 columns reads, at (p, k), the column's entry p. -/
theorem spread_col_apply {α : Type} (v : S2000x1.Idx → α) (h : S2000x1.Broadcasts S2000x128) (p : Fin 2000) (k : Fin 128) :
    broadcastTo S2000x128 v h (ix2 p k) = v (ix2 p (0 : Fin 1)) := by
  refine broadcastTo_apply v h (ix2 p k) (ix2 p (0 : Fin 1)) fun ax => ?_
  match ax with
  | ⟨0, _⟩ => rfl
  | ⟨1, _⟩ => rfl

/-! ## One tile's result at one entry -/

/-- The tile's arithmetic at entry (p, k), from its five loaded blocks (the dinv column d, the row-scaled values h kept
    for the self loop, the edge aggregate a, the bias row b, the next weight matrix W): the activation row
    max (d p * (a p t + h p t) + b t) 0 against column k of W, times d p. -/
theorem pay_apply (d : Vec Ideal S2000x1 .f32) (h a : Vec Ideal S2000x128 .f32) (b : Vec Ideal S1x128 .f32) (W : Vec Ideal S128x128 .f32)
    (p : Fin 2000) (k : Fin 128) :
    k1_pay1 (F := Ideal) d h a b W (ix2 p k)
      = (∑ t : Fin 128, max (d (ix2 p 0) * (a (ix2 p t) + h (ix2 p t)) + b (ix2 0 t)) 0 * W (ix2 t k)) * d (ix2 p 0) := by
  unfold k1_pay1
  simp only [shapeCast_self, matmul]
  rw [mulf_apply, matmul_tile_apply, spread_col_apply]
  refine congrArg (· * d (ix2 p 0)) (Finset.sum_congr rfl fun t _ => ?_)
  rw [truncf_apply, truncf_apply, maximumf_apply, addf_apply, mulf_apply, addf_apply, spread_col_apply,
    broadcastTo_1b_ab_apply, broadcast_apply]
  show max _ (Ideal.ofBits .f32 0x00000000#32) * _ = _
  rw [Ideal.ofBits_zero_f32]

/-- The tile's result at (p, q) is the table's formula at row r and column q, once the tile's five blocks are known to
    hold row r of the two tables and of the column, and the whole of the bias row and the matrix. -/
theorem tile_eq (x0 x1 : Vec Ideal S2000x128 .f32) (x2 : Vec Ideal S2000x1 .f32) (x3 : Vec Ideal S1x128 .f32) (x4 : Vec Ideal S128x128 .f32)
    (ag hp : Fin 100000 → Fin 128 → EReal) (dc : Fin 100000 → EReal) (bb : Fin 128 → EReal) (WW : Fin 128 → Fin 128 → EReal)
    (r : Fin 100000) (p : Fin 2000) (q : Fin 128)
    (h0 : ∀ u, x0 (ix2 p u) = ag r u) (h1 : ∀ u, x1 (ix2 p u) = hp r u) (h2 : x2 (ix2 p 0) = dc r) (h3 : ∀ u, x3 (ix2 0 u) = bb u)
    (h4 : ∀ u k, x4 (ix2 u k) = WW u k) :
    k1_pay1 (F := Ideal) x2 x1 x0 x3 x4 (ix2 p q) = Cert.Gcn.reg1 ag hp dc bb WW r q := by
  rw [pay_apply, h2]
  simp only [h0, h1, h3, h4]
  rfl

/-- The tile's result in the narrower float format is the same value. -/
theorem tile_eq_narrow (x0 x1 : Vec Ideal S2000x128 .f32) (x2 : Vec Ideal S2000x1 .f32) (x3 : Vec Ideal S1x128 .f32) (x4 : Vec Ideal S128x128 .f32)
    (ag hp : Fin 100000 → Fin 128 → EReal) (dc : Fin 100000 → EReal) (bb : Fin 128 → EReal) (WW : Fin 128 → Fin 128 → EReal)
    (r : Fin 100000) (p : Fin 2000) (q : Fin 128)
    (h0 : ∀ u, x0 (ix2 p u) = ag r u) (h1 : ∀ u, x1 (ix2 p u) = hp r u) (h2 : x2 (ix2 p 0) = dc r) (h3 : ∀ u, x3 (ix2 0 u) = bb u)
    (h4 : ∀ u k, x4 (ix2 u k) = WW u k) :
    k1_pay2 (F := Ideal) x2 x1 x0 x3 x4 (ix2 p q) = Cert.Gcn.reg1 ag hp dc bb WW r q := by
  unfold k1_pay2
  rw [truncf_apply]
  exact tile_eq x0 x1 x2 x3 x4 ag hp dc bb WW r p q h0 h1 h2 h3 h4

variable (V : (c : Dev nD) → (b : Ref sig .tc) → Buf (Elt Ideal) ((c : Thread nD τ).loc b))

/-! ## From tiles to the table -/

theorem hz : (![0, 0] : Fin 2 → Nat) = fun _ => 0 := funext fun a => by fin_cases a <;> rfl

/-- The table region 1 leaves, as one function of the tables it reads. -/
def tbl (c : Dev nD) : S100000x128.Idx → EReal := fun i =>
  Cert.Gcn.reg1 (fun r t => V c main_v38 (ix2 r t)) (fun r t => V c main_v27_1 (ix2 r t)) (fun r => V c main_v11 (ix2 r 0))
    (fun t => V c main_v13 (ix2 0 t)) (fun t k => V c main_arg7 (ix2 t k)) ⟨(i 0).val, (i 0).isLt⟩ ⟨(i 1).val, (i 1).isLt⟩

/-- Tile t of a row-tiled window is block (t, 0); a whole-array window is always at block (0, 0). Decided over the
    fifty tiles. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Entry p of tile t is table row 2000 t + p. -/
def rowAt (t : Fin cfg1.N) (p : Fin 2000) : Fin 100000 :=
  ⟨2000 * t.val + p.val, by have ht : t.val < grid1.N := t.isLt; have hN := N_1; have hp := p.isLt; omega⟩

/-- The edge aggregate's block at tile t holds rows 2000 t … 2000 t + 1999 of the table. -/
theorem blk0_apply (c : Dev nD) (t : Fin cfg1.N) (p : Fin 2000) (u : Fin 128) :
    (iblk1 V c 0 t : Vec Ideal S2000x128 .f32) (ix2 p u) = V c main_v38 (ix2 (rowAt t p) u) := by
  obtain ⟨e0, e1, -⟩ := idx_facts t
  unfold iblk1
  rw [View.read_apply]
  show V c main_v38 (((cfg1.win 0).blk t).view.emb (ix2 p u)) = V c main_v38 (ix2 (rowAt t p) u)
  congr 1
  funext a; apply Fin.ext
  match a with
  | ⟨0, _⟩ => show win1_0.index t (0 : Fin 2) * 2000 + 1 * p.val = 2000 * t.val + p.val; rw [e0]; omega
  | ⟨1, _⟩ => show win1_0.index t (1 : Fin 2) * 128 + 1 * u.val = u.val; rw [e1]; omega

/-- The kept row-scaled values' block at tile t likewise. -/
theorem blk1_apply (c : Dev nD) (t : Fin cfg1.N) (p : Fin 2000) (u : Fin 128) :
    (iblk1 V c 1 t : Vec Ideal S2000x128 .f32) (ix2 p u) = V c main_v27_1 (ix2 (rowAt t p) u) := by
  obtain ⟨-, -, e0, e1, -⟩ := idx_facts t
  unfold iblk1
  rw [View.read_apply]
  show V c main_v27_1 (((cfg1.win 1).blk t).view.emb (ix2 p u)) = V c main_v27_1 (ix2 (rowAt t p) u)
  congr 1
  funext a; apply Fin.ext
  match a with
  | ⟨0, _⟩ => show win1_1.index t (0 : Fin 2) * 2000 + 1 * p.val = 2000 * t.val + p.val; rw [e0]; omega
  | ⟨1, _⟩ => show win1_1.index t (1 : Fin 2) * 128 + 1 * u.val = u.val; rw [e1]; omega

/-- The dinv column's block at tile t holds the same rows of the column. -/
theorem blk2_apply (c : Dev nD) (t : Fin cfg1.N) (p : Fin 2000) :
    (iblk1 V c 2 t : Vec Ideal S2000x1 .f32) (ix2 p 0) = V c main_v11 (ix2 (rowAt t p) 0) := by
  obtain ⟨-, -, -, -, e0, e1, -⟩ := idx_facts t
  unfold iblk1
  rw [View.read_apply]
  show V c main_v11 (((cfg1.win 2).blk t).view.emb (ix2 p 0)) = V c main_v11 (ix2 (rowAt t p) 0)
  congr 1
  funext a; apply Fin.ext
  match a with
  | ⟨0, _⟩ => show win1_2.index t (0 : Fin 2) * 2000 + 1 * p.val = 2000 * t.val + p.val; rw [e0]; omega
  | ⟨1, _⟩ => show win1_2.index t (1 : Fin 2) * 1 + 1 * 0 = 0; rw [e1]

/-- The bias row's block is the whole row at every tile. -/
theorem blk3_apply (c : Dev nD) (t : Fin cfg1.N) (u : Fin 128) :
    (iblk1 V c 3 t : Vec Ideal S1x128 .f32) (ix2 0 u) = V c main_v13 (ix2 0 u) := by
  obtain ⟨-, -, -, -, -, -, e0, e1, -⟩ := idx_facts t
  unfold iblk1
  rw [View.read_apply]
  show V c main_v13 (((cfg1.win 3).blk t).view.emb (ix2 0 u)) = V c main_v13 (ix2 0 u)
  congr 1
  funext a; apply Fin.ext
  match a with
  | ⟨0, _⟩ => show win1_3.index t (0 : Fin 2) * 1 + 1 * 0 = 0; rw [e0]
  | ⟨1, _⟩ => show win1_3.index t (1 : Fin 2) * 128 + 1 * u.val = u.val; rw [e1]; omega

/-- The weight matrix's block is the whole matrix at every tile. -/
theorem blk4_apply (c : Dev nD) (t : Fin cfg1.N) (u k : Fin 128) :
    (iblk1 V c 4 t : Vec Ideal S128x128 .f32) (ix2 u k) = V c main_arg7 (ix2 u k) := by
  obtain ⟨-, -, -, -, -, -, -, -, e0, e1, -⟩ := idx_facts t
  unfold iblk1
  rw [View.read_apply]
  show V c main_arg7 (((cfg1.win 4).blk t).view.emb (ix2 u k)) = V c main_arg7 (ix2 u k)
  congr 1
  funext a; apply Fin.ext
  match a with
  | ⟨0, _⟩ => show win1_4.index t (0 : Fin 2) * 128 + 1 * u.val = u.val; rw [e0]; omega
  | ⟨1, _⟩ => show win1_4.index t (1 : Fin 2) * 128 + 1 * k.val = k.val; rw [e1]; omega

/-- What tile t writes back to the f32 table is block t of the table's formula. -/
theorem flushed6_eq (c : Dev nD) (t : Fin cfg1.N) :
    (dat1 (F := Ideal) V c).flushed 6 t = ((cfg1.win 6).blk t).view.read (Elt Ideal) (tbl V c) := by
  show (cfg1.win 6).cut (grid1.coords t) ((dat1 V c).after 6 t) = _
  rw [after1_6]
  unfold out1_6
  rw [View.canon_unit_zero hz]
  simp only [View.ld_unit_zero (S := S2000x1) hz, View.ld_unit_zero (S := S2000x128) hz, View.ld_unit_zero (S := S1x128) hz,
    View.ld_unit_zero (S := S128x128) hz]
  funext j
  obtain ⟨p, q, rfl⟩ : ∃ (p : Fin 2000) (q : Fin 128), j = ix2 p q := ⟨j 0, j 1, eq_ix2 j⟩
  obtain ⟨-, -, -, -, -, -, -, -, -, -, -, -, e0, e1⟩ := idx_facts t
  rw [View.read_apply]
  have hemb : ((cfg1.win 6).blk t).view.emb (ix2 p q) = ix2 (rowAt t p) q := by
    funext a; apply Fin.ext
    match a with
    | ⟨0, _⟩ => show win1_6.index t (0 : Fin 2) * 2000 + 1 * p.val = 2000 * t.val + p.val; rw [e0]; omega
    | ⟨1, _⟩ => show win1_6.index t (1 : Fin 2) * 128 + 1 * q.val = q.val; rw [e1]; omega
  show k1_pay1 (F := Ideal) (iblk1 V c 2 t) (iblk1 V c 1 t) (iblk1 V c 0 t) (iblk1 V c 3 t) (iblk1 V c 4 t) (ix2 p q)
    = tbl V c (((cfg1.win 6).blk t).view.emb (ix2 p q))
  rw [hemb]
  exact tile_eq (iblk1 V c 0 t) (iblk1 V c 1 t) (iblk1 V c 2 t) (iblk1 V c 3 t) (iblk1 V c 4 t)
    (fun r u => V c main_v38 (ix2 r u)) (fun r u => V c main_v27_1 (ix2 r u)) (fun r => V c main_v11 (ix2 r 0))
    (fun u => V c main_v13 (ix2 0 u)) (fun u k => V c main_arg7 (ix2 u k)) (rowAt t p) p q
    (fun u => blk0_apply V c t p u) (fun u => blk1_apply V c t p u) (blk2_apply V c t p) (fun u => blk3_apply V c t u)
    (fun u k => blk4_apply V c t u k)

/-- A table index lies in tile t's block iff each coordinate lies in the block's range on its axis. -/
theorem mem_blk6 (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v39_1).slice (win1_6.rect t)).set ↔ _
  rw [View.set_slice_whole, Rect.mem_set_unit]
  exact Iff.rfl

/-- Row r lies in tile r / 2000: the fifty tiles cover the table. -/
theorem cover6 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ : ∃ t : Fin cfg1.N, t.val = (i 0).val / 2000 :=
    ⟨⟨(i 0).val / 2000, by show _ < grid1.N; rw [N_1]; omega⟩, rfl⟩
  obtain ⟨-, -, -, -, -, -, -, -, -, -, -, -, e0, e1⟩ := idx_facts t
  refine ⟨t, flush1_6 t, ?_⟩
  rw [mem_blk6]
  intro a
  match a with
  | ⟨0, _⟩ =>
    show win1_6.index t (0 : Fin 2) * 2000 ≤ (i 0).val ∧ (i 0).val < win1_6.index t (0 : Fin 2) * 2000 + 2000
    rw [e0, ht]; omega
  | ⟨1, _⟩ =>
    show win1_6.index t (1 : Fin 2) * 128 ≤ (i 1).val ∧ (i 1).val < win1_6.index t (1 : Fin 2) * 128 + 128
    rw [e1]; omega

/-- The f32 table after the region is the formula, everywhere. -/
theorem final6 (c : Dev nD) : (dat1 (F := Ideal) V c).arrAt 6 cfg1.N = tbl V c :=
  (dat1 V c).arrAt_eq_of_cover 6 (tbl V c) (fun t _ => flushed6_eq V c t) cover6

/-- What tile t writes back to the bf16 table is block t of the same formula. -/
theorem flushed5_eq (c : Dev nD) (t : Fin cfg1.N) :
    (dat1 (F := Ideal) V c).flushed 5 t = ((cfg1.win 5).blk t).view.read (Elt Ideal) (tbl V c) := by
  show (cfg1.win 5).cut (grid1.coords t) ((dat1 V c).after 5 t) = _
  rw [after1_5]
  unfold out1_5
  rw [View.canon_unit_zero hz]
  simp only [View.ld_unit_zero (S := S2000x1) hz, View.ld_unit_zero (S := S2000x128) hz, View.ld_unit_zero (S := S1x128) hz,
    View.ld_unit_zero (S := S128x128) hz]
  funext j
  obtain ⟨p, q, rfl⟩ : ∃ (p : Fin 2000) (q : Fin 128), j = ix2 p q := ⟨j 0, j 1, eq_ix2 j⟩
  obtain ⟨-, -, -, -, -, -, -, -, -, -, e0, e1, -⟩ := idx_facts t
  rw [View.read_apply]
  have hemb : ((cfg1.win 5).blk t).view.emb (ix2 p q) = ix2 (rowAt t p) q := by
    funext a; apply Fin.ext
    match a with
    | ⟨0, _⟩ => show win1_5.index t (0 : Fin 2) * 2000 + 1 * p.val = 2000 * t.val + p.val; rw [e0]; omega
    | ⟨1, _⟩ => show win1_5.index t (1 : Fin 2) * 128 + 1 * q.val = q.val; rw [e1]; omega
  show k1_pay2 (F := Ideal) (iblk1 V c 2 t) (iblk1 V c 1 t) (iblk1 V c 0 t) (iblk1 V c 3 t) (iblk1 V c 4 t) (ix2 p q)
    = tbl V c (((cfg1.win 5).blk t).view.emb (ix2 p q))
  rw [hemb]
  exact tile_eq_narrow (iblk1 V c 0 t) (iblk1 V c 1 t) (iblk1 V c 2 t) (iblk1 V c 3 t) (iblk1 V c 4 t)
    (fun r u => V c main_v38 (ix2 r u)) (fun r u => V c main_v27_1 (ix2 r u)) (fun r => V c main_v11 (ix2 r 0))
    (fun u => V c main_v13 (ix2 0 u)) (fun u k => V c main_arg7 (ix2 u k)) (rowAt t p) p q
    (fun u => blk0_apply V c t p u) (fun u => blk1_apply V c t p u) (blk2_apply V c t p) (fun u => blk3_apply V c t u)
    (fun u k => blk4_apply V c t u k)

theorem mem_blk5 (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v39_0).slice (win1_5.rect t)).set ↔ _
  rw [View.set_slice_whole, Rect.mem_set_unit]
  exact Iff.rfl

theorem cover5 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ : ∃ t : Fin cfg1.N, t.val = (i 0).val / 2000 :=
    ⟨⟨(i 0).val / 2000, by show _ < grid1.N; rw [N_1]; omega⟩, rfl⟩
  obtain ⟨-, -, -, -, -, -, -, -, -, -, e0, e1, -⟩ := idx_facts t
  refine ⟨t, flush1_5 t, ?_⟩
  rw [mem_blk5]
  intro a
  match a with
  | ⟨0, _⟩ =>
    show win1_5.index t (0 : Fin 2) * 2000 ≤ (i 0).val ∧ (i 0).val < win1_5.index t (0 : Fin 2) * 2000 + 2000
    rw [e0, ht]; omega
  | ⟨1, _⟩ =>
    show win1_5.index t (1 : Fin 2) * 128 ≤ (i 1).val ∧ (i 1).val < win1_5.index t (1 : Fin 2) * 128 + 128
    rw [e1]; omega

/-- The bf16 table after the region is the same formula, everywhere. -/
theorem final5 (c : Dev nD) : (dat1 (F := Ideal) V c).arrAt 5 cfg1.N = tbl V c :=
  (dat1 V c).arrAt_eq_of_cover 5 (tbl V c) (fun t _ => flushed5_eq V c t) cover5

/-- The copy kept for the self loop. -/
theorem arr6 (c : Dev nD) (r : Fin 100000) (k : Fin 128) :
    (dat1 (F := Ideal) V c).arrAt 6 cfg1.N (ix2 r k)
      = Cert.Gcn.reg1 (fun r t => V c main_v38 (ix2 r t)) (fun r t => V c main_v27_1 (ix2 r t)) (fun r => V c main_v11 (ix2 r 0))
          (fun t => V c main_v13 (ix2 0 t)) (fun t k => V c main_arg7 (ix2 t k)) r k := by
  rw [final6 V c]
  rfl

/-- The copy that feeds the edge gather: the same values. -/
theorem arr5 (c : Dev nD) (r : Fin 100000) (k : Fin 128) :
    (dat1 (F := Ideal) V c).arrAt 5 cfg1.N (ix2 r k)
      = Cert.Gcn.reg1 (fun r t => V c main_v38 (ix2 r t)) (fun r t => V c main_v27_1 (ix2 r t)) (fun r => V c main_v11 (ix2 r 0))
          (fun t => V c main_v13 (ix2 0 t)) (fun t k => V c main_arg7 (ix2 t k)) r k := by
  rw [final5 V c]
  rfl

end Cert.KernelIdeal.Reg1

end
-- ==== Proof.KReg2.lean ====
/-
  Region 2 read as values: the two accumulators it writes, one slab per half of the node range. Grid point (h, j) handles rows (25 h + j) * 2000 … + 1999; the first point of a half clears the half's slab, every point adds its tile's one-hot product. After the run, slab h of the sums holds, at (g, k), the sum of the last layer's activation over the half's rows whose graph word equals graph g's identifier; slab h of the counts holds the number of such rows.

  The argument. One run of the body leaves in a slab what the slab held (zero at the first point of a half) plus the product, over the tile's 2000 rows, of the one-hot (row's graph word = column's identifier, as 1 or 0) with the activation max (dinv * (agg + hprev) + bias) 0, or with ones. Over the extended reals 1 * x = x and 0 * x = 0, so a tile's product at (g, k) is the sum of the activation over the tile's rows whose word matches. By induction on the point, after point n the slab holds that sum over the matching rows of the tiles from the first of n's half up to n; at the last point of a half these are all the rows of the half, and that is the one point at which the half's slab is written back to the array.
-/
import proofs.«410623_j52072183497149_3_alg».proof.Proof.Gen.KernelIdeal.Frame
import proofs.«410623_j52072183497149_3_alg».proof.Proof.Gcn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Reg2

open Cert.KernelIdeal Cert.KernelIdeal.Gen Idealize.ShloMosaic Idealize.ShloMosaic.TcCoe Idealize.SL.Sem
open Idealize.ShloMosaic.ValueIdx Idealize.ShloMosaic.Pipeline

theorem hz3 : (![0, 0, 0] : Fin 3 → Nat) = fun _ => 0 := funext fun a => by fin_cases a <;> rfl
theorem hz2 : (![0, 0] : Fin 2 → Nat) = fun _ => 0 := funext fun a => by fin_cases a <;> rfl

/-! ## What one run of the body leaves in the two slabs

At a later point of a half the body reads the slab, adds its tile's product and stores the result: one covering
store. At the first point it stores zeros first, reads them back and then does the same: two stores of which the
later covers. -/

/-- A later point, the sums: the slab it found plus the tile's product. -/
theorem out_B_6 (c : Dev nD) (i : grid2.Coords) (a2 : Memref sig .tc .vmem S2000x128 .f32) (h2 : a2.IsWhole) (a3 : Memref sig .tc .vmem S2000x128 .f32) (h3 : a3.IsWhole) (a4 : Memref sig .tc .vmem S2000x1 .f32) (h4 : a4.IsWhole) (a5 : Memref sig .tc .vmem S1x128 .f32) (h5 : a5.IsWhole) (a6 : Memref sig .tc .vmem S2000x1 .i32) (h6 : a6.IsWhole) (a7 : Memref sig .tc .vmem S1x512 .i32) (h7 : a7.IsWhole) (a8 : Memref sig .tc .vmem S1x512x128 .f32) (h8 : a8.IsWhole) (a9 : Memref sig .tc .vmem S1x512x1 .f32) (h9 : a9.IsWhole) (hc : ¬cond2_0 i) (x0 : Vec Ideal S2000x128 .f32) (x1 : Vec Ideal S2000x128 .f32) (x2 : Vec Ideal S2000x1 .f32) (x3 : Vec Ideal S1x128 .f32) (x4 : Vec Ideal S2000x1 .i32) (x5 : Vec Ideal S1x512 .i32) (xo6 : Vec Ideal S1x512x128 .f32) (xo7 : Vec Ideal S1x512x1 .f32) :
    out2_B_6 (F := Ideal) c i a2 h2 a3 h3 a4 h4 a5 h5 a6 h6 a7 h7 a8 h8 a9 h9 hc x0 x1 x2 x3 x4 x5 xo6 xo7 = k2_pay1 (k2_pay7 x2 x1 x0 x3 x4 x5 xo6) := by
  unfold out2_B_6
  rw [View.read_writes_eq_canon _ _ _ (cover2_B_6 c i a2 h2 a3 h3 a4 h4 a5 h5 a6 h6 a7 h7 a8 h8 a9 h9 hc x0 x1 x2 x3 x4 x5 xo6 xo7)]
  unfold kernelRun2_B
  dsimp only
  sl_unfold_words
  rw [View.canon_unit_zero hz3]
  simp only [View.readAt_eq_ld, h2.read_unread, h3.read_unread, h4.read_unread, h5.read_unread, h6.read_unread,
    h7.read_unread, h8.read_unread, View.ld_unit_zero (S := S2000x128) hz2, View.ld_unit_zero (S := S2000x1) hz2,
    View.ld_unit_zero (S := S1x128) hz2, View.ld_unit_zero (S := S1x512) hz2, View.ld_unit_zero (S := S1x512x128) hz3]

/-- A later point, the counts: the slab it found plus the tile's one-hot column sums. -/
theorem out_B_7 (c : Dev nD) (i : grid2.Coords) (a2 : Memref sig .tc .vmem S2000x128 .f32) (h2 : a2.IsWhole) (a3 : Memref sig .tc .vmem S2000x128 .f32) (h3 : a3.IsWhole) (a4 : Memref sig .tc .vmem S2000x1 .f32) (h4 : a4.IsWhole) (a5 : Memref sig .tc .vmem S1x128 .f32) (h5 : a5.IsWhole) (a6 : Memref sig .tc .vmem S2000x1 .i32) (h6 : a6.IsWhole) (a7 : Memref sig .tc .vmem S1x512 .i32) (h7 : a7.IsWhole) (a8 : Memref sig .tc .vmem S1x512x128 .f32) (h8 : a8.IsWhole) (a9 : Memref sig .tc .vmem S1x512x1 .f32) (h9 : a9.IsWhole) (hc : ¬cond2_0 i) (x0 : Vec Ideal S2000x128 .f32) (x1 : Vec Ideal S2000x128 .f32) (x2 : Vec Ideal S2000x1 .f32) (x3 : Vec Ideal S1x128 .f32) (x4 : Vec Ideal S2000x1 .i32) (x5 : Vec Ideal S1x512 .i32) (xo6 : Vec Ideal S1x512x128 .f32) (xo7 : Vec Ideal S1x512x1 .f32) :
    out2_B_7 (F := Ideal) c i a2 h2 a3 h3 a4 h4 a5 h5 a6 h6 a7 h7 a8 h8 a9 h9 hc x0 x1 x2 x3 x4 x5 xo6 xo7 = k2_pay2 (k2_pay5 x4 x5) (k2_pay6 (F := Ideal)) xo7 := by
  unfold out2_B_7
  rw [View.read_writes_eq_canon _ _ _ (cover2_B_7 c i a2 h2 a3 h3 a4 h4 a5 h5 a6 h6 a7 h7 a8 h8 a9 h9 hc x0 x1 x2 x3 x4 x5 xo6 xo7)]
  unfold kernelRun2_B
  dsimp only
  sl_unfold_words
  rw [View.canon_unit_zero hz3]
  simp only [View.readAt_eq_ld, h2.read_unread, h3.read_unread, h4.read_unread, h5.read_unread, h6.read_unread,
    h7.read_unread, h9.read_unread, View.ld_unit_zero (S := S2000x1) hz2,
    View.ld_unit_zero (S := S1x512) hz2, View.ld_unit_zero (S := S1x512x1) hz3]

/-- The first point of a half, the sums: zeros plus the tile's product. -/
theorem out_A_6 (c : Dev nD) (i : grid2.Coords) (a2 : Memref sig .tc .vmem S2000x128 .f32) (h2 : a2.IsWhole) (a3 : Memref sig .tc .vmem S2000x128 .f32) (h3 : a3.IsWhole) (a4 : Memref sig .tc .vmem S2000x1 .f32) (h4 : a4.IsWhole) (a5 : Memref sig .tc .vmem S1x128 .f32) (h5 : a5.IsWhole) (a6 : Memref sig .tc .vmem S2000x1 .i32) (h6 : a6.IsWhole) (a7 : Memref sig .tc .vmem S1x512 .i32) (h7 : a7.IsWhole) (a8 : Memref sig .tc .vmem S1x512x128 .f32) (h8 : a8.IsWhole) (a9 : Memref sig .tc .vmem S1x512x1 .f32) (h9 : a9.IsWhole) (hc : cond2_0 i) (x0 : Vec Ideal S2000x128 .f32) (x1 : Vec Ideal S2000x128 .f32) (x2 : Vec Ideal S2000x1 .f32) (x3 : Vec Ideal S1x128 .f32) (x4 : Vec Ideal S2000x1 .i32) (x5 : Vec Ideal S1x512 .i32) :
    out2_A_6 (F := Ideal) c i a2 h2 a3 h3 a4 h4 a5 h5 a6 h6 a7 h7 a8 h8 a9 h9 hc x0 x1 x2 x3 x4 x5 = k2_pay1 (k2_pay7 x2 x1 x0 x3 x4 x5 (k2_pay3 (F := Ideal))) := by
  unfold out2_A_6
  rw [View.read_writes_eq_canon _ _ _ (cover2_A_6 c i a2 h2 a3 h3 a4 h4 a5 h5 a6 h6 a7 h7 a8 h8 a9 h9 hc x0 x1 x2 x3 x4 x5)]
  unfold kernelRun2_A
  dsimp only
  sl_unfold_words
  rw [View.canon_cons_unit_zero (S := S1x512x128) hz3, View.readCov_unit_zero (S := S1x512x128) _ hz3]
  simp only [View.readAt_eq_ld, h2.read_unread, h3.read_unread, h4.read_unread, h5.read_unread, h6.read_unread,
    h7.read_unread, View.ld_unit_zero (S := S2000x128) hz2, View.ld_unit_zero (S := S2000x1) hz2,
    View.ld_unit_zero (S := S1x128) hz2, View.ld_unit_zero (S := S1x512) hz2, View.ld_unit_zero (S := S1x512x128) hz3]

/-- The first point of a half, the counts: zeros plus the tile's one-hot column sums. -/
theorem out_A_7 (c : Dev nD) (i : grid2.Coords) (a2 : Memref sig .tc .vmem S2000x128 .f32) (h2 : a2.IsWhole) (a3 : Memref sig .tc .vmem S2000x128 .f32) (h3 : a3.IsWhole) (a4 : Memref sig .tc .vmem S2000x1 .f32) (h4 : a4.IsWhole) (a5 : Memref sig .tc .vmem S1x128 .f32) (h5 : a5.IsWhole) (a6 : Memref sig .tc .vmem S2000x1 .i32) (h6 : a6.IsWhole) (a7 : Memref sig .tc .vmem S1x512 .i32) (h7 : a7.IsWhole) (a8 : Memref sig .tc .vmem S1x512x128 .f32) (h8 : a8.IsWhole) (a9 : Memref sig .tc .vmem S1x512x1 .f32) (h9 : a9.IsWhole) (hc : cond2_0 i) (x0 : Vec Ideal S2000x128 .f32) (x1 : Vec Ideal S2000x128 .f32) (x2 : Vec Ideal S2000x1 .f32) (x3 : Vec Ideal S1x128 .f32) (x4 : Vec Ideal S2000x1 .i32) (x5 : Vec Ideal S1x512 .i32) :
    out2_A_7 (F := Ideal) c i a2 h2 a3 h3 a4 h4 a5 h5 a6 h6 a7 h7 a8 h8 a9 h9 hc x0 x1 x2 x3 x4 x5 = k2_pay2 (k2_pay5 x4 x5) (k2_pay6 (F := Ideal)) (k2_pay4 (F := Ideal)) := by
  unfold out2_A_7
  rw [View.read_writes_eq_canon _ _ _ (cover2_A_7 c i a2 h2 a3 h3 a4 h4 a5 h5 a6 h6 a7 h7 a8 h8 a9 h9 hc x0 x1 x2 x3 x4 x5)]
  unfold kernelRun2_A
  dsimp only
  sl_unfold_words
  rw [View.canon_cons_unit_zero (S := S1x512x1) hz3, View.readCov_unit_zero (S := S1x512x1) _ hz3]
  simp only [View.readAt_eq_ld, h2.read_unread, h3.read_unread, h4.read_unread, h5.read_unread, h6.read_unread,
    h7.read_unread, View.ld_unit_zero (S := S2000x1) hz2,
    View.ld_unit_zero (S := S1x512) hz2, View.ld_unit_zero (S := S1x512x1) hz3]

/-! ## The body's arithmetic at an index -/

/-- A column broadcast along the rows reads the column. -/
theorem bcast_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-hot of two words as an extended real: 1 when they are equal, 0 otherwise. -/
theorem onehot_word (a b : BitVec 32) :
    (FloatOps.sitofp (F := Ideal) .f32 ((IntOp.cmpi .eq a b).setWidth 32) : EReal) = if a = b then 1 else 0 := by
  by_cases h : a = b
  · subst h
    rw [if_pos rfl]
    have hb : (a == a) = true := by simp
    show ((((BitVec.ofBool (a == a)).setWidth 32).toInt : ℝ) : EReal) = 1
    rw [hb, show ((BitVec.ofBool true).setWidth 32).toInt = 1 from by decide]
    norm_num
  · rw [if_neg h]
    have hb : (a == b) = false := by simpa using h
    show ((((BitVec.ofBool (a == b)).setWidth 32).toInt : ℝ) : EReal) = 0
    rw [hb, show ((BitVec.ofBool false).setWidth 32).toInt = 0 from by decide]
    norm_num

/-- The one-hot tile at (row, graph): the row's graph word against the graph's identifier. -/
theorem onehot_apply (x4 : Vec Ideal S2000x1 .i32) (x5 : Vec Ideal S1x512 .i32) (q : Fin 2000) (g : Fin 512) :
    k2_pay5 (F := Ideal) x4 x5 (ix2 q g) = if x4 (ix2 q 0) = x5 (ix2 0 g) then (1 : EReal) else 0 := by
  unfold k2_pay5
  refine Eq.trans ?_ (onehot_word (x4 (ix2 q 0)) (x5 (ix2 0 g)))
  show FloatOps.sitofp (F := Ideal) .f32
      ((IntOp.cmpi .eq (broadcastTo S2000x512 (shapeCast S2000x1 x4 shapeCasts_S2000x1_S2000x1) broadcasts_S2000x1_S2000x512 (ix2 q g))
        (broadcastTo S2000x512 (shapeCast S1x512 x5 shapeCasts_S1x512_S1x512) broadcasts_S1x512_S2000x512 (ix2 q g))).setWidth 32) = _
  rw [shapeCast_self, shapeCast_self, bcast_col, broadcastTo_1b_ab_apply]

/-- The last layer's activation of a tile, at (row, feature). -/
def actTile (x0 x1 : Vec Ideal S2000x128 .f32) (x2 : Vec Ideal S2000x1 .f32) (x3 : Vec Ideal S1x128 .f32)
    (q : Fin 2000) (k : Fin 128) : EReal :=
  max (x2 (ix2 q 0) * (x0 (ix2 q k) + x1 (ix2 q k)) + x3 (ix2 0 k)) 0

theorem lhs6_0 (i : S512x128.Idx) (q : dot_S2000x512_S2000x128_S512x128_0_0_1_1_n_n.contr.Idx) :
    (dot_S2000x512_S2000x128_S512x128_0_0_1_1_n_n.lhsIdx i q 0).val = (q ⟨0, by decide⟩).val :=
  dot_S2000x512_S2000x128_S512x128_0_0_1_1_n_n.lhsIdx_val_of_single rfl i q
theorem lhs6_1 (i : S512x128.Idx) (q : dot_S2000x512_S2000x128_S512x128_0_0_1_1_n_n.contr.Idx) :
    (dot_S2000x512_S2000x128_S512x128_0_0_1_1_n_n.lhsIdx i q 1).val = (i 0).val := by
  unfold DotDims.lhsIdx
  rw [dif_neg (show ¬(1 : Fin S2000x512.rank) ∈ dot_S2000x512_S2000x128_S512x128_0_0_1_1_n_n.lhsBatch by decide), dif_pos (show (1 : Fin S2000x512.rank) ∈ dot_S2000x512_S2000x128_S512x128_0_0_1_1_n_n.lhsNonContracting by decide)]
  rfl
theorem rhs6_0 (i : S512x128.Idx) (q : dot_S2000x512_S2000x128_S512x128_0_0_1_1_n_n.contr.Idx) :
    (dot_S2000x512_S2000x128_S512x128_0_0_1_1_n_n.rhsIdx i q 0).val = (q ⟨0, by decide⟩).val :=
  dot_S2000x512_S2000x128_S512x128_0_0_1_1_n_n.rhsIdx_val_of_single rfl i q
theorem rhs6_1 (i : S512x128.Idx) (q : dot_S2000x512_S2000x128_S512x128_0_0_1_1_n_n.contr.Idx) :
    (dot_S2000x512_S2000x128_S512x128_0_0_1_1_n_n.rhsIdx i q 1).val = (i 1).val := by
  unfold DotDims.rhsIdx
  rw [dif_neg (show ¬(1 : Fin S2000x128.rank) ∈ dot_S2000x512_S2000x128_S512x128_0_0_1_1_n_n.rhsBatch by decide), dif_pos (show (1 : Fin S2000x128.rank) ∈ dot_S2000x512_S2000x128_S512x128_0_0_1_1_n_n.rhsNonContracting by decide)]
  rfl

/-- The product contracts the row axis of both operands: at (graph, column) it is the sum over the tile's rows. -/
theorem matmul6_apply (l : FVec Ideal S2000x512 .bf16) (r : FVec Ideal S2000x128 .bf16) (g : Fin 512) (k : Fin 128) :
    matmul dot_S2000x512_S2000x128_S512x128_0_0_1_1_n_n none l r (constant (F := Ideal) S512x128 .f32 0x00000000#32) (ix2 g k)
      = ∑ q : Fin 2000, l (ix2 q g) * r (ix2 q k) := by
  simp only [matmul]
  rw [Ideal.matmul_constant_zero_apply, ← Equiv.sum_comp (contrEquiv1 dot_S2000x512_S2000x128_S512x128_0_0_1_1_n_n 2000 rfl rfl).symm]
  refine Finset.sum_congr rfl fun q _ => ?_
  have hk := contrEquiv1_symm_val dot_S2000x512_S2000x128_S512x128_0_0_1_1_n_n 2000 rfl rfl q
  have el : dot_S2000x512_S2000x128_S512x128_0_0_1_1_n_n.lhsIdx (ix2 g k) ((contrEquiv1 dot_S2000x512_S2000x128_S512x128_0_0_1_1_n_n 2000 rfl rfl).symm q) = ix2 q g := funext fun a => Fin.ext (by
    match a with
    | ⟨0, _⟩ => exact (lhs6_0 _ _).trans hk
    | ⟨1, _⟩ => exact lhs6_1 _ _)
  have er : dot_S2000x512_S2000x128_S512x128_0_0_1_1_n_n.rhsIdx (ix2 g k) ((contrEquiv1 dot_S2000x512_S2000x128_S512x128_0_0_1_1_n_n 2000 rfl rfl).symm q) = ix2 q k := funext fun a => Fin.ext (by
    match a with
    | ⟨0, _⟩ => exact (rhs6_0 _ _).trans hk
    | ⟨1, _⟩ => exact rhs6_1 _ _)
  rw [el, er]

theorem lhs7_0 (i : S512x1.Idx) (q : dot_S2000x512_S2000x1_S512x1_0_0_1_1_n_n.contr.Idx) :
    (dot_S2000x512_S2000x1_S512x1_0_0_1_1_n_n.lhsIdx i q 0).val = (q ⟨0, by decide⟩).val :=
  dot_S2000x512_S2000x1_S512x1_0_0_1_1_n_n.lhsIdx_val_of_single rfl i q
theorem lhs7_1 (i : S512x1.Idx) (q : dot_S2000x512_S2000x1_S512x1_0_0_1_1_n_n.contr.Idx) :
    (dot_S2000x512_S2000x1_S512x1_0_0_1_1_n_n.lhsIdx i q 1).val = (i 0).val := by
  unfold DotDims.lhsIdx
  rw [dif_neg (show ¬(1 : Fin S2000x512.rank) ∈ dot_S2000x512_S2000x1_S512x1_0_0_1_1_n_n.lhsBatch by decide), dif_pos (show (1 : Fin S2000x512.rank) ∈ dot_S2000x512_S2000x1_S512x1_0_0_1_1_n_n.lhsNonContracting by decide)]
  rfl
theorem rhs7_0 (i : S512x1.Idx) (q : dot_S2000x512_S2000x1_S512x1_0_0_1_1_n_n.contr.Idx) :
    (dot_S2000x512_S2000x1_S512x1_0_0_1_1_n_n.rhsIdx i q 0).val = (q ⟨0, by decide⟩).val :=
  dot_S2000x512_S2000x1_S512x1_0_0_1_1_n_n.rhsIdx_val_of_single rfl i q
theorem rhs7_1 (i : S512x1.Idx) (q : dot_S2000x512_S2000x1_S512x1_0_0_1_1_n_n.contr.Idx) :
    (dot_S2000x512_S2000x1_S512x1_0_0_1_1_n_n.rhsIdx i q 1).val = (i 1).val := by
  unfold DotDims.rhsIdx
  rw [dif_neg (show ¬(1 : Fin S2000x1.rank) ∈ dot_S2000x512_S2000x1_S512x1_0_0_1_1_n_n.rhsBatch by decide), dif_pos (show (1 : Fin S2000x1.rank) ∈ dot_S2000x512_S2000x1_S512x1_0_0_1_1_n_n.rhsNonContracting by decide)]
  rfl

/-- The product contracts the row axis of both operands: at (graph, column) it is the sum over the tile's rows. -/
theorem matmul7_apply (l : FVec Ideal S2000x512 .bf16) (r : FVec Ideal S2000x1 .bf16) (g : Fin 512) (k : Fin 1) :
    matmul dot_S2000x512_S2000x1_S512x1_0_0_1_1_n_n none l r (constant (F := Ideal) S512x1 .f32 0x00000000#32) (ix2 g k)
      = ∑ q : Fin 2000, l (ix2 q g) * r (ix2 q k) := by
  simp only [matmul]
  rw [Ideal.matmul_constant_zero_apply, ← Equiv.sum_comp (contrEquiv1 dot_S2000x512_S2000x1_S512x1_0_0_1_1_n_n 2000 rfl rfl).symm]
  refine Finset.sum_congr rfl fun q _ => ?_
  have hk := contrEquiv1_symm_val dot_S2000x512_S2000x1_S512x1_0_0_1_1_n_n 2000 rfl rfl q
  have el : dot_S2000x512_S2000x1_S512x1_0_0_1_1_n_n.lhsIdx (ix2 g k) ((contrEquiv1 dot_S2000x512_S2000x1_S512x1_0_0_1_1_n_n 2000 rfl rfl).symm q) = ix2 q g := funext fun a => Fin.ext (by
    match a with
    | ⟨0, _⟩ => exact (lhs7_0 _ _).trans hk
    | ⟨1, _⟩ => exact lhs7_1 _ _)
  have er : dot_S2000x512_S2000x1_S512x1_0_0_1_1_n_n.rhsIdx (ix2 g k) ((contrEquiv1 dot_S2000x512_S2000x1_S512x1_0_0_1_1_n_n 2000 rfl rfl).symm q) = ix2 q k := funext fun a => Fin.ext (by
    match a with
    | ⟨0, _⟩ => exact (rhs7_0 _ _).trans hk
    | ⟨1, _⟩ => exact rhs7_1 _ _)
  rw [el, er]

/-- The sums' payload at (graph, feature): what the slab held there plus, over the tile's rows, the one-hot times
    the activation. -/
theorem pay_sum_apply (x0 x1 : Vec Ideal S2000x128 .f32) (x2 : Vec Ideal S2000x1 .f32) (x3 : Vec Ideal S1x128 .f32)
    (x4 : Vec Ideal S2000x1 .i32) (x5 : Vec Ideal S1x512 .i32) (xo : Vec Ideal S1x512x128 .f32) (g : Fin 512) (k : Fin 128) :
    k2_pay1 (F := Ideal) (k2_pay7 x2 x1 x0 x3 x4 x5 xo) (ix3 0 g k)
      = xo (ix3 0 g k)
        + ∑ q : Fin 2000, (if x4 (ix2 q 0) = x5 (ix2 0 g) then (1 : EReal) else 0) * actTile x0 x1 x2 x3 q k := by
  unfold k2_pay1
  refine (shapeCast_ab_1ab_apply _ shapeCasts_S512x128_S1x512x128 0 g k).trans ?_
  unfold k2_pay7
  refine (addf_apply _ _ _).trans ?_
  refine congrArg₂ (· + ·) (shapeCast_1ab_ab_apply xo shapeCasts_S1x512x128_S512x128 g k) ?_
  refine (matmul6_apply _ _ g k).trans ?_
  refine Finset.sum_congr rfl fun q _ => ?_
  refine congrArg₂ (· * ·) (onehot_apply x4 x5 q g) ?_
  show max (broadcastTo S2000x128 (shapeCast S2000x1 x2 shapeCasts_S2000x1_S2000x1) broadcasts_S2000x1_S2000x128 (ix2 q k)
        * (shapeCast S2000x128 x0 shapeCasts_S2000x128_S2000x128 (ix2 q k) + shapeCast S2000x128 x1 shapeCasts_S2000x128_S2000x128 (ix2 q k))
        + broadcastTo S2000x128 (shapeCast S1x128 x3 shapeCasts_S1x128_S1x128) broadcasts_S1x128_S2000x128 (ix2 q k))
      (Ideal.ofBits .f32 0x00000000#32) = _
  rw [shapeCast_self, shapeCast_self, shapeCast_self, shapeCast_self, bcast_col, broadcastTo_1b_ab_apply, Ideal.ofBits_zero_f32]
  rfl

/-- The bf16 word of one is the extended real 1. -/
theorem one_bf16 : Ideal.ofBits .bf16 0x3F80#16 = (1 : EReal) := by
  simp [Ideal.ofBits, Ideal.ieee]
  rw [← EReal.coe_mul]
  norm_num

/-- The zero slab of the sums. -/
theorem pay_zero6_apply (g : Fin 512) (k : Fin 128) : k2_pay3 (F := Ideal) (ix3 0 g k) = 0 := by
  unfold k2_pay3
  refine (shapeCast_ab_1ab_apply _ shapeCasts_S512x128_S1x512x128 0 g k).trans ?_
  exact Ideal.ofBits_zero_f32

/-- The counts' payload at a graph: what the slab held there plus, over the tile's rows, the one-hot. -/
theorem pay_cnt_apply (x4 : Vec Ideal S2000x1 .i32) (x5 : Vec Ideal S1x512 .i32) (xo : Vec Ideal S1x512x1 .f32) (g : Fin 512) :
    k2_pay2 (F := Ideal) (k2_pay5 x4 x5) (k2_pay6 (F := Ideal)) xo (ix3 0 g 0)
      = xo (ix3 0 g 0) + ∑ q : Fin 2000, (if x4 (ix2 q 0) = x5 (ix2 0 g) then (1 : EReal) else 0) := by
  unfold k2_pay2
  refine (shapeCast_ab_1ab_apply _ shapeCasts_S512x1_S1x512x1 0 g 0).trans ?_
  refine (addf_apply _ _ _).trans ?_
  refine congrArg₂ (· + ·) (shapeCast_1ab_ab_apply xo shapeCasts_S1x512x1_S512x1 g 0) ?_
  refine (matmul7_apply _ _ g 0).trans ?_
  refine Finset.sum_congr rfl fun q _ => ?_
  rw [onehot_apply]
  unfold k2_pay6
  show _ * Ideal.ofBits .bf16 0x3F80#16 = _
  rw [one_bf16, mul_one]

/-- The zero slab of the counts. -/
theorem pay_zero7_apply (g : Fin 512) : k2_pay4 (F := Ideal) (ix3 0 g 0) = 0 := by
  unfold k2_pay4
  refine (shapeCast_ab_1ab_apply _ shapeCasts_S512x1_S1x512x1 0 g 0).trans ?_
  exact Ideal.ofBits_zero_f32

variable (V : (c : Dev nD) → (b : Ref sig .tc) → Buf (Elt Ideal) ((c : Thread nD τ).loc b))

/-- The rows of half h whose graph word is the identifier the region was given for graph g. -/
def rowsOf (c : Dev nD) (h : Fin 2) (g : Fin 512) : Finset (Fin 100000) :=
  Finset.univ.filter (fun r : Fin 100000 => r.val / 50000 = h.val ∧ V c main_v53 (ix2 r 0) = V c main_v52 (ix2 0 g))

/-! ## The tiles the region reads

Point t of the grid is (t / 25, t % 25), and the index maps of the four row-tiled inputs send it to row tile
25 (t / 25) + t % 25 = t: the point's tile is rows 2000 t … 2000 t + 1999. The bias row and the identifier row
have one block. -/

/-- Row q of the tile of point t. -/
def rowAt (t : Fin cfg2.N) (q : Fin 2000) : Fin 100000 :=
  ⟨t.val * 2000 + q.val, by have := t.isLt; have hN : cfg2.N = 50 := N_2; have := q.isLt; omega⟩

theorem rowAt_val (t : Fin cfg2.N) (q : Fin 2000) : (rowAt t q).val = t.val * 2000 + q.val := rfl

/-- The block indices of the six input windows at a point, decided over the grid. -/
theorem idx_in : ∀ t : Fin cfg2.N,
    (win2_0.index t 0 = t.val ∧ win2_0.index t 1 = 0) ∧ (win2_1.index t 0 = t.val ∧ win2_1.index t 1 = 0)
    ∧ (win2_2.index t 0 = t.val ∧ win2_2.index t 1 = 0) ∧ (win2_3.index t 0 = 0 ∧ win2_3.index t 1 = 0)
    ∧ (win2_4.index t 0 = t.val ∧ win2_4.index t 1 = 0) ∧ (win2_5.index t 0 = 0 ∧ win2_5.index t 1 = 0) :=
  (by decide +kernel : ∀ t : Fin grid2.N, _)

/-- The aggregate's tile. -/
theorem blk0_apply (c : Dev nD) (t : Fin cfg2.N) (q : Fin 2000) (k : Fin 128) :
    (iblk2 V c 0 t : Vec Ideal S2000x128 .f32) (ix2 q k) = (V c main_v50 : Vec Ideal S100000x128 .f32) (ix2 (rowAt t q) k) := by
  unfold iblk2
  rw [View.read_apply]
  show (V c main_v50 : Vec Ideal S100000x128 .f32) _ = _
  congr 1
  funext a
  apply Fin.ext
  match a with
  | ⟨0, _⟩ => show win2_0.index t 0 * 2000 + 1 * q.val = t.val * 2000 + q.val; rw [(idx_in t).1.1]; omega
  | ⟨1, _⟩ => show win2_0.index t 1 * 128 + 1 * k.val = k.val; rw [(idx_in t).1.2]; omega

/-- The previous layer's row-scaled values' tile. -/
theorem blk1_apply (c : Dev nD) (t : Fin cfg2.N) (q : Fin 2000) (k : Fin 128) :
    (iblk2 V c 1 t : Vec Ideal S2000x128 .f32) (ix2 q k) = (V c main_v39_1 : Vec Ideal S100000x128 .f32) (ix2 (rowAt t q) k) := by
  unfold iblk2
  rw [View.read_apply]
  show (V c main_v39_1 : Vec Ideal S100000x128 .f32) _ = _
  congr 1
  funext a
  apply Fin.ext
  match a with
  | ⟨0, _⟩ => show win2_1.index t 0 * 2000 + 1 * q.val = t.val * 2000 + q.val; rw [(idx_in t).2.1.1]; omega
  | ⟨1, _⟩ => show win2_1.index t 1 * 128 + 1 * k.val = k.val; rw [(idx_in t).2.1.2]; omega

/-- The inverse square root degrees' tile. -/
theorem blk2_apply (c : Dev nD) (t : Fin cfg2.N) (q : Fin 2000) :
    (iblk2 V c 2 t : Vec Ideal S2000x1 .f32) (ix2 q 0) = (V c main_v11 : Vec Ideal S100000x1 .f32) (ix2 (rowAt t q) 0) := by
  unfold iblk2
  rw [View.read_apply]
  show (V c main_v11 : Vec Ideal S100000x1 .f32) _ = _
  congr 1
  funext a
  apply Fin.ext
  match a with
  | ⟨0, _⟩ => show win2_2.index t 0 * 2000 + 1 * q.val = t.val * 2000 + q.val; rw [(idx_in t).2.2.1.1]; omega
  | ⟨1, _⟩ => show win2_2.index t 1 * 1 + 1 * 0 = 0; rw [(idx_in t).2.2.1.2]

/-- The graph words' tile. -/
theorem blk4_apply (c : Dev nD) (t : Fin cfg2.N) (q : Fin 2000) :
    (iblk2 V c 4 t : Vec Ideal S2000x1 .i32) (ix2 q 0) = (V c main_v53 : Vec Ideal S100000x1 .i32) (ix2 (rowAt t q) 0) := by
  unfold iblk2
  rw [View.read_apply]
  show (V c main_v53 : Vec Ideal S100000x1 .i32) _ = _
  congr 1
  funext a
  apply Fin.ext
  match a with
  | ⟨0, _⟩ => show win2_4.index t 0 * 2000 + 1 * q.val = t.val * 2000 + q.val; rw [(idx_in t).2.2.2.2.1.1]; omega
  | ⟨1, _⟩ => show win2_4.index t 1 * 1 + 1 * 0 = 0; rw [(idx_in t).2.2.2.2.1.2]

/-- The bias row: one block. -/
theorem blk3_apply (c : Dev nD) (t : Fin cfg2.N) (k : Fin 128) :
    (iblk2 V c 3 t : Vec Ideal S1x128 .f32) (ix2 0 k) = (V c main_v14 : Vec Ideal S1x128 .f32) (ix2 0 k) := by
  unfold iblk2
  rw [View.read_apply]
  show (V c main_v14 : Vec Ideal S1x128 .f32) _ = _
  congr 1
  funext a
  apply Fin.ext
  match a with
  | ⟨0, _⟩ => show win2_3.index t 0 * 1 + 1 * 0 = 0; rw [(idx_in t).2.2.2.1.1]
  | ⟨1, _⟩ => show win2_3.index t 1 * 128 + 1 * k.val = k.val; rw [(idx_in t).2.2.2.1.2]; omega

/-- The identifier row: one block. -/
theorem blk5_apply (c : Dev nD) (t : Fin cfg2.N) (g : Fin 512) :
    (iblk2 V c 5 t : Vec Ideal S1x512 .i32) (ix2 0 g) = (V c main_v52 : Vec Ideal S1x512 .i32) (ix2 0 g) := by
  unfold iblk2
  rw [View.read_apply]
  show (V c main_v52 : Vec Ideal S1x512 .i32) _ = _
  congr 1
  funext a
  apply Fin.ext
  match a with
  | ⟨0, _⟩ => show win2_5.index t 0 * 1 + 1 * 0 = 0; rw [(idx_in t).2.2.2.2.2.1]
  | ⟨1, _⟩ => show win2_5.index t 1 * 512 + 1 * g.val = g.val; rw [(idx_in t).2.2.2.2.2.2]; omega

/-! ## A tile's rows among all rows -/

/-- A sum over the rows of the tile of point t is the sum over all rows of the terms whose row lies in that tile. -/
theorem sum_tile (t : Fin cfg2.N) (G : Fin 100000 → EReal) :
    ∑ q : Fin 2000, G (rowAt t q) = ∑ r : Fin 100000, if r.val / 2000 = t.val then G r else 0 := by
  rw [← Finset.sum_filter]
  have hinj : Function.Injective (rowAt t) := fun a b h => by
    have := congrArg Fin.val h
    simp only [rowAt_val] at this
    exact Fin.ext (by omega)
  have hset : (Finset.univ.filter fun r : Fin 100000 => r.val / 2000 = t.val) = Finset.univ.map ⟨rowAt t, hinj⟩ := by
    ext r
    simp only [Finset.mem_filter, Finset.mem_univ, true_and, Finset.mem_map, Function.Embedding.coeFn_mk]
    constructor
    · intro h
      have hr := r.isLt
      refine ⟨⟨r.val - t.val * 2000, by omega⟩, Fin.ext ?_⟩
      show t.val * 2000 + (r.val - t.val * 2000) = r.val
      omega
    · rintro ⟨q, rfl⟩
      show (t.val * 2000 + q.val) / 2000 = t.val
      have := q.isLt
      omega
  rw [hset, Finset.sum_map]
  rfl

/-! ## The slabs after each point -/

/-- Row r's graph word is the identifier the region was given for graph g. -/
abbrev hit (c : Dev nD) (g : Fin 512) (r : Fin 100000) : Prop := V c main_v53 (ix2 r 0) = V c main_v52 (ix2 0 g)

/-- The last layer's activation at (row, feature), from the arrays the region reads. -/
abbrev act (c : Dev nD) (r : Fin 100000) (k : Fin 128) : EReal :=
  Cert.Gcn.act3 (fun r t => V c main_v50 (ix2 r t)) (fun r t => V c main_v39_1 (ix2 r t)) (fun r => V c main_v11 (ix2 r 0))
    (fun t => V c main_v14 (ix2 0 t)) r k

/-- One term of a tile's product, read off the arrays: the activation where the row's word matches, else zero. -/
theorem tile_term (c : Dev nD) (g : Fin 512) (k : Fin 128) (t : Fin cfg2.N) (q : Fin 2000) :
    (if (iblk2 V c 4 t : Vec Ideal S2000x1 .i32) (ix2 q 0) = (iblk2 V c 5 t : Vec Ideal S1x512 .i32) (ix2 0 g) then (1 : EReal) else 0)
        * actTile (iblk2 V c 0 t) (iblk2 V c 1 t) (iblk2 V c 2 t) (iblk2 V c 3 t) q k
      = if hit V c g (rowAt t q) then act V c (rowAt t q) k else 0 := by
  rw [blk4_apply, blk5_apply]
  unfold actTile
  rw [blk0_apply, blk1_apply, blk2_apply, blk3_apply]
  by_cases h : hit V c g (rowAt t q)
  · rw [if_pos h, if_pos h, one_mul]
    rfl
  · rw [if_neg h, if_neg h, zero_mul]

/-- The first point of a half leaves, in the sums' slab, its own tile's product. -/
theorem slab6_A (c : Dev nD) (g : Fin 512) (k : Fin 128) (t : Fin cfg2.N) (h0 : t.val % 25 = 0) :
    (outsAt2 V c t.val t.isLt).1 (ix3 0 g k)
      = ∑ r : Fin 100000, if r.val / 2000 = t.val then (if hit V c g r then act V c r k else 0) else 0 := by
  rw [outsAt2_A V c t h0]
  dsimp only
  refine (congrFun (out_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t) (iblk2 V c 5 t)) (ix3 0 g k)).trans ?_
  refine (pay_sum_apply (iblk2 V c 0 t) (iblk2 V c 1 t) (iblk2 V c 2 t) (iblk2 V c 3 t) (iblk2 V c 4 t) (iblk2 V c 5 t) (k2_pay3 (F := Ideal)) g k).trans ?_
  rw [pay_zero6_apply, zero_add, ← sum_tile t (fun r => if hit V c g r then act V c r k else 0)]
  exact Finset.sum_congr rfl fun q _ => tile_term V c g k t q

/-- A later point adds its own tile's product to what the point before left. -/
theorem slab6_B (c : Dev nD) (g : Fin 512) (k : Fin 128) (t : Fin cfg2.N) (h0 : ¬t.val % 25 = 0) :
    (outsAt2 V c t.val t.isLt).1 (ix3 0 g k)
      = (outsAt2 V c (t.val - 1) (Nat.lt_of_le_of_lt (Nat.sub_le _ _) t.isLt)).1 (ix3 0 g k)
        + ∑ r : Fin 100000, if r.val / 2000 = t.val then (if hit V c g r then act V c r k else 0) else 0 := by
  rw [outsAt2_B V c t h0]
  dsimp only
  refine (congrFun (out_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).1 (outsAt2 V c (t.val - 1) (Nat.lt_of_le_of_lt (Nat.sub_le _ _) t.isLt)).2) (ix3 0 g k)).trans ?_
  refine (pay_sum_apply (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).1 g k).trans ?_
  rw [← sum_tile t (fun r => if hit V c g r then act V c r k else 0)]
  exact congrArg (_ + ·) (Finset.sum_congr rfl fun q _ => tile_term V c g k t q)

/-- A term at the first point of a half: the rows seen so far are the point's own tile. -/
theorem term_first (n x : ℕ) (h0 : n % 25 = 0) (H : Prop) [Decidable H] (a : EReal) :
    (if x = n then (if H then a else 0) else 0) = if (25 * (n / 25) ≤ x ∧ x ≤ n) ∧ H then a else 0 := by
  have e : (25 * (n / 25) ≤ x ∧ x ≤ n) ↔ x = n := by omega
  by_cases hH : H
  · rw [if_pos hH]
    exact if_congr ⟨fun h => ⟨e.mpr h, hH⟩, fun h => e.mp h.1⟩ rfl rfl
  · rw [if_neg hH, ite_self, if_neg (fun h => hH h.2)]

/-- A term at a later point: the rows seen so far are those seen at the point before and the point's own tile. -/
theorem term_next (n x : ℕ) (h0 : ¬(n + 1) % 25 = 0) (H : Prop) [Decidable H] (a : EReal) :
    (if (25 * (n / 25) ≤ x ∧ x ≤ n) ∧ H then a else 0) + (if x = n + 1 then (if H then a else 0) else 0)
      = if (25 * ((n + 1) / 25) ≤ x ∧ x ≤ n + 1) ∧ H then a else 0 := by
  by_cases hH : H
  · by_cases hx : x = n + 1
    · have h1 : ¬(25 * (n / 25) ≤ x ∧ x ≤ n) := by omega
      have h2 : 25 * ((n + 1) / 25) ≤ x ∧ x ≤ n + 1 := by omega
      rw [if_neg (fun h => h1 h.1), if_pos hx, if_pos hH, if_pos ⟨h2, hH⟩, zero_add]
    · have e : (25 * ((n + 1) / 25) ≤ x ∧ x ≤ n + 1) ↔ (25 * (n / 25) ≤ x ∧ x ≤ n) := by omega
      rw [if_neg hx, add_zero]
      exact if_congr (and_congr e.symm Iff.rfl) rfl rfl
  · rw [if_neg (fun h : (25 * (n / 25) ≤ x ∧ x ≤ n) ∧ H => hH h.2), if_neg hH, ite_self, add_zero,
      if_neg (fun h : (25 * ((n + 1) / 25) ≤ x ∧ x ≤ n + 1) ∧ H => hH h.2)]

/-- After point n the sums' slab holds, at (g, k), the activation summed over the matching rows of the tiles from
    the first of n's half up to n: by induction on the point. -/
theorem slab6 (c : Dev nD) (g : Fin 512) (k : Fin 128) : ∀ (n : ℕ) (hn : n < cfg2.N),
    (outsAt2 V c n hn).1 (ix3 0 g k)
      = ∑ r : Fin 100000, if (25 * (n / 25) ≤ r.val / 2000 ∧ r.val / 2000 ≤ n) ∧ hit V c g r then act V c r k else 0 := by
  intro n
  induction n with
  | zero =>
    intro hn
    exact (slab6_A V c g k ⟨0, hn⟩ rfl).trans (Finset.sum_congr rfl fun r _ => term_first 0 (r.val / 2000) rfl _ _)
  | succ n ih =>
    intro hn
    by_cases h0 : (n + 1) % 25 = 0
    · exact (slab6_A V c g k ⟨n + 1, hn⟩ h0).trans (Finset.sum_congr rfl fun r _ => term_first (n + 1) (r.val / 2000) h0 _ _)
    · refine (slab6_B V c g k ⟨n + 1, hn⟩ h0).trans ?_
      rw [show (outsAt2 V c ((⟨n + 1, hn⟩ : Fin cfg2.N).val - 1) (Nat.lt_of_le_of_lt (Nat.sub_le _ _) (⟨n + 1, hn⟩ : Fin cfg2.N).isLt)).1 (ix3 0 g k) = _
          from ih (Nat.lt_of_succ_lt hn), ← Finset.sum_add_distrib]
      exact Finset.sum_congr rfl fun r _ => term_next n (r.val / 2000) h0 _ _

/-! ### The counts: the same with ones -/

theorem tile_term7 (c : Dev nD) (g : Fin 512) (t : Fin cfg2.N) (q : Fin 2000) :
    (if (iblk2 V c 4 t : Vec Ideal S2000x1 .i32) (ix2 q 0) = (iblk2 V c 5 t : Vec Ideal S1x512 .i32) (ix2 0 g) then (1 : EReal) else 0)
      = if hit V c g (rowAt t q) then (1 : EReal) else 0 := by
  rw [blk4_apply, blk5_apply]

theorem slab7_A (c : Dev nD) (g : Fin 512) (t : Fin cfg2.N) (h0 : t.val % 25 = 0) :
    (outsAt2 V c t.val t.isLt).2 (ix3 0 g 0)
      = ∑ r : Fin 100000, if r.val / 2000 = t.val then (if hit V c g r then (1 : EReal) else 0) else 0 := by
  rw [outsAt2_A V c t h0]
  dsimp only
  refine (congrFun (out_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t) (iblk2 V c 5 t)) (ix3 0 g 0)).trans ?_
  refine (pay_cnt_apply (iblk2 V c 4 t) (iblk2 V c 5 t) (k2_pay4 (F := Ideal)) g).trans ?_
  rw [pay_zero7_apply, zero_add, ← sum_tile t (fun r => if hit V c g r then (1 : EReal) else 0)]
  exact Finset.sum_congr rfl fun q _ => tile_term7 V c g t q

theorem slab7_B (c : Dev nD) (g : Fin 512) (t : Fin cfg2.N) (h0 : ¬t.val % 25 = 0) :
    (outsAt2 V c t.val t.isLt).2 (ix3 0 g 0)
      = (outsAt2 V c (t.val - 1) (Nat.lt_of_le_of_lt (Nat.sub_le _ _) t.isLt)).2 (ix3 0 g 0)
        + ∑ r : Fin 100000, if r.val / 2000 = t.val then (if hit V c g r then (1 : EReal) else 0) else 0 := by
  rw [outsAt2_B V c t h0]
  dsimp only
  refine (congrFun (out_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).1 (outsAt2 V c (t.val - 1) (Nat.lt_of_le_of_lt (Nat.sub_le _ _) t.isLt)).2) (ix3 0 g 0)).trans ?_
  refine (pay_cnt_apply (iblk2 V c 4 t) (iblk2 V c 5 t) (outsAt2 V c (t.val - 1) (Nat.lt_of_le_of_lt (Nat.sub_le _ _) t.isLt)).2 g).trans ?_
  rw [← sum_tile t (fun r => if hit V c g r then (1 : EReal) else 0)]
  exact congrArg (_ + ·) (Finset.sum_congr rfl fun q _ => tile_term7 V c g t q)

/-- After point n the counts' slab holds, at g, one for every matching row of the tiles from the first of n's half
    up to n. -/
theorem slab7 (c : Dev nD) (g : Fin 512) : ∀ (n : ℕ) (hn : n < cfg2.N),
    (outsAt2 V c n hn).2 (ix3 0 g 0)
      = ∑ r : Fin 100000, if (25 * (n / 25) ≤ r.val / 2000 ∧ r.val / 2000 ≤ n) ∧ hit V c g r then (1 : EReal) else 0 := by
  intro n
  induction n with
  | zero =>
    intro hn
    exact (slab7_A V c g ⟨0, hn⟩ rfl).trans (Finset.sum_congr rfl fun r _ => term_first 0 (r.val / 2000) rfl _ _)
  | succ n ih =>
    intro hn
    by_cases h0 : (n + 1) % 25 = 0
    · exact (slab7_A V c g ⟨n + 1, hn⟩ h0).trans (Finset.sum_congr rfl fun r _ => term_first (n + 1) (r.val / 2000) h0 _ _)
    · refine (slab7_B V c g ⟨n + 1, hn⟩ h0).trans ?_
      rw [show (outsAt2 V c ((⟨n + 1, hn⟩ : Fin cfg2.N).val - 1) (Nat.lt_of_le_of_lt (Nat.sub_le _ _) (⟨n + 1, hn⟩ : Fin cfg2.N).isLt)).2 (ix3 0 g 0) = _
          from ih (Nat.lt_of_succ_lt hn), ← Finset.sum_add_distrib]
      exact Finset.sum_congr rfl fun r _ => term_next n (r.val / 2000) h0 _ _

/-! ## The arrays after the run

A half's slab is written back once, after the last of the half's 25 points; by then it has seen all the rows of
the half. -/

/-- The block indices of the two output windows at a point, decided over the grid. -/
theorem idx_out : ∀ t : Fin cfg2.N,
    (win2_6.index t 0 = t.val / 25 ∧ win2_6.index t 1 = 0 ∧ win2_6.index t 2 = 0)
    ∧ (win2_7.index t 0 = t.val / 25 ∧ win2_7.index t 1 = 0 ∧ win2_7.index t 2 = 0) :=
  (by decide +kernel : ∀ t : Fin grid2.N, _)

/-- The half a point belongs to. -/
def halfOf (t : Fin cfg2.N) : Fin 2 :=
  ⟨t.val / 25, by have := t.isLt; have hN : cfg2.N = 50 := N_2; omega⟩

/-- At the last point of a half the tiles seen are exactly the half's. -/
theorem half_rows (t : ℕ) (ht : t < 50) (h24 : t % 25 = 24) (x : ℕ) (hx : x < 100000) :
    (25 * (t / 25) ≤ x / 2000 ∧ x / 2000 ≤ t) ↔ x / 50000 = t / 25 := by omega

/-- The slab a point wrote back, read at an index: the slab itself (the block is not cut). -/
theorem cut6_apply (X : Vec Ideal S1x512x128 .f32) (t : Fin cfg2.N) (g : Fin 512) (k : Fin 128) :
    (cfg2.win 6).cut (grid2.coords t) X (ix3 0 g k) = X (ix3 0 g k) := rfl

/-- Slab (0, g, k) of a point's block of a whole array is the array at (the point's half, g, k). -/
theorem read_blk6 (G : Vec Ideal S2x512x128 .f32) (t : Fin cfg2.N) (g : Fin 512) (k : Fin 128) :
    ((cfg2.win 6).blk t).view.read (Elt Ideal) G (ix3 0 g k) = G (ix3 (halfOf t) g k) := by
  rw [View.read_apply]
  show G _ = _
  congr 1
  funext a
  apply Fin.ext
  match a with
  | ⟨0, _⟩ => show win2_6.index t 0 * 1 + 1 * 0 = t.val / 25; rw [(idx_out t).1.1]; omega
  | ⟨1, _⟩ => show win2_6.index t 1 * 512 + 1 * g.val = g.val; rw [(idx_out t).1.2.1]; omega
  | ⟨2, _⟩ => show win2_6.index t 2 * 128 + 1 * k.val = k.val; rw [(idx_out t).1.2.2]; omega

/-- The sums' array: at (h, g, k), the activation summed over the half's matching rows. -/
def G6 (c : Dev nD) : Vec Ideal S2x512x128 .f32 := fun i => ∑ r ∈ rowsOf V c (i 0) (i 1), act V c r (i 2)

theorem G6_apply (c : Dev nD) (h : Fin 2) (g : Fin 512) (k : Fin 128) :
    G6 V c (ix3 h g k) = ∑ r ∈ rowsOf V c h g, act V c r k := rfl

/-- What a half's last point writes back is the half's slab of the sums' array. -/
theorem flushed6_eq (c : Dev nD) (t : Fin cfg2.N) (hf : (cfg2.win 6).flush t = true) :
    (dat2 V c).flushed 6 t = ((cfg2.win 6).blk t).view.read (Elt Ideal) (G6 V c) := by
  have h24 : t.val % 25 = 24 := (flush2_6 t).mp hf
  have hN : cfg2.N = 50 := N_2
  have ht := t.isLt
  show (cfg2.win 6).cut (grid2.coords t) ((dat2 V c).after 6 t) = _
  rw [after2_6]
  funext y
  obtain ⟨u, g, k, rfl⟩ : ∃ (u : Fin 1) (g : Fin 512) (k : Fin 128), y = ix3 u g k := ⟨y 0, y 1, y 2, eq_ix3 y⟩
  obtain rfl : u = 0 := Subsingleton.elim _ _
  refine ((cut6_apply (outsAt2 V c t.val t.isLt).1 t g k).trans ?_).trans (read_blk6 (G6 V c) t g k).symm
  rw [G6_apply, slab6 V c g k t.val t.isLt]
  unfold rowsOf
  rw [Finset.sum_filter]
  exact Finset.sum_congr rfl fun r _ =>
    if_congr (and_congr (half_rows t.val (by omega) h24 r.val r.isLt) Iff.rfl) rfl rfl

/-- An index of the sums' array is in a point's block when each coordinate is in the block's range. -/
theorem mem_blk6 (t : Fin cfg2.N) (i : S2x512x128.Idx) :
    i ∈ ((cfg2.win 6).blk t).view.set ↔ ∀ a : Fin 3, win2_6.index t a * S1x512x128.size a ≤ (i a).val
      ∧ (i a).val < win2_6.index t a * S1x512x128.size a + S1x512x128.size a := by
  show i ∈ ((View.whole main_v54_0).slice (win2_6.rect t)).set ↔ _
  rw [View.set_slice_whole, Rect.mem_set_unit]
  exact Iff.rfl

/-- The sums. -/
theorem arr6 (c : Dev nD) (h : Fin 2) (g : Fin 512) (k : Fin 128) :
    (dat2 (F := Ideal) V c).arrAt 6 cfg2.N (ix3 h g k)
      = ∑ r ∈ rowsOf V c h g,
          Cert.Gcn.act3 (fun r t => V c main_v50 (ix2 r t)) (fun r t => V c main_v39_1 (ix2 r t)) (fun r => V c main_v11 (ix2 r 0))
            (fun t => V c main_v14 (ix2 0 t)) r k := by
  have hN : cfg2.N = 50 := N_2
  have hh := h.isLt
  have ht : 25 * h.val + 24 < cfg2.N := by omega
  refine ((dat2 V c).arrAt_apply_of_mem 6 (G6 V c) (flushed6_eq V c) cfg2.N ⟨25 * h.val + 24, ht⟩ (ix3 h g k) ht
    ((flush2_6 _).mpr (by show (25 * h.val + 24) % 25 = 24; omega)) ?_).trans (G6_apply V c h g k)
  rw [mem_blk6]
  obtain ⟨⟨e0, e1, e2⟩, -⟩ := idx_out ⟨25 * h.val + 24, ht⟩
  have e0' : win2_6.index ⟨25 * h.val + 24, ht⟩ 0 = h.val := by rw [e0]; show (25 * h.val + 24) / 25 = h.val; omega
  intro a
  match a with
  | ⟨0, _⟩ =>
    show win2_6.index ⟨25 * h.val + 24, ht⟩ 0 * 1 ≤ h.val ∧ h.val < win2_6.index ⟨25 * h.val + 24, ht⟩ 0 * 1 + 1
    rw [e0']; omega
  | ⟨1, _⟩ =>
    show win2_6.index ⟨25 * h.val + 24, ht⟩ 1 * 512 ≤ g.val ∧ g.val < win2_6.index ⟨25 * h.val + 24, ht⟩ 1 * 512 + 512
    rw [e1]; have := g.isLt; omega
  | ⟨2, _⟩ =>
    show win2_6.index ⟨25 * h.val + 24, ht⟩ 2 * 128 ≤ k.val ∧ k.val < win2_6.index ⟨25 * h.val + 24, ht⟩ 2 * 128 + 128
    rw [e2]; have := k.isLt; omega

/-! ### The counts -/

/-- A sum of ones over a finite set is its number of elements. -/
theorem sum_ones (S : Finset (Fin 100000)) : ∑ r ∈ S, (1 : EReal) = ((S.card : ℝ) : EReal) := by
  classical
  induction S using Finset.induction_on with
  | empty => simp
  | insert a s ha ih =>
    rw [Finset.sum_insert ha, ih, Finset.card_insert_of_notMem ha, Nat.cast_succ, EReal.coe_add, EReal.coe_one, add_comm]

theorem cut7_apply (X : Vec Ideal S1x512x1 .f32) (t : Fin cfg2.N) (g : Fin 512) :
    (cfg2.win 7).cut (grid2.coords t) X (ix3 0 g 0) = X (ix3 0 g 0) := rfl

theorem read_blk7 (G : Vec Ideal S2x512x1 .f32) (t : Fin cfg2.N) (g : Fin 512) :
    ((cfg2.win 7).blk t).view.read (Elt Ideal) G (ix3 0 g 0) = G (ix3 (halfOf t) g 0) := by
  rw [View.read_apply]
  show G _ = _
  congr 1
  funext a
  apply Fin.ext
  match a with
  | ⟨0, _⟩ => show win2_7.index t 0 * 1 + 1 * 0 = t.val / 25; rw [(idx_out t).2.1]; omega
  | ⟨1, _⟩ => show win2_7.index t 1 * 512 + 1 * g.val = g.val; rw [(idx_out t).2.2.1]; omega
  | ⟨2, _⟩ => show win2_7.index t 2 * 1 + 1 * 0 = 0; rw [(idx_out t).2.2.2]

/-- The counts' array: at (h, g, 0), the number of the half's matching rows. -/
def G7 (c : Dev nD) : Vec Ideal S2x512x1 .f32 := fun i => (((rowsOf V c (i 0) (i 1)).card : ℝ) : EReal)

theorem G7_apply (c : Dev nD) (h : Fin 2) (g : Fin 512) :
    G7 V c (ix3 h g 0) = (((rowsOf V c h g).card : ℝ) : EReal) := rfl

/-- What a half's last point writes back is the half's slab of the counts' array. -/
theorem flushed7_eq (c : Dev nD) (t : Fin cfg2.N) (hf : (cfg2.win 7).flush t = true) :
    (dat2 V c).flushed 7 t = ((cfg2.win 7).blk t).view.read (Elt Ideal) (G7 V c) := by
  have h24 : t.val % 25 = 24 := (flush2_7 t).mp hf
  have hN : cfg2.N = 50 := N_2
  have ht := t.isLt
  show (cfg2.win 7).cut (grid2.coords t) ((dat2 V c).after 7 t) = _
  rw [after2_7]
  funext y
  obtain ⟨u, g, k, rfl⟩ : ∃ (u : Fin 1) (g : Fin 512) (k : Fin 1), y = ix3 u g k := ⟨y 0, y 1, y 2, eq_ix3 y⟩
  obtain rfl : u = 0 := Subsingleton.elim _ _
  obtain rfl : k = 0 := Subsingleton.elim _ _
  refine ((cut7_apply (outsAt2 V c t.val t.isLt).2 t g).trans ?_).trans (read_blk7 (G7 V c) t g).symm
  rw [G7_apply, slab7 V c g t.val t.isLt, ← sum_ones]
  unfold rowsOf
  rw [Finset.sum_filter]
  exact Finset.sum_congr rfl fun r _ =>
    if_congr (and_congr (half_rows t.val (by omega) h24 r.val r.isLt) Iff.rfl) rfl rfl

/-- An index of the counts' array is in a point's block when each coordinate is in the block's range. -/
theorem mem_blk7 (t : Fin cfg2.N) (i : S2x512x1.Idx) :
    i ∈ ((cfg2.win 7).blk t).view.set ↔ ∀ a : Fin 3, win2_7.index t a * S1x512x1.size a ≤ (i a).val
      ∧ (i a).val < win2_7.index t a * S1x512x1.size a + S1x512x1.size a := by
  show i ∈ ((View.whole main_v54_1).slice (win2_7.rect t)).set ↔ _
  rw [View.set_slice_whole, Rect.mem_set_unit]
  exact Iff.rfl

/-- The counts. -/
theorem arr7 (c : Dev nD) (h : Fin 2) (g : Fin 512) :
    (dat2 (F := Ideal) V c).arrAt 7 cfg2.N (ix3 h g 0) = (((rowsOf V c h g).card : ℝ) : EReal) := by
  have hN : cfg2.N = 50 := N_2
  have hh := h.isLt
  have ht : 25 * h.val + 24 < cfg2.N := by omega
  refine ((dat2 V c).arrAt_apply_of_mem 7 (G7 V c) (flushed7_eq V c) cfg2.N ⟨25 * h.val + 24, ht⟩ (ix3 h g 0) ht
    ((flush2_7 _).mpr (by show (25 * h.val + 24) % 25 = 24; omega)) ?_).trans (G7_apply V c h g)
  rw [mem_blk7]
  obtain ⟨-, e0, e1, e2⟩ := idx_out ⟨25 * h.val + 24, ht⟩
  have e0' : win2_7.index ⟨25 * h.val + 24, ht⟩ 0 = h.val := by rw [e0]; show (25 * h.val + 24) / 25 = h.val; omega
  intro a
  match a with
  | ⟨0, _⟩ =>
    show win2_7.index ⟨25 * h.val + 24, ht⟩ 0 * 1 ≤ h.val ∧ h.val < win2_7.index ⟨25 * h.val + 24, ht⟩ 0 * 1 + 1
    rw [e0']; omega
  | ⟨1, _⟩ =>
    show win2_7.index ⟨25 * h.val + 24, ht⟩ 1 * 512 ≤ g.val ∧ g.val < win2_7.index ⟨25 * h.val + 24, ht⟩ 1 * 512 + 512
    rw [e1]; have := g.isLt; omega
  | ⟨2, _⟩ =>
    show win2_7.index ⟨25 * h.val + 24, ht⟩ 2 * 1 ≤ 0 ∧ 0 < win2_7.index ⟨25 * h.val + 24, ht⟩ 2 * 1 + 1
    rw [e2]; omega

end Cert.KernelIdeal.Reg2

end
-- ==== Proof.KReg3.lean ====
/-
  Region 3 read as values: the head's one output column, at every index, from the arrays it reads. One grid point whose blocks are the whole arrays.
-/
import proofs.«410623_j52072183497149_3_alg».proof.Proof.Gen.KernelIdeal.Frame
import proofs.«410623_j52072183497149_3_alg».proof.Proof.Gcn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Reg3

open Cert.KernelIdeal Cert.KernelIdeal.Gen Idealize.ShloMosaic Idealize.ShloMosaic.TcCoe Idealize.SL.Sem
open Idealize.ShloMosaic.ValueIdx Idealize.ShloMosaic.Pipeline

variable (V : (c : Dev nD) → (b : Ref sig .tc) → Buf (Elt Ideal) ((c : Thread nD τ).loc b))

/-! ## The two matrix products at an index

Both contract the left operand's second axis with the right operand's first: the left index at output (g, u) and
contraction position q is (g, q), the right one (q, u). -/

theorem lhsA_0 (i : S512x64.Idx) (q : dot_S512x128_S128x64_S512x64_1_0_0_1_n_n.contr.Idx) :
    (dot_S512x128_S128x64_S512x64_1_0_0_1_n_n.lhsIdx i q 0).val = (i 0).val := by
  unfold DotDims.lhsIdx
  rw [dif_neg (show ¬(0 : Fin S512x128.rank) ∈ dot_S512x128_S128x64_S512x64_1_0_0_1_n_n.lhsBatch by decide), dif_pos (show (0 : Fin S512x128.rank) ∈ dot_S512x128_S128x64_S512x64_1_0_0_1_n_n.lhsNonContracting by decide)]
  rfl
theorem lhsA_1 (i : S512x64.Idx) (q : dot_S512x128_S128x64_S512x64_1_0_0_1_n_n.contr.Idx) :
    (dot_S512x128_S128x64_S512x64_1_0_0_1_n_n.lhsIdx i q 1).val = (q ⟨0, by decide⟩).val :=
  dot_S512x128_S128x64_S512x64_1_0_0_1_n_n.lhsIdx_val_of_single rfl i q
theorem rhsA_0 (i : S512x64.Idx) (q : dot_S512x128_S128x64_S512x64_1_0_0_1_n_n.contr.Idx) :
    (dot_S512x128_S128x64_S512x64_1_0_0_1_n_n.rhsIdx i q 0).val = (q ⟨0, by decide⟩).val :=
  dot_S512x128_S128x64_S512x64_1_0_0_1_n_n.rhsIdx_val_of_single rfl i q
theorem rhsA_1 (i : S512x64.Idx) (q : dot_S512x128_S128x64_S512x64_1_0_0_1_n_n.contr.Idx) :
    (dot_S512x128_S128x64_S512x64_1_0_0_1_n_n.rhsIdx i q 1).val = (i 1).val := by
  unfold DotDims.rhsIdx
  rw [dif_neg (show ¬(1 : Fin S128x64.rank) ∈ dot_S512x128_S128x64_S512x64_1_0_0_1_n_n.rhsBatch by decide), dif_pos (show (1 : Fin S128x64.rank) ∈ dot_S512x128_S128x64_S512x64_1_0_0_1_n_n.rhsNonContracting by decide)]
  rfl

/-- The first product, pooled table times the first weight table, at (g, u): the sum over the 128 features. -/
theorem mmA_apply (x : FVec Ideal S512x128 .bf16) (w : FVec Ideal S128x64 .bf16) (g : Fin 512) (u : Fin 64) :
    matmul dot_S512x128_S128x64_S512x64_1_0_0_1_n_n none x w (constant (F := Ideal) S512x64 .f32 0x00000000#32) (ix2 g u)
      = ∑ t : Fin 128, x (ix2 g t) * w (ix2 t u) := by
  show FloatOps.matmul dot_S512x128_S128x64_S512x64_1_0_0_1_n_n none x w (constant (F := Ideal) S512x64 .f32 0x00000000#32) (ix2 g u) = _
  rw [Ideal.matmul_constant_zero_apply, ← Equiv.sum_comp (ValueIdx.contrEquiv1 dot_S512x128_S128x64_S512x64_1_0_0_1_n_n 128 rfl rfl).symm]
  refine Finset.sum_congr rfl fun k _ => ?_
  have hk := ValueIdx.contrEquiv1_symm_val dot_S512x128_S128x64_S512x64_1_0_0_1_n_n 128 rfl rfl k
  have el : dot_S512x128_S128x64_S512x64_1_0_0_1_n_n.lhsIdx (ix2 g u) ((ValueIdx.contrEquiv1 dot_S512x128_S128x64_S512x64_1_0_0_1_n_n 128 rfl rfl).symm k) = ix2 g k := funext fun a => Fin.ext (by
    match a with
    | ⟨0, _⟩ => exact lhsA_0 _ _
    | ⟨1, _⟩ => exact (lhsA_1 _ _).trans hk)
  have er : dot_S512x128_S128x64_S512x64_1_0_0_1_n_n.rhsIdx (ix2 g u) ((ValueIdx.contrEquiv1 dot_S512x128_S128x64_S512x64_1_0_0_1_n_n 128 rfl rfl).symm k) = ix2 k u := funext fun a => Fin.ext (by
    match a with
    | ⟨0, _⟩ => exact (rhsA_0 _ _).trans hk
    | ⟨1, _⟩ => exact rhsA_1 _ _)
  rw [el, er]

theorem lhsB_0 (i : S512x1.Idx) (q : dot_S512x64_S64x1_S512x1_1_0_0_1_n_n.contr.Idx) :
    (dot_S512x64_S64x1_S512x1_1_0_0_1_n_n.lhsIdx i q 0).val = (i 0).val := by
  unfold DotDims.lhsIdx
  rw [dif_neg (show ¬(0 : Fin S512x64.rank) ∈ dot_S512x64_S64x1_S512x1_1_0_0_1_n_n.lhsBatch by decide), dif_pos (show (0 : Fin S512x64.rank) ∈ dot_S512x64_S64x1_S512x1_1_0_0_1_n_n.lhsNonContracting by decide)]
  rfl
theorem lhsB_1 (i : S512x1.Idx) (q : dot_S512x64_S64x1_S512x1_1_0_0_1_n_n.contr.Idx) :
    (dot_S512x64_S64x1_S512x1_1_0_0_1_n_n.lhsIdx i q 1).val = (q ⟨0, by decide⟩).val :=
  dot_S512x64_S64x1_S512x1_1_0_0_1_n_n.lhsIdx_val_of_single rfl i q
theorem rhsB_0 (i : S512x1.Idx) (q : dot_S512x64_S64x1_S512x1_1_0_0_1_n_n.contr.Idx) :
    (dot_S512x64_S64x1_S512x1_1_0_0_1_n_n.rhsIdx i q 0).val = (q ⟨0, by decide⟩).val :=
  dot_S512x64_S64x1_S512x1_1_0_0_1_n_n.rhsIdx_val_of_single rfl i q
theorem rhsB_1 (i : S512x1.Idx) (q : dot_S512x64_S64x1_S512x1_1_0_0_1_n_n.contr.Idx) :
    (dot_S512x64_S64x1_S512x1_1_0_0_1_n_n.rhsIdx i q 1).val = (i 1).val := by
  unfold DotDims.rhsIdx
  rw [dif_neg (show ¬(1 : Fin S64x1.rank) ∈ dot_S512x64_S64x1_S512x1_1_0_0_1_n_n.rhsBatch by decide), dif_pos (show (1 : Fin S64x1.rank) ∈ dot_S512x64_S64x1_S512x1_1_0_0_1_n_n.rhsNonContracting by decide)]
  rfl

/-- The second product, hidden activations times the second weight column, at (g, 0): the sum over the 64 hidden units. -/
theorem mmB_apply (x : FVec Ideal S512x64 .bf16) (w : FVec Ideal S64x1 .bf16) (g : Fin 512) :
    matmul dot_S512x64_S64x1_S512x1_1_0_0_1_n_n none x w (constant (F := Ideal) S512x1 .f32 0x00000000#32) (ix2 g 0)
      = ∑ u : Fin 64, x (ix2 g u) * w (ix2 u 0) := by
  show FloatOps.matmul dot_S512x64_S64x1_S512x1_1_0_0_1_n_n none x w (constant (F := Ideal) S512x1 .f32 0x00000000#32) (ix2 g 0) = _
  rw [Ideal.matmul_constant_zero_apply, ← Equiv.sum_comp (ValueIdx.contrEquiv1 dot_S512x64_S64x1_S512x1_1_0_0_1_n_n 64 rfl rfl).symm]
  refine Finset.sum_congr rfl fun k _ => ?_
  have hk := ValueIdx.contrEquiv1_symm_val dot_S512x64_S64x1_S512x1_1_0_0_1_n_n 64 rfl rfl k
  have el : dot_S512x64_S64x1_S512x1_1_0_0_1_n_n.lhsIdx (ix2 g 0) ((ValueIdx.contrEquiv1 dot_S512x64_S64x1_S512x1_1_0_0_1_n_n 64 rfl rfl).symm k) = ix2 g k := funext fun a => Fin.ext (by
    match a with
    | ⟨0, _⟩ => exact lhsB_0 _ _
    | ⟨1, _⟩ => exact (lhsB_1 _ _).trans hk)
  have er : dot_S512x64_S64x1_S512x1_1_0_0_1_n_n.rhsIdx (ix2 g 0) ((ValueIdx.contrEquiv1 dot_S512x64_S64x1_S512x1_1_0_0_1_n_n 64 rfl rfl).symm k) = ix2 k 0 := funext fun a => Fin.ext (by
    match a with
    | ⟨0, _⟩ => exact (rhsB_0 _ _).trans hk
    | ⟨1, _⟩ => exact rhsB_1 _ _)
  rw [el, er]

/-! ## The body's arithmetic at an index -/

/-- A bias row broadcast down the 512 rows, read at (g, u), is the row's entry u. -/
theorem bcast_row (v : FVec Ideal S1x64 .f32) (h : S1x64.Broadcasts S512x64) (g : Fin 512) (u : Fin 64) :
    broadcastTo S512x64 v h (ix2 g u) = v (ix2 0 u) :=
  broadcastTo_apply v h (ix2 g u) (ix2 0 u) (fun a => by
    match a with
    | ⟨0, _⟩ => show (0 : Nat) = if (1 : Nat) = 1 then 0 else _; rw [if_pos rfl]
    | ⟨1, _⟩ => show u.val = if (64 : Nat) = 1 then 0 else u.val; rw [if_neg (by decide)])

/-- The one-entry bias broadcast down the 512 rows, read at (g, 0), is that entry. -/
theorem bcast_one (v : FVec Ideal S1x1 .f32) (h : S1x1.Broadcasts S512x1) (g : Fin 512) :
    broadcastTo S512x1 v h (ix2 g 0) = v (ix2 0 0) :=
  broadcastTo_apply v h (ix2 g 0) (ix2 0 0) (fun a => by
    match a with
    | ⟨0, _⟩ => show (0 : Nat) = if (1 : Nat) = 1 then 0 else _; rw [if_pos rfl]
    | ⟨1, _⟩ => show (0 : Nat) = if (1 : Nat) = 1 then 0 else _; rw [if_pos rfl])

/-- The body's result at (g, 0): the hidden layer's rectified activations against the second weight column, plus the
    last bias. Changes of float format are the identity on the extended reals, and both accumulators start at zero. -/
theorem pay_apply (x0 : Vec Ideal S512x128 .f32) (x1 : Vec Ideal S128x64 .f32) (x2 : Vec Ideal S1x64 .f32)
    (x3 : Vec Ideal S64x1 .f32) (x4 : Vec Ideal S1x1 .f32) (g : Fin 512) :
    k3_pay1 (F := Ideal) x0 x1 x2 x3 x4 (ix2 g 0)
      = (∑ u : Fin 64, max ((∑ t : Fin 128, x0 (ix2 g t) * x1 (ix2 t u)) + x2 (ix2 0 u)) 0 * x3 (ix2 u 0)) + x4 (ix2 0 0) := by
  unfold k3_pay1
  simp only [shapeCast_self]
  rw [addf_apply, mmB_apply, bcast_one]
  refine congrArg (· + x4 (ix2 0 0)) (Finset.sum_congr rfl fun u _ => ?_)
  rw [truncf_apply, truncf_apply, maximumf_apply, addf_apply, mmA_apply, bcast_row, broadcast_apply]
  simp only [truncf_apply]
  rw [show (FloatOps.ofBits (F := Ideal) .f32 0x00000000#32) = 0 from Ideal.ofBits_zero_f32]

/-! ## From the one point's blocks to the arrays

The grid has one point and every window's block index there is (0, 0) with the block the size of its array: each
loaded block is the whole input array, and the one stored block is the whole output column. -/

theorem zero_offsets : (![0, 0] : Fin 2 → Nat) = fun _ => 0 := funext fun a => by fin_cases a <;> rfl

/-- Every window's block index at the one point is (0, 0). -/
theorem idx_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- The pooled table's block is the whole table. -/
theorem blk0 (c : Dev nD) (t : Fin cfg3.N) (y : S512x128.Idx) : iblk3 (F := Ideal) V c 0 t y = V c main_v68 y := by
  show V c main_v68 (((cfg3.win 0).blk t).view.emb y) = V c main_v68 y
  obtain ⟨e0, e1, -⟩ := idx_facts t
  refine congrArg (V c main_v68) (funext fun a => Fin.ext ?_)
  match a with
  | ⟨0, _⟩ => show win3_0.index t (0 : Fin 2) * 512 + 1 * (y 0).val = (y 0).val; omega
  | ⟨1, _⟩ => show win3_0.index t (1 : Fin 2) * 128 + 1 * (y 1).val = (y 1).val; omega

/-- The first weight table's block is the whole table. -/
theorem blk1 (c : Dev nD) (t : Fin cfg3.N) (y : S128x64.Idx) : iblk3 (F := Ideal) V c 1 t y = V c main_arg9 y := by
  show V c main_arg9 (((cfg3.win 1).blk t).view.emb y) = V c main_arg9 y
  obtain ⟨-, -, e0, e1, -⟩ := idx_facts t
  refine congrArg (V c main_arg9) (funext fun a => Fin.ext ?_)
  match a with
  | ⟨0, _⟩ => show win3_1.index t (0 : Fin 2) * 128 + 1 * (y 0).val = (y 0).val; omega
  | ⟨1, _⟩ => show win3_1.index t (1 : Fin 2) * 64 + 1 * (y 1).val = (y 1).val; omega

/-- The first bias row's block is the whole row. -/
theorem blk2 (c : Dev nD) (t : Fin cfg3.N) (y : S1x64.Idx) : iblk3 (F := Ideal) V c 2 t y = V c main_v69 y := by
  show V c main_v69 (((cfg3.win 2).blk t).view.emb y) = V c main_v69 y
  obtain ⟨-, -, -, -, e0, e1, -⟩ := idx_facts t
  refine congrArg (V c main_v69) (funext fun a => Fin.ext ?_)
  match a with
  | ⟨0, _⟩ => show win3_2.index t (0 : Fin 2) * 1 + 1 * (y 0).val = (y 0).val; omega
  | ⟨1, _⟩ => show win3_2.index t (1 : Fin 2) * 64 + 1 * (y 1).val = (y 1).val; omega

/-- The second weight column's block is the whole column. -/
theorem blk3 (c : Dev nD) (t : Fin cfg3.N) (y : S64x1.Idx) : iblk3 (F := Ideal) V c 3 t y = V c main_arg11 y := by
  show V c main_arg11 (((cfg3.win 3).blk t).view.emb y) = V c main_arg11 y
  obtain ⟨-, -, -, -, -, -, e0, e1, -⟩ := idx_facts t
  refine congrArg (V c main_arg11) (funext fun a => Fin.ext ?_)
  match a with
  | ⟨0, _⟩ => show win3_3.index t (0 : Fin 2) * 64 + 1 * (y 0).val = (y 0).val; omega
  | ⟨1, _⟩ => show win3_3.index t (1 : Fin 2) * 1 + 1 * (y 1).val = (y 1).val; omega

/-- The last bias's block is its one entry. -/
theorem blk4 (c : Dev nD) (t : Fin cfg3.N) (y : S1x1.Idx) : iblk3 (F := Ideal) V c 4 t y = V c main_v70 y := by
  show V c main_v70 (((cfg3.win 4).blk t).view.emb y) = V c main_v70 y
  obtain ⟨-, -, -, -, -, -, -, -, e0, e1, -⟩ := idx_facts t
  refine congrArg (V c main_v70) (funext fun a => Fin.ext ?_)
  match a with
  | ⟨0, _⟩ => show win3_4.index t (0 : Fin 2) * 1 + 1 * (y 0).val = (y 0).val; omega
  | ⟨1, _⟩ => show win3_4.index t (1 : Fin 2) * 1 + 1 * (y 1).val = (y 1).val; omega

/-- The output column as one function of the input tables: the head at row g of the pooled table, the two weight
    tables and the two biases, each read at its coordinates. -/
def col (c : Dev nD) : S512x1.Idx → EReal := fun i =>
  Cert.Gcn.reg3 (fun g t => V c main_v68 (ix2 g t)) (fun t u => V c main_arg9 (ix2 t u)) (fun u => V c main_v69 (ix2 0 u))
    (fun u => V c main_arg11 (ix2 u 0)) (V c main_v70 (ix2 0 0)) ⟨(i 0).val, (i 0).isLt⟩

/-- What the one point writes back is the whole of that column. -/
theorem flushed_eq (c : Dev nD) (t : Fin cfg3.N) :
    (dat3 (F := Ideal) V c).flushed 5 t = ((cfg3.win 5).blk t).view.read (Elt Ideal) (col V c) := by
  show (cfg3.win 5).cut (grid3.coords t) ((dat3 (F := Ideal) V c).after 5 t) = _
  rw [after3_5]
  unfold out3_5
  rw [View.canon_unit_zero zero_offsets]
  simp only [View.ld_unit_zero (S := S512x128) zero_offsets, View.ld_unit_zero (S := S128x64) zero_offsets,
    View.ld_unit_zero (S := S1x64) zero_offsets, View.ld_unit_zero (S := S64x1) zero_offsets,
    View.ld_unit_zero (S := S1x1) zero_offsets]
  funext j
  obtain ⟨p, q, rfl⟩ : ∃ (p : Fin 512) (q : Fin 1), j = ix2 p q := ⟨j 0, j 1, eq_ix2 j⟩
  have hq : q = 0 := Subsingleton.elim _ _
  subst hq
  show k3_pay1 (F := Ideal) (iblk3 V c 0 t) (iblk3 V c 1 t) (iblk3 V c 2 t) (iblk3 V c 3 t) (iblk3 V c 4 t) (ix2 p 0)
    = col V c (((cfg3.win 5).blk t).view.emb (ix2 p 0))
  refine (pay_apply (iblk3 V c 0 t) (iblk3 V c 1 t) (iblk3 V c 2 t) (iblk3 V c 3 t) (iblk3 V c 4 t) p).trans ?_
  simp only [blk0 V c t, blk1 V c t, blk2 V c t, blk3 V c t, blk4 V c t]
  -- the output block sits at block index (0, 0): its entry (p, 0) is the column's entry (p, 0)
  have he : ((cfg3.win 5).blk t).view.emb (ix2 p 0) = (ix2 p 0 : S512x1.Idx) := by
    obtain ⟨-, -, -, -, -, -, -, -, -, -, e0, e1⟩ := idx_facts t
    funext a; apply Fin.ext
    match a with
    | ⟨0, _⟩ => show win3_5.index t (0 : Fin 2) * 512 + 1 * p.val = p.val; omega
    | ⟨1, _⟩ => show win3_5.index t (1 : Fin 2) * 1 + 1 * 0 = 0; omega
  rw [he]
  rfl

/-- An index of the output column is in the point's block iff each coordinate is in the block's range on its axis. -/
theorem mem_blk (t : Fin cfg3.N) (i : S512x1.Idx) :
    i ∈ ((cfg3.win 5).blk t).view.set ↔ ∀ a : Fin 2, win3_5.index t a * S512x1.size a ≤ (i a).val ∧ (i a).val < win3_5.index t a * S512x1.size a + S512x1.size a := by
  show i ∈ ((View.whole main_v71).slice (win3_5.rect t)).set ↔ _
  rw [View.set_slice_whole, Rect.mem_set_unit]
  exact Iff.rfl

/-- The one point's block covers the whole output column. -/
theorem cover (i : S512x1.Idx) : ∃ t : Fin cfg3.N, (cfg3.win 5).flush t = true ∧ i ∈ ((cfg3.win 5).blk t).view.set := by
  refine ⟨⟨0, by decide⟩, flush3_5 _, ?_⟩
  rw [mem_blk]
  obtain ⟨-, -, -, -, -, -, -, -, -, -, e0, e1⟩ := idx_facts ⟨0, by decide⟩
  intro a
  match a with
  | ⟨0, _⟩ =>
    show win3_5.index ⟨0, by decide⟩ (0 : Fin 2) * 512 ≤ (i 0).val ∧ (i 0).val < win3_5.index ⟨0, by decide⟩ (0 : Fin 2) * 512 + 512
    have hi : (i 0).val < 512 := (i 0).isLt
    omega
  | ⟨1, _⟩ =>
    show win3_5.index ⟨0, by decide⟩ (1 : Fin 2) * 1 ≤ (i 1).val ∧ (i 1).val < win3_5.index ⟨0, by decide⟩ (1 : Fin 2) * 1 + 1
    have hi : (i 1).val < 1 := (i 1).isLt
    omega

/-- The output column after the region is that function of the input tables. -/
theorem arr (c : Dev nD) : (dat3 (F := Ideal) V c).arrAt 5 cfg3.N = col V c :=
  (dat3 (F := Ideal) V c).arrAt_eq_of_cover 5 (col V c) (fun t _ => flushed_eq V c t) cover

/-- The output column after the region, at row g, is the head of the input tables read at their coordinates. -/
theorem arr5 (c : Dev nD) (g : Fin 512) :
    (dat3 (F := Ideal) V c).arrAt 5 cfg3.N (ix2 g 0)
      = Cert.Gcn.reg3 (fun g t => V c main_v68 (ix2 g t)) (fun t u => V c main_arg9 (ix2 t u)) (fun u => V c main_v69 (ix2 0 u))
          (fun u => V c main_arg11 (ix2 u 0)) (V c main_v70 (ix2 0 0)) g := by
  rw [arr V c]
  rfl

end Cert.KernelIdeal.Reg3

end
-- ==== Proof.LibScatterRows.lean ====
/-
  A scatter-add of whole rows into a rank-two table, read at an index.

  The operand is a table [N, C], the scatter indices a column [R, 1] holding one row number per update row, the updates a
  table [R, C]. Update element (e, q) lands at operand element (idx e, q), where idx e is read as a signed integer and is
  NOT clamped: it lands only when 0 ≤ idx e < N, and is dropped otherwise. So operand element (n, j) receives exactly the
  update elements (e, j) over the rows e whose index is n, and the scatter-add's value there is the operand's plus the sum
  of those.
-/
import Idealize.ShloMosaic.PureOps.ShapeOps
import Idealize.ShloMosaic.PureOps.Ideal
import Idealize.ShloMosaic.Lib.ValueIdx

noncomputable section

open scoped BigOperators

namespace Idealize.ShloMosaic.ScatterRows

open Idealize.ShloMosaic Idealize.ShloMosaic.ValueIdx

/-- Any element of a list known to be a singleton is that singleton's element. -/
private theorem getElem_singleton_of_eq {β : Type} {l : List β} {b : β} (h : l = [b]) (k : Nat) (hk : k < l.length) :
    l[k] = b := by
  subst h
  have : k = 0 := by simpa using hk
  subst this; rfl

section
variable {N C R w : Nat} (d : ScatterDims ⟨2, ![N, C]⟩ ⟨2, ![R, 1]⟩ ⟨2, ![R, C]⟩)

/-- On the scattered axis the window starts at row e's index, read signed. -/
theorem start_zero (hsd : d.scatterDimsToOperandDims = [0]) (huw : d.updateWindowDims = [1]) (hivd : d.indexVectorDim = 1)
    (idx : IVec ⟨2, ![R, 1]⟩ w) (e : Fin R) (q : Fin C) :
    d.start (ix2 e q) idx 0 = (idx (ix2 e 0)).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have hus : d.uScatter = [0] := by
      show Shape.kept _ d.updateWindowDims = [0]
      rw [huw]; rfl
    rw [getElem_singleton_of_eq hus]
    rfl
  | ⟨1, _⟩ =>
    unfold ScatterDims.siIdx
    rw [dif_pos (by rw [hivd])]
    apply Fin.ext
    show List.idxOf (0 : Fin 2) d.scatterDimsToOperandDims = 0
    rw [hsd]; simp

/-- The other axis is not scattered: its window starts at 0. -/
theorem start_one (hsd : d.scatterDimsToOperandDims = [0]) (idx : IVec ⟨2, ![R, 1]⟩ w) (e : Fin R) (q : Fin C) :
    d.start (ix2 e q) idx 1 = 0 := by
  have hm : (1 : Fin 2) ∉ d.scatterDimsToOperandDims := by rw [hsd]; simp
  unfold ScatterDims.start
  rw [dif_neg hm]

/-- The scattered axis is an inserted one: its window coordinate is 0. -/
theorem window_zero (hiw : d.insertedWindowDims = [0]) (e : Fin R) (q : Fin C) : d.window (ix2 e q) 0 = 0 := by
  have hk : (0 : Fin 2) ∉ d.sKept := by
    have hs : d.sKept = [1] := by
      show Shape.kept _ d.insertedWindowDims = [1]
      rw [hiw]; rfl
    rw [hs]; simp
  unfold ScatterDims.window
  rw [dif_neg hk]

/-- The other axis carries the update's column. -/
theorem window_one (hiw : d.insertedWindowDims = [0]) (huw : d.updateWindowDims = [1]) (e : Fin R) (q : Fin C) :
    d.window (ix2 e q) 1 = q.val := by
  have hk : (1 : Fin 2) ∈ d.sKept := by
    have hs : d.sKept = [1] := by
      show Shape.kept _ d.insertedWindowDims = [1]
      rw [hiw]; rfl
    rw [hs]; exact List.mem_singleton.mpr rfl
  unfold ScatterDims.window
  rw [dif_pos hk, getElem_singleton_of_eq huw]
  rfl

end

/-- Update element (e, q) lands at operand element (n, j) exactly when row e's index, read signed, is n and the columns agree. -/
theorem scatter_rows_resultIdx {N C R w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1)
    (idx : IVec ⟨2, ![R, 1]⟩ w) (e : Fin R) (q : Fin C) (n : Fin N) (j : Fin C) :
    d.resultIdx? (ix2 e q) idx = some (ix2 n j) ↔ (idx (ix2 e 0)).toInt = (n.val : Int) ∧ q = j := by
  have hs0 := start_zero d hsd huw hivd idx e q
  have hs1 := start_one d hsd idx e q
  have hw0 := window_zero d hiw e q
  have hw1 := window_one d hiw huw e q
  unfold ScatterDims.resultIdx?
  split
  · rename_i h
    rw [Option.some.injEq]
    constructor
    · intro hf
      have h0 := congrArg Fin.val (congrFun hf 0)
      have h1 := congrArg Fin.val (congrFun hf 1)
      have hh0 := (h 0).1
      simp only [hs0, hw0] at h0 hh0
      simp only [hs1, hw1] at h1
      refine ⟨?_, Fin.ext ?_⟩
      · have : ((idx (ix2 e 0)).toInt + ((0 : Nat) : Int)).toNat = n.val := h0
        omega
      · have : ((0 : Int) + (q.val : Int)).toNat = j.val := h1
        omega
    · rintro ⟨hS, hq⟩
      funext a
      match a with
      | ⟨0, _⟩ =>
        apply Fin.ext
        show (d.start (ix2 e q) idx 0 + (d.window (ix2 e q) 0 : Int)).toNat = n.val
        rw [hs0, hw0, hS]; omega
      | ⟨1, _⟩ =>
        apply Fin.ext
        show (d.start (ix2 e q) idx 1 + (d.window (ix2 e q) 1 : Int)).toNat = j.val
        rw [hs1, hw1, hq]; omega
  · rename_i h
    constructor
    · intro hf; cases hf
    · rintro ⟨hS, hq⟩
      exfalso
      apply h
      intro a
      match a with
      | ⟨0, _⟩ =>
        show 0 ≤ d.start (ix2 e q) idx 0 + (d.window (ix2 e q) 0 : Int) ∧ d.start (ix2 e q) idx 0 + (d.window (ix2 e q) 0 : Int) < (N : Int)
        rw [hs0, hw0, hS]
        have := n.isLt
        omega
      | ⟨1, _⟩ =>
        show 0 ≤ d.start (ix2 e q) idx 1 + (d.window (ix2 e q) 1 : Int) ∧ d.start (ix2 e q) idx 1 + (d.window (ix2 e q) 1 : Int) < (C : Int)
        rw [hs1, hw1]
        have := q.isLt
        omega

/-- The scatter-add of rows read at (n, j): the operand's element plus the sum of the updates' column j over the rows whose
    index is n. -/
theorem scatterAdd_rows_apply {N C R w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![R, 1]⟩ w) (upd : (⟨2, ![R, C]⟩ : Shape).Idx → EReal)
    (n : Fin N) (j : Fin C) :
    Host.scatterAdd (F := Ideal) (φ := .f32) d x idx upd (ix2 n j)
      = x (ix2 n j) + ∑ e ∈ Finset.univ.filter (fun e : Fin R => (idx (ix2 e 0)).toInt = (n.val : Int)), upd (ix2 e j) := by
  -- which update elements land at (n, j)
  have hP : ∀ i : (⟨2, ![R, C]⟩ : Shape).Idx,
      d.resultIdx? i idx = some (ix2 n j) ↔ (idx (ix2 (i 0 : Fin R) 0)).toInt = (n.val : Int) ∧ (i 1 : Fin C) = j := by
    intro i
    obtain ⟨e, q, rfl⟩ : ∃ (e : Fin R) (q : Fin C), i = ix2 e q := ⟨i 0, i 1, eq_ix2 i⟩
    exact scatter_rows_resultIdx d huw hiw hsd hivd idx e q n j
  have hback : ∀ i : (⟨2, ![R, C]⟩ : Shape).Idx, (i 1 : Fin C) = j → ix2 (i 0 : Fin R) j = i := fun i h1 => by
    funext b; match b with
    | ⟨0, _⟩ => rfl
    | ⟨1, _⟩ => exact h1.symm
  unfold Host.scatterAdd
  rw [Ideal.hostScatterAdd_def]
  unfold Ideal.hostScatterAdd
  congr 1
  -- the landing update elements are (e, j) over the rows e whose index is n: re-index the sum by the row
  refine Finset.sum_bij' (fun i _ => (i 0 : Fin R)) (fun e _ => ix2 e j)
    (fun i hi => Finset.mem_filter.2 ⟨Finset.mem_univ _, ((hP i).1 (Finset.mem_filter.1 hi).2).1⟩)
    (fun e he => Finset.mem_filter.2 ⟨Finset.mem_univ _, (hP (ix2 e j)).2 ⟨(Finset.mem_filter.1 he).2, rfl⟩⟩)
    (fun i hi => hback i ((hP i).1 (Finset.mem_filter.1 hi).2).2) (fun _ _ => rfl) ?_
  intro i hi
  exact (congrArg upd (hback i ((hP i).1 (Finset.mem_filter.1 hi).2).2)).symm

end Idealize.ShloMosaic.ScatterRows

end
-- ==== Proof.LibScatterVec.lean ====
/-
  A scatter-add of single elements into a rank-one table, read at an index.

  The operand is a table [N], the scatter indices a column [R, 1] holding one position per update, the updates a
  vector [R]. Update element e lands at operand element idx e, where idx e is read as a signed integer and is NOT
  clamped: it lands only when 0 ≤ idx e < N, and is dropped otherwise. So operand element n receives exactly the
  updates e whose index is n, and the scatter-add's value there is the operand's plus the sum of those.
-/
import Idealize.ShloMosaic.PureOps.ShapeOps
import Idealize.ShloMosaic.PureOps.Ideal
import Idealize.ShloMosaic.Lib.ValueIdx

noncomputable section

open scoped BigOperators

namespace Idealize.ShloMosaic.ScatterVec

open Idealize.ShloMosaic Idealize.ShloMosaic.ValueIdx

/-- Any element of a list known to be a singleton is that singleton's element. -/
private theorem getElem_singleton_of_eq {β : Type} {l : List β} {b : β} (h : l = [b]) (k : Nat) (hk : k < l.length) :
    l[k] = b := by
  subst h
  have : k = 0 := by simpa using hk
  subst this; rfl

section
variable {N R w : Nat} (d : ScatterDims ⟨1, ![N]⟩ ⟨2, ![R, 1]⟩ ⟨1, ![R]⟩)

/-- On the table's only axis the window starts at update e's index, read signed. -/
theorem start_zero (hsd : d.scatterDimsToOperandDims = [0]) (huw : d.updateWindowDims = []) (hivd : d.indexVectorDim = 1)
    (idx : IVec ⟨2, ![R, 1]⟩ w) (e : Fin R) :
    d.start (ix1 e) idx 0 = (idx (ix2 e 0)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have hus : d.uScatter = [0] := by
      show Shape.kept _ d.updateWindowDims = [0]
      rw [huw]; rfl
    rw [getElem_singleton_of_eq hus]
    rfl
  | ⟨1, _⟩ =>
    unfold ScatterDims.siIdx
    rw [dif_pos (by rw [hivd])]
    apply Fin.ext
    show List.idxOf (0 : Fin 1) d.scatterDimsToOperandDims = 0
    rw [hsd]; simp

/-- The table's only axis is an inserted one: its window coordinate is 0. -/
theorem window_zero (hiw : d.insertedWindowDims = [0]) (e : Fin R) : d.window (ix1 e) 0 = 0 := by
  have hk : (0 : Fin 1) ∉ d.sKept := by
    have hs : d.sKept = [] := by
      show Shape.kept _ d.insertedWindowDims = []
      rw [hiw]; rfl
    rw [hs]; simp
  unfold ScatterDims.window
  rw [dif_neg hk]

end

/-- Update element e lands at operand element n exactly when its index, read signed, is n. -/
theorem scatter_vec_resultIdx {N R w : Nat} (d : ScatterDims ⟨1, ![N]⟩ ⟨2, ![R, 1]⟩ ⟨1, ![R]⟩)
    (huw : d.updateWindowDims = []) (hiw : d.insertedWindowDims = [0]) (hsd : d.scatterDimsToOperandDims = [0])
    (hivd : d.indexVectorDim = 1)
    (idx : IVec ⟨2, ![R, 1]⟩ w) (e : Fin R) (n : Fin N) :
    d.resultIdx? (ix1 e) idx = some (ix1 n) ↔ (idx (ix2 e 0)).toInt = (n.val : Int) := by
  have hs0 := start_zero d hsd huw hivd idx e
  have hw0 := window_zero d hiw e
  unfold ScatterDims.resultIdx?
  split
  · rename_i h
    rw [Option.some.injEq]
    constructor
    · intro hf
      have h0 := congrArg Fin.val (congrFun hf 0)
      have hh0 := (h 0).1
      simp only [hs0, hw0] at h0 hh0
      have : ((idx (ix2 e 0)).toInt + ((0 : Nat) : Int)).toNat = n.val := h0
      omega
    · intro hS
      funext a
      match a with
      | ⟨0, _⟩ =>
        apply Fin.ext
        show (d.start (ix1 e) idx 0 + (d.window (ix1 e) 0 : Int)).toNat = n.val
        rw [hs0, hw0, hS]; omega
  · rename_i h
    constructor
    · intro hf; cases hf
    · intro hS
      exfalso
      apply h
      intro a
      match a with
      | ⟨0, _⟩ =>
        show 0 ≤ d.start (ix1 e) idx 0 + (d.window (ix1 e) 0 : Int) ∧ d.start (ix1 e) idx 0 + (d.window (ix1 e) 0 : Int) < (N : Int)
        rw [hs0, hw0, hS]
        have := n.isLt
        omega

/-- The scatter-add of elements read at n: the operand's element plus the sum of the updates whose index is n. -/
theorem scatterAdd_vec_apply {N R w : Nat} (d : ScatterDims ⟨1, ![N]⟩ ⟨2, ![R, 1]⟩ ⟨1, ![R]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![R, 1]⟩ w) (upd : (⟨1, ![R]⟩ : Shape).Idx → EReal)
    (n : Fin N) :
    Host.scatterAdd (F := Ideal) (φ := .f32) d x idx upd (ix1 n)
      = x (ix1 n) + ∑ e ∈ Finset.univ.filter (fun e : Fin R => (idx (ix2 e 0)).toInt = (n.val : Int)), upd (ix1 e) := by
  -- which update elements land at n
  have hP : ∀ i : (⟨1, ![R]⟩ : Shape).Idx,
      d.resultIdx? i idx = some (ix1 n) ↔ (idx (ix2 (i 0 : Fin R) 0)).toInt = (n.val : Int) := by
    intro i
    obtain ⟨e, rfl⟩ : ∃ (e : Fin R), i = ix1 e := ⟨i 0, eq_ix1 i⟩
    exact scatter_vec_resultIdx d huw hiw hsd hivd idx e n
  have hback : ∀ i : (⟨1, ![R]⟩ : Shape).Idx, ix1 (i 0 : Fin R) = i := fun i => (eq_ix1 i).symm
  unfold Host.scatterAdd
  rw [Ideal.hostScatterAdd_def]
  unfold Ideal.hostScatterAdd
  congr 1
  -- an update index is its one coordinate: re-index the sum by it
  refine Finset.sum_bij' (fun i _ => (i 0 : Fin R)) (fun e _ => ix1 e)
    (fun i hi => Finset.mem_filter.2 ⟨Finset.mem_univ _, (hP i).1 (Finset.mem_filter.1 hi).2⟩)
    (fun e he => Finset.mem_filter.2 ⟨Finset.mem_univ _, (hP (ix1 e)).2 (Finset.mem_filter.1 he).2⟩)
    (fun i _ => hback i) (fun _ _ => rfl) ?_
  intro i _
  exact (congrArg upd (hback i)).symm

end Idealize.ShloMosaic.ScatterVec

end
-- ==== Proof.LibGatherRows.lean ====
/-
  A gather of whole rows from a rank-two table, read at an index.

  The operand is a table [N, C], the start indices a column [R, 1] holding one row number per result row, the result
  a table [R, C]. Result element (e, q) is the operand's element (row, q), where row is idx e read as a signed integer
  and CLAMPED into the table: a negative index reads row 0, one past the end reads the last row.
-/
import Idealize.ShloMosaic.PureOps.ShapeOps
import Idealize.ShloMosaic.Lib.ValueIdx

noncomputable section

namespace Idealize.ShloMosaic.GatherRows

open Idealize.ShloMosaic Idealize.ShloMosaic.ValueIdx

/-- Any element of a list known to be a singleton is that singleton's element. -/
private theorem getElem_singleton_of_eq {β : Type} {l : List β} {b : β} (h : l = [b]) (k : Nat) (hk : k < l.length) :
    l[k] = b := by
  subst h
  have : k = 0 := by simpa using hk
  subst this; rfl

/-- Result element (e, q) reads its row number at the column's entry e: the result's axis 0 is its only batch axis, and
    the start index has one component. -/
theorem siIdx_eq {N C R : Nat} (d : GatherDims ⟨2, ![N, C]⟩ ⟨2, ![R, 1]⟩ ⟨2, ![R, C]⟩)
    (hoff : d.offsetDims = [1]) (hsim : d.startIndexMap = [0]) (hivd : d.indexVectorDim = 1)
    (e : Fin R) (q : Fin C) (c : Fin d.startIndexMap.length) : d.siIdx (ix2 e q) c = ix2 e 0 := by
  funext b
  match b with
  | ⟨0, _⟩ =>
    unfold GatherDims.siIdx
    rw [dif_neg (by rw [hivd]; simp)]
    unfold GatherDims.siCoord
    apply Fin.ext
    simp only [Fin.val_cast]
    have hbd : d.batchDims = [0] := by
      show Shape.kept _ d.offsetDims = [0]
      rw [hoff]; rfl
    rw [getElem_singleton_of_eq hbd]
    rfl
  | ⟨1, _⟩ =>
    unfold GatherDims.siIdx
    rw [dif_pos (by rw [hivd])]
    apply Fin.ext
    show c.val = 0
    have hl : d.startIndexMap.length = 1 := by rw [hsim]; rfl
    have := c.isLt
    omega

/-- The gather of rows read at (e, q). -/
theorem gather_rows_apply {α : Type} {N C R w : Nat} (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![R, 1]⟩ w) (e : Fin R) (q : Fin C) (hN : 0 < N) :
    Host.gather d x idx (ix2 e q)
      = x (ix2 (⟨min (idx (ix2 e 0)).toInt.toNat (N - 1), by omega⟩ : Fin N) q) := by
  have hb0 : (0 : Fin 2) ∉ d.operandBatchingDims := by rw [hob]; exact List.not_mem_nil
  have hb1 : (1 : Fin 2) ∉ d.operandBatchingDims := by rw [hob]; exact List.not_mem_nil
  -- the operand's axes neither collapsed nor batching: axis 1 alone
  have hsK : d.sKept = [1] := by
    show Shape.kept _ (d.collapsedSliceDims ++ d.operandBatchingDims) = [1]
    rw [hcoll, hob]; rfl
  have hk0 : (0 : Fin 2) ∉ d.sKept := by rw [hsK]; simp
  have hk1 : (1 : Fin 2) ∈ d.sKept := by rw [hsK]; exact List.mem_singleton.mpr rfl
  have hm0 : (0 : Fin 2) ∈ d.startIndexMap := by rw [hsim]; exact List.mem_singleton.mpr rfl
  have hm1 : (1 : Fin 2) ∉ d.startIndexMap := by rw [hsim]; simp
  unfold Host.gather
  congr 1
  funext a
  match a with
  | ⟨0, _⟩ =>
    -- the row: the start index, read signed and clamped to N - 1 (slice size 1), with no batching or offset part
    apply Fin.ext
    show d.start (ix2 e q) idx 0 + d.batchCoord (ix2 e q) 0 + d.offCoord (ix2 e q) 0
      = min (idx (ix2 e 0)).toInt.toNat (N - 1)
    rw [d.batchCoord_eq_zero _ _ hb0, d.offCoord_eq_zero _ _ hk0, Nat.add_zero]
    unfold GatherDims.start
    rw [dif_pos hm0, siIdx_eq d hoff hsim hivd e q]
    have hsl : d.sliceSizes 0 = 1 := by rw [hss]; rfl
    show min (idx (ix2 e 0)).toInt.toNat (N - d.sliceSizes 0) = min (idx (ix2 e 0)).toInt.toNat (N - 1)
    rw [hsl]
  | ⟨1, _⟩ =>
    -- the column: no start index names this axis, so it is the result's offset coordinate q
    apply Fin.ext
    show d.start (ix2 e q) idx 1 + d.batchCoord (ix2 e q) 1 + d.offCoord (ix2 e q) 1 = q.val
    rw [d.batchCoord_eq_zero _ _ hb1, Nat.add_zero]
    unfold GatherDims.start
    rw [dif_neg hm1, Nat.zero_add]
    unfold GatherDims.offCoord
    rw [dif_pos hk1, getElem_singleton_of_eq hoff]
    rfl

end Idealize.ShloMosaic.GatherRows

end
-- ==== Proof.KHostA.lean ====
/-
  The host operations before regions 0 and 1, read as values. Before region 0: the degree by a scatter-add of ones over the destination words plus one, dinv as its reciprocal square root laid as a column, the input column scaled by dinv, its edge aggregate (a gather of rows at the wrapped source words, a scatter-add at the destination words) plus itself, and the bias as a row. Before region 1: the edge aggregate of the row-scaled table region 0 left; everything else is read back unchanged.
-/
import proofs.«410623_j52072183497149_3_alg».proof.Proof.Gen.KernelIdeal.Frame
import proofs.«410623_j52072183497149_3_alg».proof.Proof.Gcn
import Idealize.ShloMosaic.Lib.ValueIdx
import Idealize.ShloMosaic.Lib.ValueLayout
import Idealize.ShloMosaic.Lib.Pipeline.Value
import Idealize.ShloMosaic.PureOps.Ideal.Laws
import proofs.«410623_j52072183497149_3_alg».proof.Proof.KParams
import proofs.«410623_j52072183497149_3_alg».proof.Proof.LibScatterRows
import proofs.«410623_j52072183497149_3_alg».proof.Proof.LibScatterVec
import proofs.«410623_j52072183497149_3_alg».proof.Proof.LibGatherRows
import Idealize.ShloMosaic.Lib.StableHlo.Run
import Idealize.ShloMosaic.Lib.IdealHost
import Idealize.ShloMosaic.Lib.StableHlo.Predicate
set_option maxRecDepth 16384

noncomputable section

open scoped BigOperators

namespace Cert.KernelIdeal.Host

open Cert.KernelIdeal Cert.KernelIdeal.Gen Cert.KernelIdeal.Val Idealize.ShloMosaic Idealize.ShloMosaic.TcCoe Idealize.SL.Sem
open Idealize.ShloMosaic.ValueIdx Idealize.ShloMosaic.Pipeline

variable (m : (ℓ : Loc nD τ sig) → Buf (Elt Ideal) ℓ) (ρ : Dev nD → PrngReg)

/-- A buffer that no operation of a stretch writes: each operation's result reference is another one. -/
local macro "no_write" : tactic =>
  `(tactic| (refine List.forall_iff_forall_mem.mp ?_
             simp only [hostOps0, hostOps1, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## The arrays the host operations form, as named functions of the launch contents -/

/-- The raw source words, one per edge: row 0 of the edge table. -/
def srcW (c : Dev nD) : IVec S1600000 32 :=
  shapeCast S1600000 (extractStridedSlice S1x1600000 ![0, 0] (m ((c : Thread nD τ).loc main_arg1)) slices_S2x1600000_S1x1600000_0_0)
    shapeCasts_S1x1600000_S1600000

/-- The raw destination words, one per edge: row 1 of the edge table. -/
def dstW (c : Dev nD) : IVec S1600000 32 :=
  shapeCast S1600000 (extractStridedSlice S1x1600000 ![1, 0] (m ((c : Thread nD τ).loc main_arg1)) slices_S2x1600000_S1x1600000_1_0)
    shapeCasts_S1x1600000_S1600000

/-- A vector of index words laid as a column. -/
def col (s : IVec S1600000 32) : IVec S1600000x1 32 := broadcastInDim S1600000x1 ![0] bcast_S1600000_S1600000x1_0 s

/-- The negative-index wrap, element by element. -/
def wrapV (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- The degrees: ones scatter-added at the destination words over zeros, plus one. -/
def deg (c : Dev nD) : FVec Ideal S100000 .f32 :=
  addf
    (Host.scatterAdd (F := Ideal) (φ := .f32) scatter_S100000_S1600000x1_S1600000_n_0_0_1
      (broadcastInDim S100000 ![] bcast_S_S100000 (constant (F := Ideal) S_ .f32 0x00000000#32))
      (col (dstW m c))
      (broadcastInDim S1600000 ![] bcast_S_S1600000 (constant (F := Ideal) S_ .f32 0x3F800000#32)))
    (broadcastInDim S100000 ![] bcast_S_S100000 (constant (F := Ideal) S_ .f32 0x3F800000#32))

/-- dinv laid as a column. -/
def dinvCol (c : Dev nD) : FVec Ideal S100000x1 .f32 :=
  shapeCast S100000x1 (Host.rsqrt (F := Ideal) (deg m c)) shapeCasts_S100000_S100000x1

/-- The input column scaled by dinv. -/
def xs (c : Dev nD) : FVec Ideal S100000x1 .f32 :=
  mulf (m ((c : Thread nD τ).loc main_arg0) : FVec Ideal S100000x1 .f32) (dinvCol m c)

/-! ## Those arrays read at an index -/

theorem col_apply (s : IVec S1600000 32) (e : Fin 1600000) : col s (ix2 e 0) = s (ix1 e) := by
  refine broadcastInDim_apply _ _ s (ix2 e 0) (ix1 e) fun a => ?_
  match a with
  | ⟨0, _⟩ => exact (if_neg (show ¬ (1600000 : Nat) = 1 by decide)).symm

theorem wrapV_apply (s : IVec S1600000 32) (e : Fin 1600000) : wrapV s (ix1 e) = Cert.Gcn.wrap (s (ix1 e)) := rfl

theorem srcW_apply (c : Dev nD) (e : Fin 1600000) : srcW m c (ix1 e) = (P m c).src e := by
  refine (shapeCast_1a_a_apply _ _ e).trans ?_
  refine extractStridedSlice_apply _ _ _ (ix2 (0 : Fin 1) e) (ix2 (0 : Fin 2) e) fun a => ?_
  match a with
  | ⟨0, _⟩ => rfl
  | ⟨1, _⟩ => exact (Nat.zero_add _).symm

theorem dstW_apply (c : Dev nD) (e : Fin 1600000) : dstW m c (ix1 e) = (P m c).dst e := by
  refine (shapeCast_1a_a_apply _ _ e).trans ?_
  refine extractStridedSlice_apply _ _ _ (ix2 (0 : Fin 1) e) (ix2 (1 : Fin 2) e) fun a => ?_
  match a with
  | ⟨0, _⟩ => rfl
  | ⟨1, _⟩ => exact (Nat.zero_add _).symm

/-- The edges whose destination column entry is i are the edges landing at i. -/
theorem lands_col (c : Dev nD) (i : Fin 100000) :
    Finset.univ.filter (fun e : Fin 1600000 => (col (dstW m c) (ix2 e 0)).toInt = (i.val : Int))
      = Cert.Gcn.landsAt (P m c).dst i := by
  unfold Cert.Gcn.landsAt
  refine Finset.filter_congr fun e _ => ?_
  rw [col_apply, dstW_apply]

/-- A sum of ones over a finite set is its number of elements. -/
theorem sum_ones {ι : Type} (S : Finset ι) : (∑ _e ∈ S, (1 : EReal)) = ((S.card : ℝ) : EReal) := by
  rw [← EReal.coe_one, ← Cert.Gcn.coe_sum, Finset.sum_const, nsmul_eq_mul, mul_one]

/-- A node's degree: the number of edges landing on it, plus one. -/
theorem deg_apply (c : Dev nD) (r : Fin 100000) : deg m c (ix1 r) = ((Cert.Gcn.degR (P m c).dst r : ℝ) : EReal) := by
  unfold deg
  rw [addf_apply, ScatterVec.scatterAdd_vec_apply _ rfl rfl rfl rfl, lands_col]
  rw [broadcastInDim_scalar_apply, broadcastInDim_scalar_apply, constant_apply, constant_apply,
    Ideal.ofBits_zero_f32, Ideal.ofBits_one_f32, zero_add]
  rw [Finset.sum_congr rfl fun e _ => (broadcastInDim_scalar_apply bcast_S_S1600000 _ (ix1 e)).trans
    ((constant_apply _ _).trans Ideal.ofBits_one_f32), sum_ones]
  unfold Cert.Gcn.degR
  rw [EReal.coe_add, EReal.coe_one]

/-- The reciprocal square root of a positive real. -/
theorem rsqrt_pos {x : ℝ} (hx : 0 < x) : Ideal.rsqrt (x : EReal) = (((Real.sqrt x)⁻¹ : ℝ) : EReal) := by
  rw [Ideal.rsqrt_coe, if_neg (not_lt.2 hx.le), if_neg hx.ne']

/-- The host's reciprocal square root, element by element. -/
theorem hostRsqrt_apply {s : Shape} (x : FVec Ideal s .f32) (i : s.Idx) :
    Host.rsqrt (F := Ideal) x i = Ideal.rsqrt (x i) := rfl

theorem dinvCol_apply (c : Dev nD) (r : Fin 100000) : dinvCol m c (ix2 r 0) = Cert.Gcn.dv (P m c) r := by
  unfold dinvCol
  refine (shapeCast_apply _ _ (ix2 r 0) (ix1 r) ?_).trans ?_
  · rw [Shape.rowMajor_val_two, Shape.rowMajor_val_one]
    show r.val = r.val * 1 + 0
    omega
  · rw [hostRsqrt_apply, deg_apply, rsqrt_pos (Cert.Gcn.degR_pos (P m c).dst r)]
    unfold Cert.Gcn.dv Cert.Gcn.dinvR
    rfl

theorem xs_apply (c : Dev nD) (r : Fin 100000) : xs m c (ix2 r 0) = (P m c).x r * Cert.Gcn.dv (P m c) r := by
  unfold xs
  rw [mulf_apply, dinvCol_apply]
  rfl
/-- A row gather at the wrapped source column reads, for edge e, the table's row the source word selects. -/
theorem gather_src_apply {α : Type} {C : Nat} (d : GatherDims ⟨2, ![100000, C]⟩ ⟨2, ![1600000, 1]⟩ ⟨2, ![1600000, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (t : (⟨2, ![100000, C]⟩ : Shape).Idx → α) (c : Dev nD) (e : Fin 1600000) (q : Fin C) :
    Host.gather d t (col (wrapV (srcW m c))) (ix2 e q) = t (ix2 (Cert.Gcn.rowOf ((P m c).src e)) q) := by
  rw [GatherRows.gather_rows_apply d hoff hcoll hob hsim hivd hss t _ e q (by decide)]
  refine congrArg (fun n => t (ix2 n q)) (Fin.ext ?_)
  show min (col (wrapV (srcW m c)) (ix2 e 0)).toInt.toNat (100000 - 1) = min (Cert.Gcn.wrap ((P m c).src e)).toInt.toNat 99999
  rw [col_apply, wrapV_apply, srcW_apply]

/-! ## The buffers the host operations before region 0 write, as whole arrays -/

theorem v1_eq1 (c : Dev nD) : W1 m ρ c (Proc.devRef .tc main_v1) = srcW m c := by
  show StableHlo.after hostOps0 (W0 m ρ c) (Proc.devRef .tc main_v1) = _
  after_results
  rfl

theorem v3_eq1 (c : Dev nD) : W1 m ρ c (Proc.devRef .tc main_v3) = dstW m c := by
  show StableHlo.after hostOps0 (W0 m ρ c) (Proc.devRef .tc main_v3) = _
  after_results
  rfl

theorem v11_eq1 (c : Dev nD) : W1 m ρ c (Proc.devRef .tc main_v11) = dinvCol m c := by
  show StableHlo.after hostOps0 (W0 m ρ c) (Proc.devRef .tc main_v11) = _
  after_results
  rfl

/-- The width-one pre-aggregate: the scaled column's rows gathered at the wrapped source words and scatter-added at the
    destination words over zeros, plus the scaled column. -/
def preAgg (c : Dev nD) : FVec Ideal S100000x1 .f32 :=
  addf
    (Host.scatterAdd (F := Ideal) (φ := .f32) scatter_S100000x1_S1600000x1_S1600000x1_1_0_0_1
      (broadcastInDim S100000x1 ![] bcast_S_S100000x1 (constant (F := Ideal) S_ .f32 0x00000000#32))
      (col (dstW m c))
      (Host.gather gather_S100000x1_S1600000x1_S1600000x1_1_0_n_n_0_1_11 (xs m c) (col (wrapV (srcW m c)))))
    (xs m c)

theorem v26_eq1 (c : Dev nD) : W1 m ρ c (Proc.devRef .tc main_v26) = preAgg m c := by
  show StableHlo.after hostOps0 (W0 m ρ c) (Proc.devRef .tc main_v26) = _
  after_results_simp
  rfl

/-- Layer 0's bias laid as a row: the whole array. -/
theorem v12_eq1 (c : Dev nD) :
    W1 m ρ c (Proc.devRef .tc main_v12) = shapeCast S1x128 (m ((c : Thread nD τ).loc main_arg4)) shapeCasts_S128_S1x128 := by
  show StableHlo.after hostOps0 (W0 m ρ c) (Proc.devRef .tc main_v12) = _
  after_results
  rfl

/-- Layer 1's bias laid as a row: the whole array. -/
theorem v13_eq1 (c : Dev nD) :
    W1 m ρ c (Proc.devRef .tc main_v13) = shapeCast S1x128 (m ((c : Thread nD τ).loc main_arg6)) shapeCasts_S128_S1x128 := by
  show StableHlo.after hostOps0 (W0 m ρ c) (Proc.devRef .tc main_v13) = _
  after_results
  rfl

/-- The edge aggregate of a 128-wide table: its rows gathered at the wrapped source words, widened, and scatter-added at
    the destination words over zeros. -/
def aggT (dw sw : IVec S1600000 32) (t : FVec Ideal S100000x128 .bf16) : FVec Ideal S100000x128 .f32 :=
  Host.scatterAdd (F := Ideal) (φ := .f32) scatter_S100000x128_S1600000x1_S1600000x128_1_0_0_1
    (broadcastInDim S100000x128 ![] bcast_S_S100000x128 (constant (F := Ideal) S_ .f32 0x00000000#32))
    (col dw)
    (extf .f32 (Host.gather gather_S100000x128_S1600000x1_S1600000x128_1_0_n_n_0_1_1128 t (col (wrapV sw))) bitsLt_bf16_f32)

/-- The aggregate buffer, over the contents region 0 leaves. -/
theorem v38_eq3 (c : Dev nD) :
    W3 m ρ c (Proc.devRef .tc main_v38)
      = aggT (W2 m ρ c (Proc.devRef .tc main_v3)) (W2 m ρ c (Proc.devRef .tc main_v1)) (W2 m ρ c (Proc.devRef .tc main_v27_0)) := by
  show StableHlo.after hostOps1 (W2 m ρ c) (Proc.devRef .tc main_v38) = _
  after_results_simp
  rfl

/-- Region 0 leaves the two index-word vectors as the host operations before it formed them. -/
theorem v38_eq3' (c : Dev nD) :
    W3 m ρ c (Proc.devRef .tc main_v38) = aggT (dstW m c) (srcW m c) (W2 m ρ c (Proc.devRef .tc main_v27_0)) := by
  have e3 : W2 m ρ c (Proc.devRef .tc main_v3) = dstW m c := (W2_of_ne m ρ c main_v3 (by decide)).trans (v3_eq1 m ρ c)
  have e1 : W2 m ρ c (Proc.devRef .tc main_v1) = srcW m c := (W2_of_ne m ρ c main_v1 (by decide)).trans (v1_eq1 m ρ c)
  rw [v38_eq3, e3, e1]

/-! ## What region 0 is entered with -/

/-- The dinv column. -/
theorem v11_at1 (c : Dev nD) (r : Fin 100000) : V1 m ρ c main_v11 (ix2 r 0) = Cert.Gcn.dv (P m c) r :=
  (congrFun (v11_eq1 m ρ c) (ix2 r 0)).trans (dinvCol_apply m c r)

/-- The width-one pre-aggregate column. -/
theorem v26_at1 (c : Dev nD) (r : Fin 100000) : V1 m ρ c main_v26 (ix2 r 0) = Cert.Gcn.zK (P m c) r := by
  refine (congrFun (v26_eq1 m ρ c) (ix2 r 0)).trans ?_
  unfold preAgg
  rw [addf_apply, ScatterRows.scatterAdd_rows_apply _ rfl rfl rfl rfl, lands_col, xs_apply,
    broadcastInDim_scalar_apply, constant_apply, Ideal.ofBits_zero_f32, zero_add]
  unfold Cert.Gcn.zK Cert.Gcn.agg
  rw [Finset.sum_congr rfl fun e _ =>
    (gather_src_apply m gather_S100000x1_S1600000x1_S1600000x1_1_0_n_n_0_1_11 rfl rfl rfl rfl rfl rfl (xs m c) c e 0).trans
      (xs_apply m c (Cert.Gcn.rowOf ((P m c).src e)))]

/-- Layer 0's bias as a row. -/
theorem v12_at1 (c : Dev nD) (k : Fin 128) : V1 m ρ c main_v12 (ix2 0 k) = (P m c).b0 k := by
  refine (congrFun (v12_eq1 m ρ c) (ix2 0 k)).trans ?_
  exact shapeCast_a_1a_apply _ _ 0 k

theorem arg3_at1 (c : Dev nD) : V1 m ρ c main_arg3 = m ((c : Thread nD τ).loc main_arg3) :=
  calc W1 m ρ c (Proc.devRef .tc main_arg3)
    _ = W0 m ρ c (Proc.devRef .tc main_arg3) :=
        StableHlo.after_of_forall_not_mem (b := Proc.devRef .tc main_arg3) _ _ (by no_write)
    _ = m ((c : Thread nD τ).loc main_arg3) := rfl

theorem arg5_at1 (c : Dev nD) : V1 m ρ c main_arg5 = m ((c : Thread nD τ).loc main_arg5) :=
  calc W1 m ρ c (Proc.devRef .tc main_arg5)
    _ = W0 m ρ c (Proc.devRef .tc main_arg5) :=
        StableHlo.after_of_forall_not_mem (b := Proc.devRef .tc main_arg5) _ _ (by no_write)
    _ = m ((c : Thread nD τ).loc main_arg5) := rfl

/-! ## What region 1 is entered with -/

/-- The edge aggregate of the table region 0 left for the gather. -/
theorem v38_at3 (c : Dev nD) (i : Fin 100000) (k : Fin 128) :
    V3 m ρ c main_v38 (ix2 i k)
      = Cert.Gcn.agg (P m c).src (P m c).dst (fun r => W2 m ρ c (Proc.devRef .tc main_v27_0) (ix2 r k)) i := by
  refine (congrFun (v38_eq3' m ρ c) (ix2 i k)).trans ?_
  unfold aggT
  rw [ScatterRows.scatterAdd_rows_apply _ rfl rfl rfl rfl, lands_col, broadcastInDim_scalar_apply, constant_apply,
    Ideal.ofBits_zero_f32, zero_add]
  unfold Cert.Gcn.agg
  rw [Finset.sum_congr rfl fun e _ =>
    (extf_apply _ bitsLt_bf16_f32 (ix2 e k)).trans
      (gather_src_apply m gather_S100000x128_S1600000x1_S1600000x128_1_0_n_n_0_1_1128 rfl rfl rfl rfl rfl rfl
        (W2 m ρ c (Proc.devRef .tc main_v27_0) : FVec Ideal S100000x128 .bf16) c e k)]

theorem v27_1_at3 (c : Dev nD) : V3 m ρ c main_v27_1 = W2 m ρ c (Proc.devRef .tc main_v27_1) :=
  StableHlo.after_of_forall_not_mem (b := Proc.devRef .tc main_v27_1) _ _ (by no_write)

/-- The dinv column is one of region 0's input arrays: the region leaves it as entered. -/
theorem v11_at3 (c : Dev nD) : V3 m ρ c main_v11 = V1 m ρ c main_v11 :=
  calc W3 m ρ c (Proc.devRef .tc main_v11)
    _ = W2 m ρ c (Proc.devRef .tc main_v11) :=
        StableHlo.after_of_forall_not_mem (b := Proc.devRef .tc main_v11) _ _ (by no_write)
    _ = W1 m ρ c (Proc.devRef .tc main_v11) :=
        (W2_arr m ρ c 1).trans (((dat0 (V1 m ρ) c).arrAt_in 1 rfl _).trans (A_eq0 (V1 m ρ) c 1))

/-- Layer 1's bias as a row. -/
theorem v13_at3 (c : Dev nD) (k : Fin 128) : V3 m ρ c main_v13 (ix2 0 k) = (P m c).b1 k := by
  have e : W3 m ρ c (Proc.devRef .tc main_v13) = W1 m ρ c (Proc.devRef .tc main_v13) :=
    calc W3 m ρ c (Proc.devRef .tc main_v13)
      _ = W2 m ρ c (Proc.devRef .tc main_v13) :=
          StableHlo.after_of_forall_not_mem (b := Proc.devRef .tc main_v13) _ _ (by no_write)
      _ = W1 m ρ c (Proc.devRef .tc main_v13) := W2_of_ne m ρ c main_v13 (by decide)
  refine (congrFun (e.trans (v13_eq1 m ρ c)) (ix2 0 k)).trans ?_
  exact shapeCast_a_1a_apply _ _ 0 k

theorem arg7_at3 (c : Dev nD) : V3 m ρ c main_arg7 = m ((c : Thread nD τ).loc main_arg7) :=
  calc W3 m ρ c (Proc.devRef .tc main_arg7)
    _ = W2 m ρ c (Proc.devRef .tc main_arg7) :=
        StableHlo.after_of_forall_not_mem (b := Proc.devRef .tc main_arg7) _ _ (by no_write)
    _ = W1 m ρ c (Proc.devRef .tc main_arg7) := W2_of_ne m ρ c main_arg7 (by decide)
    _ = W0 m ρ c (Proc.devRef .tc main_arg7) :=
        StableHlo.after_of_forall_not_mem (b := Proc.devRef .tc main_arg7) _ _ (by no_write)
    _ = m ((c : Thread nD τ).loc main_arg7) := rfl

end Cert.KernelIdeal.Host

end
-- ==== Proof.KHostB.lean ====
/-
  The host operations before regions 2 and 3, read as values. Before region 2: the edge aggregate of the row-scaled table region 1 left, the graph identifiers 0 … 511 as a row, the graph words as a column; the rest read back unchanged. Before region 3: the two halves' sums added, the two halves' counts added, the quotient of the sums by the larger of the count and one; the head's biases as rows.
-/
import proofs.«410623_j52072183497149_3_alg».proof.Proof.Gen.KernelIdeal.Frame
import proofs.«410623_j52072183497149_3_alg».proof.Proof.Gcn
import Idealize.ShloMosaic.Lib.ValueIdx
import Idealize.ShloMosaic.Lib.ValueLayout
import Idealize.ShloMosaic.Lib.Pipeline.Value
import Idealize.ShloMosaic.PureOps.Ideal.Laws
import proofs.«410623_j52072183497149_3_alg».proof.Proof.KParams
import proofs.«410623_j52072183497149_3_alg».proof.Proof.LibScatterRows
import proofs.«410623_j52072183497149_3_alg».proof.Proof.LibScatterVec
import proofs.«410623_j52072183497149_3_alg».proof.Proof.LibGatherRows
import Idealize.ShloMosaic.Lib.StableHlo.Run
import Idealize.ShloMosaic.Lib.StableHlo.Predicate
import Idealize.ShloMosaic.Lib.IdealHost
set_option maxRecDepth 16384

noncomputable section

open scoped BigOperators

namespace Cert.KernelIdeal.HostB

open Cert.KernelIdeal Cert.KernelIdeal.Gen Cert.KernelIdeal.Val Idealize.ShloMosaic Idealize.ShloMosaic.TcCoe Idealize.SL.Sem
open Idealize.ShloMosaic.ValueIdx Idealize.ShloMosaic.Pipeline

variable (m : (ℓ : Loc nD τ sig) → Buf (Elt Ideal) ℓ) (ρ : Dev nD → PrngReg)

/-! ## Reading back and reading at an index -/

/-- None of a stretch's operations writes the buffer. -/
local macro "stretch_skips" : tactic => `(tactic| (
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- The edge aggregate as the host's operations compose it: the table's rows gathered at the wrapped source words,
    scattered and added at the destination words onto zeros. -/
def aggOps (tbl : S100000x128.Idx → EReal) (srcw dstw : S1600000.Idx → BitVec 32) : S100000x128.Idx → EReal :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dstw)
    (extf (F := Ideal) (φ := .bf16) .f32
      (Host.gather gather_S100000x128_S1600000x1_S1600000x128_1_0_n_n_0_1_1128 tbl
        (broadcastInDim S1600000x1 ![0] bcast_S1600000_S1600000x1_0
          (select (cmpi .slt srcw (broadcastInDim S1600000 ![] bcast_S_S1600000 (constantI S_ 32 0#32)))
            (addi srcw (broadcastInDim S1600000 ![] bcast_S_S1600000 (constantI S_ 32 100000#32))) srcw)))
      bitsLt_bf16_f32)

/-- A vector of edge words laid as a column reads, at edge e, the vector's word e. -/
theorem edgeCol_apply (v : S1600000.Idx → BitVec 32) (e : Fin 1600000) :
    broadcastInDim S1600000x1 ![0] bcast_S1600000_S1600000x1_0 v (ix2 e (0 : Fin 1)) = v (ix1 e) :=
  broadcastInDim_apply ![0] bcast_S1600000_S1600000x1_0 v (ix2 e (0 : Fin 1)) (ix1 e)
    (fun a => match a with | ⟨0, _⟩ => rfl)

/-- The aggregate at node i and feature k: the sum, over the edges whose destination word read signed is i, of the
    table at the row the source word selects. -/
theorem aggOps_apply (tbl : S100000x128.Idx → EReal) (srcw dstw : S1600000.Idx → BitVec 32) (i : Fin 100000) (k : Fin 128) :
    aggOps tbl srcw dstw (ix2 i k)
      = ∑ e ∈ Finset.univ.filter (fun e : Fin 1600000 => (dstw (ix1 e)).toInt = (i.val : Int)),
          tbl (ix2 (Cert.Gcn.rowOf (srcw (ix1 e))) k) := by
  unfold aggOps
  rw [ScatterRows.scatterAdd_rows_apply scatter_S100000x128_S1600000x1_S1600000x128_1_0_0_1 rfl rfl rfl rfl,
    broadcastInDim_scalar_apply, constant_apply, Ideal.ofBits_zero_f32, zero_add]
  refine Finset.sum_congr (Finset.filter_congr fun e _ => by rw [edgeCol_apply]) fun e _ => ?_
  rw [extf_apply,
    GatherRows.gather_rows_apply gather_S100000x128_S1600000x1_S1600000x128_1_0_n_n_0_1_1128 rfl rfl rfl rfl rfl rfl
      tbl _ e k (by decide)]
  refine congrArg (fun r : Fin 100000 => tbl (ix2 r k)) (Fin.ext ?_)
  dsimp only
  rw [edgeCol_apply]
  rfl

/-- One row of the [2, 1600000] edge table, cut out and laid flat, reads the table at that row. -/
theorem edgeRow_apply {o : Nat} (X : S2x1600000.Idx → BitVec 32) (h1 : S2x1600000.Slices ![o, 0] S1x1600000)
    (h2 : S1x1600000.ShapeCasts S1600000) (a : Fin 2) (ha : a.val = o) (e : Fin 1600000) :
    shapeCast S1600000 (extractStridedSlice S1x1600000 ![o, 0] X h1) h2 (ix1 e) = X (ix2 a e) :=
  (shapeCast_1a_a_apply _ h2 e).trans
    (extractStridedSlice_apply _ X h1 _ (ix2 a e) fun ax =>
      match ax with
      | ⟨0, _⟩ => by show a.val = o + 0; omega
      | ⟨1, _⟩ => by show e.val = 0 + e.val; omega)

/-- The source words are untouched between the first stretch, which cuts them out of the edge table, and region 2. -/
theorem v1_back (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by stretch_skips
    _ = W1 m ρ c (Proc.devRef .tc main_v1) := W2_of_ne m ρ c main_v1 (by decide)

/-- So are the destination words. -/
theorem v3_back (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by stretch_skips
    _ = W1 m ρ c (Proc.devRef .tc main_v3) := W2_of_ne m ρ c main_v3 (by decide)

/-- Edge e's source word, as region 2's stretch reads it. -/
theorem v1_word (c : Dev nD) (e : Fin 1600000) :
    (W4 m ρ c (Proc.devRef .tc main_v1) : S1600000.Idx → BitVec 32) (ix1 e) = (P m c).src e := by
  have e1 : (W1 m ρ c (Proc.devRef .tc main_v1) : S1600000.Idx → BitVec 32)
      = shapeCast S1600000 (extractStridedSlice S1x1600000 ![0, 0] (m ((c : Thread nD τ).loc main_arg1))
          slices_S2x1600000_S1x1600000_0_0) shapeCasts_S1x1600000_S1600000 := by
    show StableHlo.after hostOps0 (W0 m ρ c) (Proc.devRef .tc main_v1) = _
    after_results_simp; rfl
  refine (congrFun ((v1_back m ρ c).trans e1) (ix1 e)).trans ?_
  exact edgeRow_apply _ _ _ 0 rfl e

/-- Edge e's destination word. -/
theorem v3_word (c : Dev nD) (e : Fin 1600000) :
    (W4 m ρ c (Proc.devRef .tc main_v3) : S1600000.Idx → BitVec 32) (ix1 e) = (P m c).dst e := by
  have e1 : (W1 m ρ c (Proc.devRef .tc main_v3) : S1600000.Idx → BitVec 32)
      = shapeCast S1600000 (extractStridedSlice S1x1600000 ![1, 0] (m ((c : Thread nD τ).loc main_arg1))
          slices_S2x1600000_S1x1600000_1_0) shapeCasts_S1x1600000_S1600000 := by
    show StableHlo.after hostOps0 (W0 m ρ c) (Proc.devRef .tc main_v3) = _
    after_results_simp; rfl
  refine (congrFun ((v3_back m ρ c).trans e1) (ix1 e)).trans ?_
  exact edgeRow_apply _ _ _ 1 rfl e

/-! ## What region 2 is entered with -/

/-- The edge aggregate of the table region 1 left for the gather. -/
theorem v50_at5 (c : Dev nD) (i : Fin 100000) (k : Fin 128) :
    V5 m ρ c main_v50 (ix2 i k)
      = Cert.Gcn.agg (P m c).src (P m c).dst (fun r => W4 m ρ c (Proc.devRef .tc main_v39_0) (ix2 r k)) i := by
  have e : (V5 m ρ c main_v50 : S100000x128.Idx → EReal)
      = aggOps (W4 m ρ c (Proc.devRef .tc main_v39_0)) (W4 m ρ c (Proc.devRef .tc main_v1))
          (W4 m ρ c (Proc.devRef .tc main_v3)) := by
    show StableHlo.after hostOps2 (W4 m ρ c) (Proc.devRef .tc main_v50) = _
    after_results_simp; rfl
  refine (congrFun e (ix2 i k)).trans ((aggOps_apply _ _ _ i k).trans ?_)
  unfold Cert.Gcn.agg Cert.Gcn.landsAt
  exact Finset.sum_congr (Finset.filter_congr fun e _ => by rw [v3_word]) fun e _ => by rw [v1_word]

theorem v39_1_at5 (c : Dev nD) : V5 m ρ c main_v39_1 = W4 m ρ c (Proc.devRef .tc main_v39_1) := by
  show StableHlo.after hostOps2 (W4 m ρ c) (Proc.devRef .tc main_v39_1) = _
  stretch_skips

theorem v11_at5 (c : Dev nD) : V5 m ρ c main_v11 = V1 m ρ c main_v11 :=
  calc W5 m ρ c (Proc.devRef .tc main_v11)
    _ = W4 m ρ c (Proc.devRef .tc main_v11) := by stretch_skips
    _ = W3 m ρ c (Proc.devRef .tc main_v11) :=
        (W4_arr m ρ c 2).trans (((dat1 (V3 m ρ) c).arrAt_in 2 rfl _).trans (A_eq1 (V3 m ρ) c 2))
    _ = W2 m ρ c (Proc.devRef .tc main_v11) := by stretch_skips
    _ = W1 m ρ c (Proc.devRef .tc main_v11) :=
        (W2_arr m ρ c 1).trans (((dat0 (V1 m ρ) c).arrAt_in 1 rfl _).trans (A_eq0 (V1 m ρ) c 1))

/-- Layer 2's bias row is untouched between the first stretch, which lays it out, and region 2. -/
theorem v14_back (c : Dev nD) : V5 m ρ c main_v14 = W1 m ρ c (Proc.devRef .tc main_v14) :=
  calc W5 m ρ c (Proc.devRef .tc main_v14)
    _ = W4 m ρ c (Proc.devRef .tc main_v14) := by stretch_skips
    _ = W3 m ρ c (Proc.devRef .tc main_v14) := W4_of_ne m ρ c main_v14 (by decide)
    _ = W2 m ρ c (Proc.devRef .tc main_v14) := by stretch_skips
    _ = W1 m ρ c (Proc.devRef .tc main_v14) := W2_of_ne m ρ c main_v14 (by decide)

/-- Layer 2's bias as a row. -/
theorem v14_at5 (c : Dev nD) (k : Fin 128) : V5 m ρ c main_v14 (ix2 0 k) = (P m c).b2 k := by
  have e1 : (W1 m ρ c (Proc.devRef .tc main_v14) : S1x128.Idx → EReal)
      = shapeCast S1x128 (m ((c : Thread nD τ).loc main_arg8)) shapeCasts_S128_S1x128 := by
    show StableHlo.after hostOps0 (W0 m ρ c) (Proc.devRef .tc main_v14) = _
    after_results_simp; rfl
  refine (congrFun ((v14_back m ρ c).trans e1) (ix2 0 k)).trans ?_
  exact shapeCast_a_1a_apply _ _ 0 k

/-- The graph identifiers: graph g's is the word g. -/
theorem v52_at5 (c : Dev nD) (g : Fin 512) : V5 m ρ c main_v52 (ix2 0 g) = BitVec.ofNat 32 g.val := by
  have e : (V5 m ρ c main_v52 : S1x512.Idx → BitVec 32) = shapeCast S1x512 (iotaInDim S512 32 0) shapeCasts_S512_S1x512 := by
    show StableHlo.after hostOps2 (W4 m ρ c) (Proc.devRef .tc main_v52) = _
    after_results_simp; rfl
  refine (congrFun e (ix2 0 g)).trans ?_
  exact shapeCast_a_1a_apply _ _ 0 g

/-- The graph words are as launched when region 1 is left. -/
theorem arg2_at4 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by stretch_skips
    _ = W1 m ρ c (Proc.devRef .tc main_arg2) := W2_of_ne m ρ c main_arg2 (by decide)
    _ = W0 m ρ c (Proc.devRef .tc main_arg2) := by stretch_skips
    _ = m ((c : Thread nD τ).loc main_arg2) := rfl

/-- The graph words as a column. -/
theorem v53_at5 (c : Dev nD) (r : Fin 100000) : V5 m ρ c main_v53 (ix2 r 0) = (P m c).batch r := by
  have e : (V5 m ρ c main_v53 : S100000x1.Idx → BitVec 32)
      = shapeCast S100000x1 (W4 m ρ c (Proc.devRef .tc main_arg2)) shapeCasts_S100000_S100000x1 := by
    show StableHlo.after hostOps2 (W4 m ρ c) (Proc.devRef .tc main_v53) = _
    after_results_simp; rfl
  refine (congrFun e (ix2 r 0)).trans ?_
  rw [arg2_at4]
  -- row-major position r on both sides
  refine shapeCast_apply _ _ _ (ix1 r) ?_
  rw [Shape.rowMajor_val_two, Shape.rowMajor_val_one]
  show r.val = r.val * 1 + 0
  omega

/-! ## What region 3 is entered with -/

/-- One slab of a [2, 512, n] array, cut out and laid flat as [512, n], reads the array at that slab. -/
theorem slab_apply {n o : Nat} (X : (⟨3, ![2, 512, n]⟩ : Shape).Idx → EReal)
    (h1 : (⟨3, ![2, 512, n]⟩ : Shape).Slices ![o, 0, 0] ⟨3, ![1, 512, n]⟩)
    (h2 : (⟨3, ![1, 512, n]⟩ : Shape).ShapeCasts ⟨2, ![512, n]⟩) (a : Fin 2) (ha : a.val = o) (g : Fin 512) (k : Fin n) :
    shapeCast ⟨2, ![512, n]⟩ (extractStridedSlice ⟨3, ![1, 512, n]⟩ ![o, 0, 0] X h1) h2 (ix2 g k) = X (ix3 a g k) :=
  (shapeCast_1ab_ab_apply _ h2 g k).trans
    (extractStridedSlice_apply _ X h1 _ (ix3 a g k) fun ax =>
      match ax with
      | ⟨0, _⟩ => by show a.val = o + 0; omega
      | ⟨1, _⟩ => by show g.val = 0 + g.val; omega
      | ⟨2, _⟩ => by show k.val = 0 + k.val; omega)

/-- The pooling quotient as the host's operations compose it, from the two-slab arrays of sums and counts. -/
def poolOps (sums : S2x512x128.Idx → EReal) (cnts : S2x512x1.Idx → EReal) : S512x128.Idx → EReal :=
  Host.divf (F := Ideal) (φ := .f32)
    (addf (shapeCast S512x128 (extractStridedSlice S1x512x128 ![0, 0, 0] sums slices_S2x512x128_S1x512x128_0_0_0) shapeCasts_S1x512x128_S512x128)
          (shapeCast S512x128 (extractStridedSlice S1x512x128 ![1, 0, 0] sums slices_S2x512x128_S1x512x128_1_0_0) shapeCasts_S1x512x128_S512x128))
    (broadcastInDim S512x128 ![0, 1] bcast_S512x1_S512x128_0_1
      (maximumf (addf (shapeCast S512x1 (extractStridedSlice S1x512x1 ![0, 0, 0] cnts slices_S2x512x1_S1x512x1_0_0_0) shapeCasts_S1x512x1_S512x1)
                      (shapeCast S512x1 (extractStridedSlice S1x512x1 ![1, 0, 0] cnts slices_S2x512x1_S1x512x1_1_0_0) shapeCasts_S1x512x1_S512x1))
                (broadcastInDim S512x1 ![] bcast_S_S512x1 (constant (F := Ideal) S_ .f32 0x3F800000#32))))

/-- The quotient at graph g and feature k: the two slabs' sums over the larger of the two slabs' counts and one. -/
theorem poolOps_apply (sums : S2x512x128.Idx → EReal) (cnts : S2x512x1.Idx → EReal) (g : Fin 512) (k : Fin 128) :
    poolOps sums cnts (ix2 g k)
      = Ideal.div (sums (ix3 0 g k) + sums (ix3 1 g k)) (max (cnts (ix3 0 g 0) + cnts (ix3 1 g 0)) 1) := by
  unfold poolOps
  rw [hostDivf_apply, addf_apply]
  rw [slab_apply sums slices_S2x512x128_S1x512x128_0_0_0 shapeCasts_S1x512x128_S512x128 0 rfl g k,
    slab_apply sums slices_S2x512x128_S1x512x128_1_0_0 shapeCasts_S1x512x128_S512x128 1 rfl g k]
  rw [broadcastInDim_apply ![0, 1] bcast_S512x1_S512x128_0_1 _ (ix2 g k) (ix2 g (0 : Fin 1))
    (fun a => match a with | ⟨0, _⟩ => rfl | ⟨1, _⟩ => rfl)]
  rw [maximumf_apply, addf_apply,
    slab_apply cnts slices_S2x512x1_S1x512x1_0_0_0 shapeCasts_S1x512x1_S512x1 0 rfl g 0,
    slab_apply cnts slices_S2x512x1_S1x512x1_1_0_0 shapeCasts_S1x512x1_S512x1 1 rfl g 0,
    broadcastInDim_scalar_apply, constant_apply, Ideal.ofBits_one_f32]

/-- The two slabs of sums region 2 left, as an array of extended reals. -/
abbrev sumsArr (c : Dev nD) : S2x512x128.Idx → EReal := W6 m ρ c (Proc.devRef .tc main_v54_0)
/-- The two slabs of counts region 2 left. -/
abbrev cntsArr (c : Dev nD) : S2x512x1.Idx → EReal := W6 m ρ c (Proc.devRef .tc main_v54_1)

/-- The pooled table: the two halves' sums over the larger of the two halves' counts and one. -/
theorem v68_at7 (c : Dev nD) (g : Fin 512) (k : Fin 128) :
    (V7 m ρ c main_v68 : S512x128.Idx → EReal) (ix2 g k)
      = Ideal.div (sumsArr m ρ c (ix3 0 g k) + sumsArr m ρ c (ix3 1 g k))
          (max (cntsArr m ρ c (ix3 0 g 0) + cntsArr m ρ c (ix3 1 g 0)) 1) := by
  have e : (V7 m ρ c main_v68 : S512x128.Idx → EReal) = poolOps (sumsArr m ρ c) (cntsArr m ρ c) := by
    show StableHlo.after hostOps3 (W6 m ρ c) (Proc.devRef .tc main_v68) = _
    after_results_simp; rfl
  exact (congrFun e (ix2 g k)).trans (poolOps_apply (sumsArr m ρ c) (cntsArr m ρ c) g k)

/-- The head's first bias is as launched when region 2 is left. -/
theorem arg10_at6 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := by stretch_skips
    _ = W3 m ρ c (Proc.devRef .tc main_arg10) := W4_of_ne m ρ c main_arg10 (by decide)
    _ = W2 m ρ c (Proc.devRef .tc main_arg10) := by stretch_skips
    _ = W1 m ρ c (Proc.devRef .tc main_arg10) := W2_of_ne m ρ c main_arg10 (by decide)
    _ = W0 m ρ c (Proc.devRef .tc main_arg10) := by stretch_skips
    _ = m ((c : Thread nD τ).loc main_arg10) := rfl

/-- So is its second bias. -/
theorem arg12_at6 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := by stretch_skips
    _ = W3 m ρ c (Proc.devRef .tc main_arg12) := W4_of_ne m ρ c main_arg12 (by decide)
    _ = W2 m ρ c (Proc.devRef .tc main_arg12) := by stretch_skips
    _ = W1 m ρ c (Proc.devRef .tc main_arg12) := W2_of_ne m ρ c main_arg12 (by decide)
    _ = W0 m ρ c (Proc.devRef .tc main_arg12) := by stretch_skips
    _ = m ((c : Thread nD τ).loc main_arg12) := rfl

theorem v69_at7 (c : Dev nD) (u : Fin 64) : V7 m ρ c main_v69 (ix2 0 u) = (P m c).c1 u := by
  have e : (V7 m ρ c main_v69 : S1x64.Idx → EReal)
      = shapeCast S1x64 (W6 m ρ c (Proc.devRef .tc main_arg10)) shapeCasts_S64_S1x64 := by
    show StableHlo.after hostOps3 (W6 m ρ c) (Proc.devRef .tc main_v69) = _
    after_results_simp; rfl
  refine (congrFun e (ix2 0 u)).trans ?_
  rw [arg10_at6]
  exact shapeCast_a_1a_apply _ _ 0 u

theorem v70_at7 (c : Dev nD) : V7 m ρ c main_v70 (ix2 0 0) = (P m c).c2 := by
  have e : (V7 m ρ c main_v70 : S1x1.Idx → EReal)
      = shapeCast S1x1 (W6 m ρ c (Proc.devRef .tc main_arg12)) shapeCasts_S1_S1x1 := by
    show StableHlo.after hostOps3 (W6 m ρ c) (Proc.devRef .tc main_v70) = _
    after_results_simp; rfl
  refine (congrFun e (ix2 0 0)).trans ?_
  rw [arg12_at6]
  exact shapeCast_a_1a_apply _ _ 0 0

theorem arg9_at7 (c : Dev nD) : V7 m ρ c main_arg9 = m ((c : Thread nD τ).loc main_arg9) :=
  -- region 3 only reads this array: what it leaves there is what it was entered with, and the array is as launched at the end
  ((W8_arr m ρ c 1).trans (((dat3 (V7 m ρ) c).arrAt_in 1 rfl _).trans (A_eq3 (V7 m ρ) c 1))).symm.trans (W8_main_arg9 m ρ c)

theorem arg11_at7 (c : Dev nD) : V7 m ρ c main_arg11 = m ((c : Thread nD τ).loc main_arg11) :=
  ((W8_arr m ρ c 3).trans (((dat3 (V7 m ρ) c).arrAt_in 3 rfl _).trans (A_eq3 (V7 m ρ) c 3))).symm.trans (W8_main_arg11 m ρ c)

end Cert.KernelIdeal.HostB

end
-- ==== Proof.KValue.lean ====
/-
  The kernel's value: the result buffer after the run, at every index, is the network in the kernel's arrangement
  (Cert.Gcn.outK) of the argument arrays at launch.

  The run's last boundary holds region 3's output column; region 3 is entered with the pooled table, which the host
  forms from region 2's two slabs of sums and counts; region 2 is entered with the edge aggregate of the table region 1
  left, and so on back to the launch contents. Each step is the region's or the host stretch's own reading; here they
  are chained, and the two halves of the node range are joined: a node lies in exactly one half, so the two slabs' sums
  add up to the sum over all nodes of the graph, and the two counts to the graph's node count.
-/
import proofs.«410623_j52072183497149_3_alg».proof.Proof.KRun
import proofs.«410623_j52072183497149_3_alg».proof.Proof.KParams
import proofs.«410623_j52072183497149_3_alg».proof.Proof.KReg0
import proofs.«410623_j52072183497149_3_alg».proof.Proof.KReg1
import proofs.«410623_j52072183497149_3_alg».proof.Proof.KReg2
import proofs.«410623_j52072183497149_3_alg».proof.Proof.KReg3
import proofs.«410623_j52072183497149_3_alg».proof.Proof.KHostA
import proofs.«410623_j52072183497149_3_alg».proof.Proof.KHostB

set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx Idealize.ShloMosaic.Pipeline

variable (m : (ℓ : Loc nD τ sig) → Buf (Elt Ideal) ℓ) (ρ : Dev nD → PrngReg)

/-- The row-scaled layer-1 values. -/
abbrev hs1 (c : Dev nD) : Fin 100000 → Fin 128 → EReal :=
  Cert.Gcn.hsK (P m c) (Cert.Gcn.h1K (P m c)) (P m c).W1
/-- The row-scaled layer-2 values. -/
abbrev hs2 (c : Dev nD) : Fin 100000 → Fin 128 → EReal :=
  Cert.Gcn.hsK (P m c) (Cert.Gcn.h2K (P m c)) (P m c).W2

/-! ## Region 0 leaves the row-scaled layer-1 values, twice -/

theorem reg0_out (c : Dev nD) (r : Fin 100000) (k : Fin 128) :
    Cert.Gcn.reg0 (fun r => V1 m ρ c main_v26 (ix2 r 0)) (fun r => V1 m ρ c main_v11 (ix2 r 0))
        (fun t => V1 m ρ c main_v12 (ix2 0 t)) (fun t => V1 m ρ c main_arg3 (ix2 0 t))
        (fun t k => V1 m ρ c main_arg5 (ix2 t k)) r k
      = hs1 m c r k := by
  have e1 : (fun r : Fin 100000 => V1 m ρ c main_v26 (ix2 r 0)) = Cert.Gcn.zK (P m c) := funext (Host.v26_at1 m ρ c)
  have e2 : (fun r : Fin 100000 => V1 m ρ c main_v11 (ix2 r 0)) = Cert.Gcn.dv (P m c) := funext (Host.v11_at1 m ρ c)
  have e3 : (fun t : Fin 128 => V1 m ρ c main_v12 (ix2 0 t)) = (P m c).b0 := funext (Host.v12_at1 m ρ c)
  have e4 : (fun t : Fin 128 => V1 m ρ c main_arg3 (ix2 0 t)) = (P m c).W0 := by rw [Host.arg3_at1]; rfl
  have e5 : (fun (t k : Fin 128) => V1 m ρ c main_arg5 (ix2 t k)) = (P m c).W1 := by rw [Host.arg5_at1]; rfl
  rw [e1, e2, e3, e4, e5]
  rfl

theorem w2_gather (c : Dev nD) (r : Fin 100000) (k : Fin 128) :
    W2 m ρ c (Proc.devRef .tc main_v27_0) (ix2 r k) = hs1 m c r k :=
  (congrFun (W2_arr m ρ c 5) (ix2 r k)).trans ((Reg0.arr5 (V1 m ρ) c r k).trans (reg0_out m ρ c r k))

theorem w2_self (c : Dev nD) (r : Fin 100000) (k : Fin 128) :
    W2 m ρ c (Proc.devRef .tc main_v27_1) (ix2 r k) = hs1 m c r k :=
  (congrFun (W2_arr m ρ c 6) (ix2 r k)).trans ((Reg0.arr6 (V1 m ρ) c r k).trans (reg0_out m ρ c r k))

/-! ## Region 1 leaves the row-scaled layer-2 values, twice -/

theorem reg1_out (c : Dev nD) (r : Fin 100000) (k : Fin 128) :
    Cert.Gcn.reg1 (fun r t => V3 m ρ c main_v38 (ix2 r t)) (fun r t => V3 m ρ c main_v27_1 (ix2 r t))
        (fun r => V3 m ρ c main_v11 (ix2 r 0)) (fun t => V3 m ρ c main_v13 (ix2 0 t))
        (fun t k => V3 m ρ c main_arg7 (ix2 t k)) r k
      = hs2 m c r k := by
  have e1 : (fun (r : Fin 100000) (t : Fin 128) => V3 m ρ c main_v38 (ix2 r t))
      = fun r t => Cert.Gcn.agg (P m c).src (P m c).dst (fun r' => hs1 m c r' t) r := by
    funext r t
    rw [Host.v38_at3]
    exact congrArg (fun f => Cert.Gcn.agg (P m c).src (P m c).dst f r) (funext fun r' => w2_gather m ρ c r' t)
  have e2 : (fun (r : Fin 100000) (t : Fin 128) => V3 m ρ c main_v27_1 (ix2 r t)) = hs1 m c := by
    funext r t
    rw [Host.v27_1_at3]
    exact w2_self m ρ c r t
  have e3 : (fun r : Fin 100000 => V3 m ρ c main_v11 (ix2 r 0)) = Cert.Gcn.dv (P m c) := by
    funext r
    rw [Host.v11_at3]
    exact Host.v11_at1 m ρ c r
  have e4 : (fun t : Fin 128 => V3 m ρ c main_v13 (ix2 0 t)) = (P m c).b1 := funext (Host.v13_at3 m ρ c)
  have e5 : (fun (t k : Fin 128) => V3 m ρ c main_arg7 (ix2 t k)) = (P m c).W2 := by rw [Host.arg7_at3]; rfl
  rw [e1, e2, e3, e4, e5]
  rfl

theorem w4_gather (c : Dev nD) (r : Fin 100000) (k : Fin 128) :
    W4 m ρ c (Proc.devRef .tc main_v39_0) (ix2 r k) = hs2 m c r k :=
  (congrFun (W4_arr m ρ c 5) (ix2 r k)).trans ((Reg1.arr5 (V3 m ρ) c r k).trans (reg1_out m ρ c r k))

theorem w4_self (c : Dev nD) (r : Fin 100000) (k : Fin 128) :
    W4 m ρ c (Proc.devRef .tc main_v39_1) (ix2 r k) = hs2 m c r k :=
  (congrFun (W4_arr m ρ c 6) (ix2 r k)).trans ((Reg1.arr6 (V3 m ρ) c r k).trans (reg1_out m ρ c r k))

/-! ## Region 2 leaves, per half, the sums of the last activation and the counts over the graph's nodes in that half -/

theorem act3_in (c : Dev nD) (r : Fin 100000) (k : Fin 128) :
    Cert.Gcn.act3 (fun r t => V5 m ρ c main_v50 (ix2 r t)) (fun r t => V5 m ρ c main_v39_1 (ix2 r t))
        (fun r => V5 m ρ c main_v11 (ix2 r 0)) (fun t => V5 m ρ c main_v14 (ix2 0 t)) r k
      = Cert.Gcn.h3K (P m c) r k := by
  have e1 : (fun (r : Fin 100000) (t : Fin 128) => V5 m ρ c main_v50 (ix2 r t))
      = fun r t => Cert.Gcn.agg (P m c).src (P m c).dst (fun r' => hs2 m c r' t) r := by
    funext r t
    rw [HostB.v50_at5]
    exact congrArg (fun f => Cert.Gcn.agg (P m c).src (P m c).dst f r) (funext fun r' => w4_gather m ρ c r' t)
  have e2 : (fun (r : Fin 100000) (t : Fin 128) => V5 m ρ c main_v39_1 (ix2 r t)) = hs2 m c := by
    funext r t
    rw [HostB.v39_1_at5]
    exact w4_self m ρ c r t
  have e3 : (fun r : Fin 100000 => V5 m ρ c main_v11 (ix2 r 0)) = Cert.Gcn.dv (P m c) := by
    funext r
    rw [HostB.v11_at5]
    exact Host.v11_at1 m ρ c r
  have e4 : (fun t : Fin 128 => V5 m ρ c main_v14 (ix2 0 t)) = (P m c).b2 := funext (HostB.v14_at5 m ρ c)
  rw [e1, e2, e3, e4]
  rfl

/-- A graph word equals graph g's identifier exactly when, read signed, it is g. -/
theorem word_eq_iff (v : BitVec 32) (g : Fin 512) : v = BitVec.ofNat 32 g.val ↔ v.toInt = (g.val : Int) := by
  have hg : g.val < 512 := g.isLt
  have hv : v.toNat < 4294967296 := v.isLt
  have hn : (BitVec.ofNat 32 g.val).toNat = g.val := by
    rw [BitVec.toNat_ofNat]
    exact Nat.mod_eq_of_lt (by omega)
  constructor
  · rintro rfl
    rw [BitVec.toInt_eq_toNat_cond, hn]
    rw [if_pos (by omega)]
  · intro h
    apply BitVec.eq_of_toNat_eq
    rw [hn]
    rw [BitVec.toInt_eq_toNat_cond] at h
    split at h <;> omega

/-- The rows of half h that region 2 counts for graph g are the graph's nodes in that half. -/
theorem rowsOf_eq (c : Dev nD) (h : Fin 2) (g : Fin 512) :
    Reg2.rowsOf (V5 m ρ) c h g
      = (Cert.Gcn.inGraph (P m c).batch g).filter (fun r : Fin 100000 => r.val / 50000 = h.val) := by
  unfold Reg2.rowsOf Cert.Gcn.inGraph
  rw [Finset.filter_filter]
  refine Finset.filter_congr fun r _ => ?_
  rw [HostB.v53_at5, HostB.v52_at5, word_eq_iff]
  exact and_comm

/-- A node lies in exactly one half. -/
theorem halves (S : Finset (Fin 100000)) :
    S.filter (fun r : Fin 100000 => r.val / 50000 = (0 : Fin 2).val) ∪ S.filter (fun r : Fin 100000 => r.val / 50000 = (1 : Fin 2).val) = S
      ∧ Disjoint (S.filter (fun r : Fin 100000 => r.val / 50000 = (0 : Fin 2).val)) (S.filter (fun r : Fin 100000 => r.val / 50000 = (1 : Fin 2).val)) := by
  constructor
  · ext r
    simp only [Finset.mem_union, Finset.mem_filter]
    have hr : r.val < 100000 := r.isLt
    constructor
    · rintro (⟨h, -⟩ | ⟨h, -⟩) <;> exact h
    · intro h
      by_cases h0 : r.val / 50000 = 0
      · exact Or.inl ⟨h, h0⟩
      · refine Or.inr ⟨h, ?_⟩
        show r.val / 50000 = 1
        omega
  · rw [Finset.disjoint_filter]
    intro r _ h0 h1
    have : (0 : Fin 2).val = (1 : Fin 2).val := h0.symm.trans h1
    exact absurd this (by decide)

/-! ## Region 3 is entered with the pooled table and leaves the result -/

theorem pooled_in (c : Dev nD) (g : Fin 512) (k : Fin 128) :
    (V7 m ρ c main_v68 : S512x128.Idx → EReal) (ix2 g k) = Cert.Gcn.pooled (P m c) (Cert.Gcn.h3K (P m c)) g k := by
  rw [HostB.v68_at7]
  unfold Cert.Gcn.pooled
  have hs : ∀ h : Fin 2, HostB.sumsArr m ρ c (ix3 h g k)
      = ∑ r ∈ (Cert.Gcn.inGraph (P m c).batch g).filter (fun r : Fin 100000 => r.val / 50000 = h.val),
          Cert.Gcn.h3K (P m c) r k := by
    intro h
    have key : (∑ r ∈ Reg2.rowsOf (V5 m ρ) c h g,
          Cert.Gcn.act3 (fun r t => V5 m ρ c main_v50 (ix2 r t)) (fun r t => V5 m ρ c main_v39_1 (ix2 r t))
            (fun r => V5 m ρ c main_v11 (ix2 r 0)) (fun t => V5 m ρ c main_v14 (ix2 0 t)) r k : EReal)
        = ∑ r ∈ (Cert.Gcn.inGraph (P m c).batch g).filter (fun r : Fin 100000 => r.val / 50000 = h.val),
            Cert.Gcn.h3K (P m c) r k := by
      rw [rowsOf_eq]
      exact Finset.sum_congr rfl fun r _ => act3_in m ρ c r k
    exact (congrFun (W6_arr m ρ c 6) (ix3 h g k)).trans ((Reg2.arr6 (V5 m ρ) c h g k).trans key)
  have hc : ∀ h : Fin 2, HostB.cntsArr m ρ c (ix3 h g 0)
      = ((((Cert.Gcn.inGraph (P m c).batch g).filter (fun r : Fin 100000 => r.val / 50000 = h.val)).card : ℝ) : EReal) := by
    intro h
    refine (congrFun (W6_arr m ρ c 7) (ix3 h g 0)).trans ((Reg2.arr7 (V5 m ρ) c h g).trans ?_)
    rw [rowsOf_eq]
  obtain ⟨hu, hd⟩ := halves (Cert.Gcn.inGraph (P m c).batch g)
  rw [hs 0, hs 1, hc 0, hc 1, ← Finset.sum_union hd, hu, ← EReal.coe_add, ← Nat.cast_add, ← Finset.card_union_of_disjoint hd, hu]

/-- The result buffer's final contents, index by index. -/
theorem result (c : Dev nD) (g : Fin 512) :
    (W8 m ρ c (Proc.devRef .tc main_v71) : S512x1.Idx → EReal) (ix2 g 0) = Cert.Gcn.outK (P m c) g := by
  refine (congrFun (W8_arr m ρ c 5) (ix2 g 0)).trans ((Reg3.arr5 (V7 m ρ) c g).trans ?_)
  have e1 : (fun (g : Fin 512) (t : Fin 128) => V7 m ρ c main_v68 (ix2 g t))
      = Cert.Gcn.pooled (P m c) (Cert.Gcn.h3K (P m c)) := by
    funext g t
    exact pooled_in m ρ c g t
  have e2 : (fun (t : Fin 128) (u : Fin 64) => V7 m ρ c main_arg9 (ix2 t u)) = (P m c).F1 := by rw [HostB.arg9_at7]; rfl
  have e3 : (fun u : Fin 64 => V7 m ρ c main_v69 (ix2 0 u)) = (P m c).c1 := funext (HostB.v69_at7 m ρ c)
  have e4 : (fun u : Fin 64 => V7 m ρ c main_arg11 (ix2 u 0)) = (P m c).F2 := by rw [HostB.arg11_at7]; rfl
  rw [e1, e2, e3, e4, HostB.v70_at7]
  rfl

end Cert.KernelIdeal.Val

end
-- ==== Proof.RefLayer.lean ====
/-
  The reference's three graph-convolution layers read as values. The degree is a scatter-add of ones over the destination words joined with the node numbers (the self loops), so every degree is at least one, the guard on a positive degree always passes and the floor under the degree never binds: dinv is the reciprocal square root of the degree. A layer gathers the dense transform's rows at the wrapped source words, scales each by dinv at the source times dinv at the destination, and scatter-adds at the destination words; the joined self-loop entries contribute the node's own row.
-/
import proofs.«410623_j52072183497149_3_alg».proof.Proof.RefRead
import proofs.«410623_j52072183497149_3_alg».proof.Proof.Gcn
import proofs.«410623_j52072183497149_3_alg».proof.Proof.LibScatterRows
import proofs.«410623_j52072183497149_3_alg».proof.Proof.LibScatterVec
import proofs.«410623_j52072183497149_3_alg».proof.Proof.LibGatherRows
import Idealize.ShloMosaic.Lib.StableHlo.Predicate

noncomputable section

open scoped BigOperators

namespace Cert.ReferenceIdeal.RefValue

open Cert.ReferenceIdeal Cert.ReferenceIdeal.Gen Cert.ReferenceIdeal.ReadP Idealize.ShloMosaic Idealize.ShloMosaic.TcCoe Idealize.SL.Sem
open Idealize.ShloMosaic.ValueIdx

variable (a0 : (⟨S100000x1, .f32⟩ : BufTy).Contents (Elt Ideal)) (a1 : (⟨S2x1600000, .i32⟩ : BufTy).Contents (Elt Ideal))
  (a2 : (⟨S100000, .i32⟩ : BufTy).Contents (Elt Ideal)) (a3 : (⟨S1x128, .f32⟩ : BufTy).Contents (Elt Ideal))
  (a4 : (⟨S128, .f32⟩ : BufTy).Contents (Elt Ideal)) (a5 : (⟨S128x128, .f32⟩ : BufTy).Contents (Elt Ideal))
  (a6 : (⟨S128, .f32⟩ : BufTy).Contents (Elt Ideal)) (a7 : (⟨S128x128, .f32⟩ : BufTy).Contents (Elt Ideal))
  (a8 : (⟨S128, .f32⟩ : BufTy).Contents (Elt Ideal)) (a9 : (⟨S128x64, .f32⟩ : BufTy).Contents (Elt Ideal))
  (a10 : (⟨S64, .f32⟩ : BufTy).Contents (Elt Ideal)) (a11 : (⟨S64x1, .f32⟩ : BufTy).Contents (Elt Ideal))
  (a12 : (⟨S1, .f32⟩ : BufTy).Contents (Elt Ideal))

/-- The inputs of the network, read off the argument arrays. -/
abbrev PR : Cert.Gcn.Params := Cert.Gcn.params a0 a1 a2 a3 a4 a5 a6 a7 a8 a9 a10 a11 a12

/-! ## Words and numbers -/

/-- A node number, as a 32-bit word read signed, is itself. -/
theorem toInt_ofNat_small (r : Nat) (hr : r < 100000) : (BitVec.ofNat 32 r).toInt = (r : Int) := by
  rw [BitVec.toInt_ofNat']
  have : ((r : Int)).bmod (2 ^ 32) = r := by
    apply Int.bmod_eq_of_le <;> omega
  exact this

/-- A word whose signed reading is a node number selects that node's row: the wrap leaves a nonnegative word alone and the
    clamp leaves a number below the table's length alone. -/
theorem rowOf_of_toInt (v : BitVec 32) (i : Fin 100000) (h : v.toInt = (i.val : Int)) : Cert.Gcn.rowOf v = i := by
  have hs : IntOp.cmpi .slt v 0#32 = 0#1 := by
    unfold IntOp.cmpi
    have : v.slt 0#32 = false := by
      rw [BitVec.slt_eq_decide, h]
      simp
    simp [this]
  have hw : Cert.Gcn.wrap v = v := by
    unfold Cert.Gcn.wrap
    rw [hs, select_zero]
  apply Fin.ext
  show min (Cert.Gcn.wrap v).toInt.toNat 99999 = i.val
  rw [hw, h]
  have := i.isLt
  omega

/-- The word of the float one. -/
theorem one_bits : Ideal.ofBits .f32 0x3F800000#32 = 1 := by
  simp [Ideal.ofBits, Ideal.ieee]
  rw [← EReal.coe_mul]
  norm_num

/-- The floor under the degree is a positive real, at most one. -/
theorem eps_bits : ∃ r : ℝ, 0 < r ∧ r ≤ 1 ∧ Ideal.ofBits .f32 0x2B8CBCCC#32 = ((r : ℝ) : EReal) := by
  refine ⟨(9223372 : ℝ) * (2 : ℝ) ^ (-63 : Int), by positivity, ?_, ?_⟩
  · norm_num
  · simp [Ideal.ofBits, Ideal.ieee]

/-- The rank-one index at a coordinate, written two ways. -/
theorem ofFin_eq_ix1 {n : Nat} (p : Fin n) : Shape.Idx.ofFin p = ix1 p := by
  funext d
  match d with
  | ⟨0, _⟩ => exact Fin.ext rfl

/-- Row p of a one-column table, written two ways. -/
theorem ixP_eq_ix2 {n : Nat} (p : Fin n) : StableHlo.Predicate.ixP p = ix2 p (0 : Fin 1) := by
  funext d
  match d with
  | ⟨0, _⟩ => rfl
  | ⟨1, _⟩ => rfl

/-- The entry of the joined lists that holds edge e. -/
abbrev edgeEntry (e : Fin 1600000) : Fin 1700000 := ⟨e.val, Nat.lt_trans e.isLt (by decide)⟩
/-- The entry of the joined lists that holds node r's self loop. -/
abbrev selfEntry (r : Fin 100000) : Fin 1700000 := ⟨1600000 + r.val, by omega⟩

/-- A sum over the entries of the joined lists whose destination word, read signed, is i: the edges landing at i, and
    the one self-loop entry of node i (the joined list splits at 1600000 into the edge words and the node numbers, and
    a node number read signed is itself). -/
theorem sum_landing (dW : Fin 1700000 → BitVec 32) (dst : Fin 1600000 → BitVec 32) (i : Fin 100000)
    (hE : ∀ e : Fin 1600000, dW (edgeEntry e) = dst e)
    (hS : ∀ r : Fin 100000, dW (selfEntry r) = BitVec.ofNat 32 r.val)
    (f : Fin 1700000 → EReal) :
    ∑ e ∈ Finset.univ.filter (fun e : Fin 1700000 => (dW e).toInt = (i.val : Int)), f e
      = (∑ e ∈ Cert.Gcn.landsAt dst i, f (edgeEntry e)) + f (selfEntry i) := by
  rw [Finset.sum_filter]
  refine (Fin.sum_univ_add (a := 1600000) (b := 100000)
    (fun e : Fin (1600000 + 100000) => if (dW e).toInt = (i.val : Int) then f e else 0)).trans ?_
  refine congrArg₂ (· + ·) ?_ ?_
  · unfold Cert.Gcn.landsAt
    rw [Finset.sum_filter]
    refine Finset.sum_congr rfl fun e _ => ?_
    have : (Fin.castAdd 100000 e : Fin (1600000 + 100000)) = edgeEntry e := rfl
    rw [this, hE e]
  · have key : ∀ r : Fin 100000,
        (if (dW (Fin.natAdd 1600000 r : Fin (1600000 + 100000))).toInt = (i.val : Int)
          then f (Fin.natAdd 1600000 r : Fin (1600000 + 100000)) else 0)
          = if r = i then f (selfEntry r) else 0 := by
      intro r
      have e1 : (Fin.natAdd 1600000 r : Fin (1600000 + 100000)) = selfEntry r := rfl
      rw [e1, hS r, toInt_ofNat_small r.val r.isLt]
      by_cases h : r = i
      · subst h; simp
      · rw [if_neg h, if_neg]
        intro hh
        exact h (Fin.ext (by exact_mod_cast hh))
    rw [Finset.sum_congr rfl fun r _ => key r]
    rw [Finset.sum_ite_eq' Finset.univ i]
    simp

/-! ## The joined word lists -/

/-- The joined destination list holds edge e's destination word at entry e. -/
theorem v6_edge (e : Fin 1600000) : val_main_v6 (F := Ideal) a1 (ix1 (edgeEntry e)) = a1 (ix2 1 e) := by
  unfold val_main_v6
  refine (concatenate_pair_apply_left (t := S1700000) (s₁ := S1600000) (s₂ := S100000) 0
    (val_main_v5 (F := Ideal) a1) (val_main_v0 (F := Ideal)) concatenates_S1600000_S100000_S1700000_d0 _ rfl (ix1 e)
    (fun b => by match b with | ⟨0, _⟩ => rfl)).trans ?_
  refine (val_main_v5_apply (F := Ideal) a1 _).trans ((val_main_v4_apply (F := Ideal) a1 _).trans (congrArg a1 ?_))
  funext a
  match a with
  | ⟨0, _⟩ => exact Fin.ext rfl
  | ⟨1, _⟩ => exact Fin.ext (Nat.mod_eq_of_lt e.isLt)

/-- The joined destination list holds node r's number at its self-loop entry. -/
theorem v6_self (r : Fin 100000) : val_main_v6 (F := Ideal) a1 (ix1 (selfEntry r)) = BitVec.ofNat 32 r.val := by
  unfold val_main_v6
  refine (concatenate_pair_apply_right (t := S1700000) (s₁ := S1600000) (s₂ := S100000) 0
    (val_main_v5 (F := Ideal) a1) (val_main_v0 (F := Ideal)) concatenates_S1600000_S100000_S1700000_d0 _ rfl rfl (ix1 r)
    (fun b hb => by match b with | ⟨0, _⟩ => exact absurd rfl hb) ?_).trans ?_
  · show r.val + 1600000 = 1600000 + r.val
    omega
  · rfl

/-- The joined source list holds edge e's source word at entry e. -/
theorem v3_edge (e : Fin 1600000) : val_main_v3 (F := Ideal) a1 (ix1 (edgeEntry e)) = a1 (ix2 0 e) := by
  unfold val_main_v3
  refine (concatenate_pair_apply_left (t := S1700000) (s₁ := S1600000) (s₂ := S100000) 0
    (val_main_v2 (F := Ideal) a1) (val_main_v0 (F := Ideal)) concatenates_S1600000_S100000_S1700000_d0 _ rfl (ix1 e)
    (fun b => by match b with | ⟨0, _⟩ => rfl)).trans ?_
  refine (val_main_v2_apply (F := Ideal) a1 _).trans ((val_main_v1_apply (F := Ideal) a1 _).trans (congrArg a1 ?_))
  funext a
  match a with
  | ⟨0, _⟩ => exact Fin.ext rfl
  | ⟨1, _⟩ => exact Fin.ext (Nat.mod_eq_of_lt e.isLt)

/-- The joined source list holds node r's number at its self-loop entry. -/
theorem v3_self (r : Fin 100000) : val_main_v3 (F := Ideal) a1 (ix1 (selfEntry r)) = BitVec.ofNat 32 r.val := by
  unfold val_main_v3
  refine (concatenate_pair_apply_right (t := S1700000) (s₁ := S1600000) (s₂ := S100000) 0
    (val_main_v2 (F := Ideal) a1) (val_main_v0 (F := Ideal)) concatenates_S1600000_S100000_S1700000_d0 _ rfl rfl (ix1 r)
    (fun b hb => by match b with | ⟨0, _⟩ => exact absurd rfl hb) ?_).trans ?_
  · show r.val + 1600000 = 1600000 + r.val
    omega
  · rfl

/-! ## Lookups -/

/-- A lookup in a vector of 100000 numbers at a column of 1700000 index words: entry e reads the vector at its word,
    read signed and clamped into the vector. -/
theorem gather_vec (x : FVec Ideal S100000 .f32) (idx : IVec S1700000x1 32)
    (e : Fin 1700000) (w : BitVec 32) (hw : idx (ix2 e 0) = Cert.Gcn.wrap w) :
    Host.gather gather_S100000_S1700000x1_S1700000_n_0_n_n_0_1_1 x idx (ix1 e) = x (ix1 (Cert.Gcn.rowOf w)) := by
  have h := StableHlo.Predicate.gather_take gather_S100000_S1700000x1_S1700000_n_0_n_n_0_1_1 rfl rfl rfl rfl x idx e (by decide)
  refine (congrArg (Host.gather gather_S100000_S1700000x1_S1700000_n_0_n_n_0_1_1 x idx) (ofFin_eq_ix1 e).symm).trans
    (h.trans (congrArg x ((ofFin_eq_ix1 _).trans (congrArg ix1 (Fin.ext ?_)))))
  show min (idx (StableHlo.Predicate.ixP e)).toInt.toNat (100000 - 1) = min (Cert.Gcn.wrap w).toInt.toNat 99999
  rw [ixP_eq_ix2, hw]

/-- A lookup of rows in a table of 100000 rows at a column of 1700000 index words: entry e reads the row at its word,
    read signed and clamped into the table. -/
theorem gather_rows (x : FVec Ideal S100000x128 .f32) (idx : IVec S1700000x1 32)
    (e : Fin 1700000) (k : Fin 128) (w : BitVec 32) (hw : idx (ix2 e 0) = Cert.Gcn.wrap w) :
    Host.gather gather_S100000x128_S1700000x1_S1700000x128_1_0_n_n_0_1_1128 x idx (ix2 e k) = x (ix2 (Cert.Gcn.rowOf w) k) := by
  refine (GatherRows.gather_rows_apply gather_S100000x128_S1700000x1_S1700000x128_1_0_n_n_0_1_1128 rfl rfl rfl rfl rfl rfl
    x idx e k (by decide)).trans (congrArg x (congrArg (fun r : Fin 100000 => ix2 r k) (Fin.ext ?_)))
  show min (idx (ix2 e 0)).toInt.toNat (100000 - 1) = min (Cert.Gcn.wrap w).toInt.toNat 99999
  rw [hw]

/-- The column of wrapped source words the dinv lookup reads. -/
theorem v23_at (e : Fin 1700000) :
    val_main_v23 (F := Ideal) a1 (ix2 e 0) = Cert.Gcn.wrap (val_main_v3 (F := Ideal) a1 (ix1 e)) := by
  have hi : idx_main_v23 (ix2 e (0 : Fin 1)) = ix1 e := by
    funext a
    match a with
    | ⟨0, _⟩ => rfl
  rw [val_main_v23_apply, hi, val_main_v22_apply, val_main_v19_apply, val_main_v21_apply, val_main_v18_apply, val_main_v20_apply]
  rfl

/-- The column of wrapped destination words the dinv lookup reads. -/
theorem v30_at (e : Fin 1700000) :
    val_main_v30 (F := Ideal) a1 (ix2 e 0) = Cert.Gcn.wrap (val_main_v6 (F := Ideal) a1 (ix1 e)) := by
  have hi : idx_main_v30 (ix2 e (0 : Fin 1)) = ix1 e := by
    funext a
    match a with
    | ⟨0, _⟩ => rfl
  rw [val_main_v30_apply, hi, val_main_v29_apply, val_main_v26_apply, val_main_v28_apply, val_main_v25_apply, val_main_v27_apply]
  rfl

/-- The column of wrapped source words the row lookup reads. -/
theorem v38_at (e : Fin 1700000) :
    val_main_v38 (F := Ideal) a1 (ix2 e 0) = Cert.Gcn.wrap (val_main_v3 (F := Ideal) a1 (ix1 e)) := by
  have hi : idx_main_v38 (ix2 e (0 : Fin 1)) = ix1 e := by
    funext a
    match a with
    | ⟨0, _⟩ => rfl
  rw [val_main_v38_apply, hi, val_main_v37_apply, val_main_v34_apply, val_main_v36_apply, val_main_v33_apply, val_main_v35_apply]
  rfl

/-- The column of destination words a scatter-add reads. -/
theorem v10_at (e : Fin 1700000) : val_main_v10 (F := Ideal) a1 (ix2 e 0) = val_main_v6 (F := Ideal) a1 (ix1 e) := by
  have hi : idx_main_v10 (ix2 e (0 : Fin 1)) = ix1 e := by
    funext a
    match a with
    | ⟨0, _⟩ => rfl
  rw [val_main_v10_apply, hi]

/-- The same column, as layer 0's scatter-add names it. -/
theorem v44_at (e : Fin 1700000) : val_main_v44 (F := Ideal) a1 (ix2 e 0) = val_main_v6 (F := Ideal) a1 (ix1 e) := by
  have hi : idx_main_v44 (ix2 e (0 : Fin 1)) = ix1 e := by
    funext a
    match a with
    | ⟨0, _⟩ => rfl
  rw [val_main_v44_apply, hi]

/-! ## The degree and dinv -/

/-- A sum of ones over a finite set, and one more, is the set's size plus one. -/
theorem deg_eq {ι : Type} (S : Finset ι) : (0 : EReal) + ((∑ e ∈ S, (1 : EReal)) + 1) = (((S.card : ℝ) + 1 : ℝ) : EReal) := by
  have h1 : (∑ e ∈ S, (1 : EReal)) = ((S.card : ℝ) : EReal) := by
    have := Cert.Gcn.coe_sum S (fun _ => (1 : ℝ))
    simp only [EReal.coe_one] at this
    rw [← this]
    simp
  rw [zero_add, h1, EReal.coe_add, EReal.coe_one]

/-- A node's degree: the number of edges landing on it, and one for its self loop. -/
theorem deg11 (i : Fin 100000) :
    val_main_v11 (F := Ideal) a1 (ix1 i)
      = ((Cert.Gcn.degR (PR a0 a1 a2 a3 a4 a5 a6 a7 a8 a9 a10 a11 a12).dst i : ℝ) : EReal) := by
  unfold val_main_v11
  refine (ScatterVec.scatterAdd_vec_apply scatter_S100000_S1700000x1_S1700000_n_0_0_1 rfl rfl rfl rfl
    (val_main_v9 (F := Ideal)) (val_main_v10 (F := Ideal) a1) (val_main_v8 (F := Ideal)) i).trans ?_
  rw [sum_landing (fun e => val_main_v10 (F := Ideal) a1 (ix2 e 0)) (fun e => a1 (ix2 1 e)) i
    (fun e => (v10_at a1 _).trans (v6_edge a1 e)) (fun r => (v10_at a1 _).trans (v6_self a1 r))
    (fun e => val_main_v8 (F := Ideal) (ix1 e))]
  have h8 : ∀ j : S1700000.Idx, val_main_v8 (F := Ideal) j = 1 := fun j => by
    rw [val_main_v8_apply, val_main_cst_apply]
    exact one_bits
  have h9 : val_main_v9 (F := Ideal) (ix1 i) = 0 := by
    rw [val_main_v9_apply, val_main_cst_0_apply]
    exact Ideal.ofBits_zero_f32
  simp only [h8, h9]
  exact deg_eq _

/-- From a degree of at least one to dinv: the guard passes, the floor does not bind, and the reciprocal square root of a
    positive real is the real one. -/
theorem dinv_of_deg (d ε : ℝ) (hd : 1 ≤ d) (hε0 : 0 < ε) (hε : ε ≤ 1) :
    Scalar.select (Ideal.cmp .ogt ((d : ℝ) : EReal) 0) (Ideal.rsqrt (max ((d : ℝ) : EReal) ((ε : ℝ) : EReal))) (0 : EReal)
      = (((Real.sqrt d)⁻¹ : ℝ) : EReal) := by
  have hpos : (0 : EReal) < ((d : ℝ) : EReal) := by exact_mod_cast (lt_of_lt_of_le zero_lt_one hd)
  have hc : Ideal.cmp .ogt ((d : ℝ) : EReal) 0 = 1#1 := by
    simp [Ideal.cmp, hpos]
  have hm : max ((d : ℝ) : EReal) ((ε : ℝ) : EReal) = ((d : ℝ) : EReal) := by
    apply max_eq_left
    exact_mod_cast hε.trans hd
  rw [hc, select_one, hm, Ideal.rsqrt_coe]
  have h0 : ¬ d < 0 := by linarith
  have h1 : ¬ d = 0 := by linarith
  rw [if_neg h0, if_neg h1]

/-- dinv, as the reference computes it before layer 0. -/
theorem dinv17 (i : Fin 100000) : val_main_v17 (F := Ideal) a1 (ix1 i) = Cert.Gcn.dv (PR a0 a1 a2 a3 a4 a5 a6 a7 a8 a9 a10 a11 a12) i := by
  obtain ⟨ε, hε0, hε1, hεb⟩ := eps_bits
  rw [val_main_v17_apply, val_main_v13_apply, val_main_v16_apply, val_main_v15_apply, val_main_call0_v1_apply,
    val_main_call0_v0_apply, val_main_cst_3_apply, val_main_v12_apply, val_main_cst_1_apply, val_main_v14_apply,
    val_main_cst_2_apply, deg11 a0 a1 a2 a3 a4 a5 a6 a7 a8 a9 a10 a11 a12 i]
  simp only [Ideal.cmpf_def, Ideal.ofBits_def, Ideal.maximumf_def, Ideal.hostUnary_rsqrt_def, Ideal.ofBits_zero_f32, hεb]
  exact dinv_of_deg _ ε (Cert.Gcn.one_le_degR _ i) hε0 hε1

/-! ## One layer -/

/-- The scale of an entry: dinv at its source row times dinv at its destination row. -/
theorem v32_at (e : Fin 1700000) :
    val_main_v32 (F := Ideal) a1 (ix1 e)
      = Cert.Gcn.dv (PR a0 a1 a2 a3 a4 a5 a6 a7 a8 a9 a10 a11 a12) (Cert.Gcn.rowOf (val_main_v3 (F := Ideal) a1 (ix1 e)))
        * Cert.Gcn.dv (PR a0 a1 a2 a3 a4 a5 a6 a7 a8 a9 a10 a11 a12) (Cert.Gcn.rowOf (val_main_v6 (F := Ideal) a1 (ix1 e))) := by
  rw [val_main_v32_apply]
  unfold val_main_v24 val_main_v31
  rw [gather_vec _ _ e _ (v23_at a1 e), gather_vec _ _ e _ (v30_at a1 e),
    dinv17 a0 a1 a2 a3 a4 a5 a6 a7 a8 a9 a10 a11 a12, dinv17 a0 a1 a2 a3 a4 a5 a6 a7 a8 a9 a10 a11 a12]
  rfl

/-- An entry's scaled row, for any table of rows: the row at the entry's source, times the entry's scale. -/
theorem upd_at (lin : FVec Ideal S100000x128 .f32) (e : Fin 1700000) (k : Fin 128) :
    mulf (F := Ideal) (φ := .f32) (Host.gather gather_S100000x128_S1700000x1_S1700000x128_1_0_n_n_0_1_1128 lin (val_main_v38 (F := Ideal) a1))
        (val_main_v41 (F := Ideal) a1) (ix2 e k)
      = lin (ix2 (Cert.Gcn.rowOf (val_main_v3 (F := Ideal) a1 (ix1 e))) k)
        * (Cert.Gcn.dv (PR a0 a1 a2 a3 a4 a5 a6 a7 a8 a9 a10 a11 a12) (Cert.Gcn.rowOf (val_main_v3 (F := Ideal) a1 (ix1 e)))
          * Cert.Gcn.dv (PR a0 a1 a2 a3 a4 a5 a6 a7 a8 a9 a10 a11 a12) (Cert.Gcn.rowOf (val_main_v6 (F := Ideal) a1 (ix1 e)))) := by
  have h1 : idx_main_v41 (ix2 e k) = ix2 e (0 : Fin 1) := by
    funext a
    match a with
    | ⟨0, _⟩ => rfl
    | ⟨1, _⟩ => rfl
  have h2 : idx_main_v40 (ix2 e (0 : Fin 1)) = ix1 e := by
    funext a
    match a with
    | ⟨0, _⟩ => rfl
  rw [mulf_apply, gather_rows lin _ e k _ (v38_at a1 e), val_main_v41_apply, h1, val_main_v40_apply, h2,
    v32_at a0 a1 a2 a3 a4 a5 a6 a7 a8 a9 a10 a11 a12]

/-- A layer's aggregate, for any table of rows: the scatter-add, at the joined destination words, of the rows looked up
    at the wrapped joined source words, each scaled by dinv at its source times dinv at its destination. -/
def aggT (lin : FVec Ideal S100000x128 .f32) : FVec Ideal S100000x128 .f32 :=
  Host.scatterAdd (F := Ideal) (φ := .f32) scatter_S100000x128_S1700000x1_S1700000x128_1_0_0_1 (val_main_v43 (F := Ideal)) (val_main_v44 (F := Ideal) a1)
    (mulf (F := Ideal) (φ := .f32) (Host.gather gather_S100000x128_S1700000x1_S1700000x128_1_0_n_n_0_1_1128 lin (val_main_v38 (F := Ideal) a1))
      (val_main_v41 (F := Ideal) a1))

/-- The aggregate at node i: the landing edges' scaled source rows, and the node's own row for its self loop. A landing
    edge's destination word read signed is i, so its destination row is i; the self-loop entry holds i on both sides. -/
theorem aggT_at (lin : FVec Ideal S100000x128 .f32) (i : Fin 100000) (k : Fin 128) :
    aggT a1 lin (ix2 i k)
      = (∑ e ∈ Cert.Gcn.landsAt (PR a0 a1 a2 a3 a4 a5 a6 a7 a8 a9 a10 a11 a12).dst i,
            lin (ix2 (Cert.Gcn.rowOf ((PR a0 a1 a2 a3 a4 a5 a6 a7 a8 a9 a10 a11 a12).src e)) k)
              * (Cert.Gcn.dv (PR a0 a1 a2 a3 a4 a5 a6 a7 a8 a9 a10 a11 a12) (Cert.Gcn.rowOf ((PR a0 a1 a2 a3 a4 a5 a6 a7 a8 a9 a10 a11 a12).src e))
                * Cert.Gcn.dv (PR a0 a1 a2 a3 a4 a5 a6 a7 a8 a9 a10 a11 a12) i))
        + lin (ix2 i k) * (Cert.Gcn.dv (PR a0 a1 a2 a3 a4 a5 a6 a7 a8 a9 a10 a11 a12) i
            * Cert.Gcn.dv (PR a0 a1 a2 a3 a4 a5 a6 a7 a8 a9 a10 a11 a12) i) := by
  unfold aggT
  refine (ScatterRows.scatterAdd_rows_apply scatter_S100000x128_S1700000x1_S1700000x128_1_0_0_1 rfl rfl rfl rfl
    (val_main_v43 (F := Ideal)) (val_main_v44 (F := Ideal) a1) _ i k).trans ?_
  rw [sum_landing (fun e => val_main_v44 (F := Ideal) a1 (ix2 e 0)) (fun e => a1 (ix2 1 e)) i
    (fun e => (v44_at a1 _).trans (v6_edge a1 e)) (fun r => (v44_at a1 _).trans (v6_self a1 r))]
  have h43 : val_main_v43 (F := Ideal) (ix2 i k) = 0 := by
    rw [val_main_v43_apply, val_main_cst_9_apply]
    exact Ideal.ofBits_zero_f32
  rw [h43, zero_add]
  refine congrArg₂ (· + ·) (Finset.sum_congr rfl fun e he => ?_) ?_
  · rw [upd_at a0 a1 a2 a3 a4 a5 a6 a7 a8 a9 a10 a11 a12, v3_edge, v6_edge,
      rowOf_of_toInt (a1 (ix2 1 e)) i (Finset.mem_filter.1 he).2]
    rfl
  · rw [upd_at a0 a1 a2 a3 a4 a5 a6 a7 a8 a9 a10 a11 a12, v3_self, v6_self,
      rowOf_of_toInt _ i (toInt_ofNat_small i.val i.isLt)]

/-- A whole layer, for any table of rows and any bias row: the aggregate, the bias added along the rows, and the
    positive part. -/
def layerT (lin : FVec Ideal S100000x128 .f32) (b : FVec Ideal S128 .f32) : FVec Ideal S100000x128 .f32 :=
  maximumf (F := Ideal) (φ := .f32) (addf (F := Ideal) (φ := .f32) (aggT a1 lin) (val_main_v47 (F := Ideal) b)) (val_main_call1_v0 (F := Ideal))

/-- A layer at node i and feature k, in the reference's arrangement. -/
theorem layerT_at (lin : FVec Ideal S100000x128 .f32) (b : FVec Ideal S128 .f32)
    (i : Fin 100000) (k : Fin 128) :
    layerT a1 lin b (ix2 i k)
      = Cert.Gcn.finRef (PR a0 a1 a2 a3 a4 a5 a6 a7 a8 a9 a10 a11 a12).src (PR a0 a1 a2 a3 a4 a5 a6 a7 a8 a9 a10 a11 a12).dst
          (fun r => lin (ix2 r k)) (b (ix1 k)) i := by
  have hb : idx_main_v46 (idx_main_v47 (ix2 i k)) = ix1 k := by
    funext a
    match a with
    | ⟨0, _⟩ => rfl
  unfold layerT
  rw [maximumf_apply, addf_apply, aggT_at a0 a1 a2 a3 a4 a5 a6 a7 a8 a9 a10 a11 a12, val_main_v47_apply, val_main_v46_apply, hb,
    val_main_call1_v0_apply, val_main_call1_cst_apply, Ideal.ofBits_def, Ideal.ofBits_zero_f32]
  rfl

/-! ## The three layers -/

/-- Layer 0 is a layer over the width-one dense transform. -/
theorem v49_eq : val_main_v49 (F := Ideal) a0 a1 a3 a4 = layerT a1 (val_main_v7 (F := Ideal) a0 a3) a4 := rfl

/-- Layer 1 is a layer over the dense transform of layer 0's activation: its recomputed degree, dinv, scales and word
    columns are the same operations as layer 0's under other names. -/
theorem v92_eq : val_main_v92 (F := Ideal) a0 a1 a3 a4 a5 a6 = layerT a1 (val_main_v50 (F := Ideal) a0 a1 a3 a4 a5) a6 := rfl

/-- Layer 2 is a layer over the dense transform of layer 1's activation, likewise. -/
theorem v135_eq :
    val_main_v135 (F := Ideal) a0 a1 a3 a4 a5 a6 a7 a8 = layerT a1 (val_main_v93 (F := Ideal) a0 a1 a3 a4 a5 a6 a7) a8 := rfl

/-- The width-one dense transform: a sum of one term. -/
theorem v7_at (r : Fin 100000) (k : Fin 128) :
    val_main_v7 (F := Ideal) a0 a3 (ix2 r k) = a0 (ix2 r 0) * a3 (ix2 0 k) := by
  have hl : lidx_main_v7 (ix2 r k) 0 = ix2 r (0 : Fin 1) := by
    funext a
    match a with
    | ⟨0, _⟩ => rfl
    | ⟨1, _⟩ => rfl
  have hr : ridx_main_v7 (ix2 r k) 0 = ix2 (0 : Fin 1) k := by
    funext a
    match a with
    | ⟨0, _⟩ => rfl
    | ⟨1, _⟩ => rfl
  rw [val_main_v7_apply, Fin.sum_univ_one, hl, hr]

/-- Layer 0's activation. -/
theorem act1 (i : Fin 100000) (k : Fin 128) :
    val_main_v49 (F := Ideal) a0 a1 a3 a4 (ix2 i k) = Cert.Gcn.h1R (PR a0 a1 a2 a3 a4 a5 a6 a7 a8 a9 a10 a11 a12) i k := by
  refine (congrFun (v49_eq a0 a1 a3 a4) (ix2 i k)).trans ?_
  rw [layerT_at a0 a1 a2 a3 a4 a5 a6 a7 a8 a9 a10 a11 a12]
  unfold Cert.Gcn.h1R
  have hlin : (fun r : Fin 100000 => val_main_v7 (F := Ideal) a0 a3 (ix2 r k))
      = fun r => (PR a0 a1 a2 a3 a4 a5 a6 a7 a8 a9 a10 a11 a12).x r * (PR a0 a1 a2 a3 a4 a5 a6 a7 a8 a9 a10 a11 a12).W0 k := by
    funext r
    exact v7_at a0 a3 r k
  rw [hlin]
  rfl

/-- A dense transform of an activation table, read as the matrix product's element. -/
theorem dense_at (h : FVec Ideal S100000x128 .f32) (W : FVec Ideal S128x128 .f32)
    (hR : Fin 100000 → Fin 128 → EReal) (hh : ∀ r t, h (ix2 r t) = hR r t) (r : Fin 100000) (k : Fin 128)
    (li : Fin 128 → S100000x128.Idx) (ri : Fin 128 → S128x128.Idx) (hl : ∀ t, li t = ix2 r t) (hr : ∀ t, ri t = ix2 t k) :
    (∑ t : Fin 128, h (li t) * W (ri t)) = Cert.Gcn.dense hR (fun t k => W (ix2 t k)) r k := by
  unfold Cert.Gcn.dense
  refine Finset.sum_congr rfl fun t _ => ?_
  rw [hl, hr, hh]

/-- Layer 1's activation. -/
theorem act2 (i : Fin 100000) (k : Fin 128) :
    val_main_v92 (F := Ideal) a0 a1 a3 a4 a5 a6 (ix2 i k) = Cert.Gcn.h2R (PR a0 a1 a2 a3 a4 a5 a6 a7 a8 a9 a10 a11 a12) i k := by
  refine (congrFun (v92_eq a0 a1 a3 a4 a5 a6) (ix2 i k)).trans ?_
  rw [layerT_at a0 a1 a2 a3 a4 a5 a6 a7 a8 a9 a10 a11 a12]
  unfold Cert.Gcn.h2R Cert.Gcn.nextR
  have hlin : (fun r : Fin 100000 => val_main_v50 (F := Ideal) a0 a1 a3 a4 a5 (ix2 r k))
      = fun r => Cert.Gcn.dense (Cert.Gcn.h1R (PR a0 a1 a2 a3 a4 a5 a6 a7 a8 a9 a10 a11 a12))
          (PR a0 a1 a2 a3 a4 a5 a6 a7 a8 a9 a10 a11 a12).W1 r k := by
    funext r
    rw [val_main_v50_apply]
    exact dense_at _ a5 _ (act1 a0 a1 a2 a3 a4 a5 a6 a7 a8 a9 a10 a11 a12) r k _ _
      (fun t => funext fun a => by match a with | ⟨0, _⟩ => rfl | ⟨1, _⟩ => rfl)
      (fun t => funext fun a => by match a with | ⟨0, _⟩ => rfl | ⟨1, _⟩ => rfl)
  rw [hlin]
  rfl

/-- Layer 2's activation. -/
theorem act3 (i : Fin 100000) (k : Fin 128) :
    val_main_v135 (F := Ideal) a0 a1 a3 a4 a5 a6 a7 a8 (ix2 i k) = Cert.Gcn.h3R (PR a0 a1 a2 a3 a4 a5 a6 a7 a8 a9 a10 a11 a12) i k := by
  refine (congrFun (v135_eq a0 a1 a3 a4 a5 a6 a7 a8) (ix2 i k)).trans ?_
  rw [layerT_at a0 a1 a2 a3 a4 a5 a6 a7 a8 a9 a10 a11 a12]
  unfold Cert.Gcn.h3R Cert.Gcn.nextR
  have hlin : (fun r : Fin 100000 => val_main_v93 (F := Ideal) a0 a1 a3 a4 a5 a6 a7 (ix2 r k))
      = fun r => Cert.Gcn.dense (Cert.Gcn.h2R (PR a0 a1 a2 a3 a4 a5 a6 a7 a8 a9 a10 a11 a12))
          (PR a0 a1 a2 a3 a4 a5 a6 a7 a8 a9 a10 a11 a12).W2 r k := by
    funext r
    rw [val_main_v93_apply]
    exact dense_at _ a7 _ (act2 a0 a1 a2 a3 a4 a5 a6 a7 a8 a9 a10 a11 a12) r k _ _
      (fun t => funext fun a => by match a with | ⟨0, _⟩ => rfl | ⟨1, _⟩ => rfl)
      (fun t => funext fun a => by match a with | ⟨0, _⟩ => rfl | ⟨1, _⟩ => rfl)
  rw [hlin]
  rfl

end Cert.ReferenceIdeal.RefValue

end
-- ==== Proof.RefHead.lean ====
/-
  The reference's pooling and head read as values: the per-graph sums by a scatter-add of the last activation's rows at the graph words, the per-graph counts by a scatter-add of ones, their quotient under the floor of one, and the two dense layers of the head.
-/
import proofs.«410623_j52072183497149_3_alg».proof.Proof.RefRead
import proofs.«410623_j52072183497149_3_alg».proof.Proof.Gcn
import proofs.«410623_j52072183497149_3_alg».proof.Proof.LibScatterRows
import proofs.«410623_j52072183497149_3_alg».proof.Proof.LibScatterVec
import proofs.«410623_j52072183497149_3_alg».proof.Proof.LibGatherRows
import Idealize.ShloMosaic.Lib.StableHlo.Predicate
import Idealize.ShloMosaic.Lib.IdealHost
import proofs.«410623_j52072183497149_3_alg».proof.Proof.RefLayer

noncomputable section

open scoped BigOperators

namespace Cert.ReferenceIdeal.RefValue

open Cert.ReferenceIdeal Cert.ReferenceIdeal.Gen Cert.ReferenceIdeal.ReadP Idealize.ShloMosaic Idealize.ShloMosaic.TcCoe Idealize.SL.Sem
open Idealize.ShloMosaic.ValueIdx

variable (a0 : (⟨S100000x1, .f32⟩ : BufTy).Contents (Elt Ideal)) (a1 : (⟨S2x1600000, .i32⟩ : BufTy).Contents (Elt Ideal))
  (a2 : (⟨S100000, .i32⟩ : BufTy).Contents (Elt Ideal)) (a3 : (⟨S1x128, .f32⟩ : BufTy).Contents (Elt Ideal))
  (a4 : (⟨S128, .f32⟩ : BufTy).Contents (Elt Ideal)) (a5 : (⟨S128x128, .f32⟩ : BufTy).Contents (Elt Ideal))
  (a6 : (⟨S128, .f32⟩ : BufTy).Contents (Elt Ideal)) (a7 : (⟨S128x128, .f32⟩ : BufTy).Contents (Elt Ideal))
  (a8 : (⟨S128, .f32⟩ : BufTy).Contents (Elt Ideal)) (a9 : (⟨S128x64, .f32⟩ : BufTy).Contents (Elt Ideal))
  (a10 : (⟨S64, .f32⟩ : BufTy).Contents (Elt Ideal)) (a11 : (⟨S64x1, .f32⟩ : BufTy).Contents (Elt Ideal))
  (a12 : (⟨S1, .f32⟩ : BufTy).Contents (Elt Ideal))

/-- A sum of ones over a finite set is the number of its elements. -/
theorem sum_ones_eq_card {ι : Type} (S : Finset ι) : (∑ _e ∈ S, (1 : EReal)) = ((S.card : ℝ) : EReal) := by
  rw [Finset.sum_const, nsmul_one]
  rfl

/-- Node e's graph word, read through the one-column table the sums' scatter indexes by. -/
theorem word137 (e : Fin 100000) : val_main_v137 (F := Ideal) a2 (ix2 e 0) = a2 (ix1 e) := by
  rw [val_main_v137_apply]
  exact congrArg a2 (funext fun a => match a with | ⟨0, _⟩ => rfl)

/-- The same word, read through the one-column table the counts' scatter indexes by. -/
theorem word141 (e : Fin 100000) : val_main_v141 (F := Ideal) a2 (ix2 e 0) = a2 (ix1 e) := by
  rw [val_main_v141_apply]
  exact congrArg a2 (funext fun a => match a with | ⟨0, _⟩ => rfl)

/-- The per-graph sums: graph g's row is, feature by feature, the sum of the last activation over the nodes whose
    graph word is g. The table the rows are added into is zero. -/
theorem sums138 (g : Fin 512) (k : Fin 128) :
    val_main_v138 (F := Ideal) a0 a1 a2 a3 a4 a5 a6 a7 a8 (ix2 g k)
      = ∑ r ∈ Cert.Gcn.inGraph (PR a0 a1 a2 a3 a4 a5 a6 a7 a8 a9 a10 a11 a12).batch g, Cert.Gcn.h3R (PR a0 a1 a2 a3 a4 a5 a6 a7 a8 a9 a10 a11 a12) r k := by
  unfold val_main_v138
  refine (ScatterRows.scatterAdd_rows_apply (N := 512) (C := 128) (R := 100000)
    scatter_S512x128_S100000x1_S100000x128_1_0_0_1 rfl rfl rfl rfl _ _ _ g k).trans ?_
  rw [val_main_v136_apply, val_main_cst_34_apply, Ideal.ofBits_def, Ideal.ofBits_zero_f32, zero_add]
  refine Finset.sum_congr (Finset.filter_congr fun e _ => ?_) fun e _ => act3 a0 a1 a2 a3 a4 a5 a6 a7 a8 a9 a10 a11 a12 e k
  rw [word137]
  exact Iff.rfl

/-- The per-graph counts: graph g's count is the number of nodes whose graph word is g, each node adding a one into a
    zero vector. -/
theorem cnts142 (g : Fin 512) :
    val_main_v142 (F := Ideal) a2 (ix1 g) = (((Cert.Gcn.inGraph (PR a0 a1 a2 a3 a4 a5 a6 a7 a8 a9 a10 a11 a12).batch g).card : ℝ) : EReal) := by
  unfold val_main_v142
  refine (ScatterVec.scatterAdd_vec_apply (N := 512) (R := 100000)
    scatter_S512_S100000x1_S100000_n_0_0_1 rfl rfl rfl rfl _ _ _ g).trans ?_
  rw [val_main_v140_apply, val_main_cst_36_apply, Ideal.ofBits_def, Ideal.ofBits_zero_f32, zero_add,
    ← sum_ones_eq_card]
  refine Finset.sum_congr (Finset.filter_congr fun e _ => ?_) fun e _ => ?_
  · rw [word141]
    exact Iff.rfl
  · rw [val_main_v139_apply, val_main_cst_35_apply, Ideal.ofBits_def, Ideal.ofBits_one_f32]

/-- The pooled table. -/
theorem pooled147 (g : Fin 512) (k : Fin 128) :
    val_main_v147 (F := Ideal) a0 a1 a2 a3 a4 a5 a6 a7 a8 (ix2 g k)
      = Cert.Gcn.pooled (PR a0 a1 a2 a3 a4 a5 a6 a7 a8 a9 a10 a11 a12) (Cert.Gcn.h3R (PR a0 a1 a2 a3 a4 a5 a6 a7 a8 a9 a10 a11 a12)) g k := by
  -- the divisor's two broadcasts read the floored count of the row's graph
  have hi : idx_main_v145 (idx_main_v146 (ix2 g k)) = ix1 g := funext fun a => match a with | ⟨0, _⟩ => rfl
  rw [val_main_v147_apply, Ideal.hostDivf_def, val_main_v146_apply, val_main_v145_apply, hi, val_main_v144_apply,
    Ideal.maximumf_def, val_main_v143_apply, val_main_cst_37_apply, Ideal.ofBits_def, Ideal.ofBits_one_f32,
    cnts142 a0 a1 a2 a3 a4 a5 a6 a7 a8 a9 a10 a11 a12, sums138 a0 a1 a2 a3 a4 a5 a6 a7 a8 a9 a10 a11 a12]
  rfl

/-- The head's first dense layer over the pooled table. -/
theorem fc1_148 (g : Fin 512) (u : Fin 64) :
    val_main_v148 (F := Ideal) a0 a1 a2 a3 a4 a5 a6 a7 a8 a9 (ix2 g u)
      = Cert.Gcn.dense (Cert.Gcn.pooled (PR a0 a1 a2 a3 a4 a5 a6 a7 a8 a9 a10 a11 a12) (Cert.Gcn.h3R (PR a0 a1 a2 a3 a4 a5 a6 a7 a8 a9 a10 a11 a12))) (PR a0 a1 a2 a3 a4 a5 a6 a7 a8 a9 a10 a11 a12).F1 g u := by
  rw [val_main_v148_apply]
  unfold Cert.Gcn.dense
  refine Finset.sum_congr rfl fun t _ => ?_
  have hl : lidx_main_v148 (ix2 g u) t = ix2 g t := funext fun a => match a with | ⟨0, _⟩ => rfl | ⟨1, _⟩ => rfl
  have hr : ridx_main_v148 (ix2 g u) t = ix2 t u := funext fun a => match a with | ⟨0, _⟩ => rfl | ⟨1, _⟩ => rfl
  rw [hl, hr]
  exact congrArg (· * a9 (ix2 t u)) (pooled147 a0 a1 a2 a3 a4 a5 a6 a7 a8 a9 a10 a11 a12 g t)

/-- The head's hidden layer: the first dense layer plus its bias, floored at zero. -/
theorem hid152 (g : Fin 512) (u : Fin 64) :
    val_main_v152 (F := Ideal) a0 a1 a2 a3 a4 a5 a6 a7 a8 a9 a10 (ix2 g u)
      = max (Cert.Gcn.dense (Cert.Gcn.pooled (PR a0 a1 a2 a3 a4 a5 a6 a7 a8 a9 a10 a11 a12) (Cert.Gcn.h3R (PR a0 a1 a2 a3 a4 a5 a6 a7 a8 a9 a10 a11 a12))) (PR a0 a1 a2 a3 a4 a5 a6 a7 a8 a9 a10 a11 a12).F1 g u + (PR a0 a1 a2 a3 a4 a5 a6 a7 a8 a9 a10 a11 a12).c1 u) 0 := by
  have hb : idx_main_v149 (idx_main_v150 (ix2 g u)) = ix1 u := funext fun a => match a with | ⟨0, _⟩ => rfl
  rw [val_main_v152_apply, Ideal.maximumf_def, val_main_call6_v0_apply, val_main_call6_cst_apply, Ideal.ofBits_def,
    Ideal.ofBits_zero_f32, val_main_v151_apply, Ideal.addf_def, val_main_v150_apply, val_main_v149_apply, hb,
    fc1_148 a0 a1 a2 a3 a4 a5 a6 a7 a8 a9 a10 a11 a12]
  rfl

/-- The reference's result. -/
theorem out156 (g : Fin 512) :
    val_main_v156 (F := Ideal) a0 a1 a2 a3 a4 a5 a6 a7 a8 a9 a10 a11 a12 (ix2 g 0)
      = Cert.Gcn.outR (PR a0 a1 a2 a3 a4 a5 a6 a7 a8 a9 a10 a11 a12) g := by
  have hc : idx_main_v154 (idx_main_v155 (ix2 g 0)) = ix1 0 := funext fun a => match a with | ⟨0, _⟩ => rfl
  rw [val_main_v156_apply, Ideal.addf_def, val_main_v155_apply, val_main_v154_apply, hc, val_main_v153_apply]
  unfold Cert.Gcn.outR Cert.Gcn.head
  refine congrArg₂ (· + ·) (Finset.sum_congr rfl fun u _ => ?_) rfl
  have hl : lidx_main_v153 (ix2 g 0) u = ix2 g u := funext fun a => match a with | ⟨0, _⟩ => rfl | ⟨1, _⟩ => rfl
  have hr : ridx_main_v153 (ix2 g 0) u = ix2 u 0 := funext fun a => match a with | ⟨0, _⟩ => rfl | ⟨1, _⟩ => rfl
  rw [hl, hr]
  exact congrArg (· * a11 (ix2 u 0)) (hid152 a0 a1 a2 a3 a4 a5 a6 a7 a8 a9 a10 a11 a12 g u)

end Cert.ReferenceIdeal.RefValue

end
-- ==== Proof.RefValue.lean ====
/-
  The reference's value: its layers and its head, read one operation at a time.
-/
import proofs.«410623_j52072183497149_3_alg».proof.Proof.RefHead
-- ==== Proof.Finite.lean ====
/-
  From the precondition to real inputs. The precondition says of every float argument that each entry's absolute value
  is below +infinity; an extended real with that property is a real number. Only the node features and layer 0's weight
  row are needed as reals: they are the precondition's first two conjuncts.
-/
import proofs.«410623_j52072183497149_3_alg».proof.Pre_finite_inputs
import Idealize.ShloMosaic.PureOps.Ideal
import Idealize.ShloMosaic.Lib.ValueIdx
import Idealize.ShloMosaic.Lib.ReduceAll

noncomputable section

namespace Cert.Finite

open Idealize.ShloMosaic Idealize.ShloMosaic.ValueIdx Cert.Pre_finite_inputs

/-- An extended real whose absolute value max x (-x) is strictly below +infinity is a real number: the word
    0x7F800000 denotes +infinity, and at either infinity the absolute value is +infinity itself. -/
theorem real_of_abs_lt (x : EReal)
    (h : Ideal.cmp .olt (max x (-x)) (Ideal.ofBits .f32 0x7F800000#32) = 1#1) : ∃ y : ℝ, x = (y : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- Under the precondition the node features and layer 0's weight row are real numbers. -/
theorem of_pre [Cert.Pre_finite_inputs.Facts]
    (a0 : FVec Ideal S100000x1 .f32) (a1 : IVec S2x1600000 32) (a2 : IVec S100000 32) (a3 : FVec Ideal S1x128 .f32)
    (a4 : FVec Ideal S128 .f32) (a5 : FVec Ideal S128x128 .f32) (a6 : FVec Ideal S128 .f32) (a7 : FVec Ideal S128x128 .f32)
    (a8 : FVec Ideal S128 .f32) (a9 : FVec Ideal S128x64 .f32) (a10 : FVec Ideal S64 .f32) (a11 : FVec Ideal S64x1 .f32)
    (a12 : FVec Ideal S1 .f32)
    (h : Cert.Pre_finite_inputs.fn (F := Ideal) a0 a1 a2 a3 a4 a5 a6 a7 a8 a9 a10 a11 a12 = fun _ => 1#1) :
    (∀ r : Fin 100000, ∃ y : ℝ, a0 (ix2 r 0) = (y : EReal)) ∧ (∀ k : Fin 128, ∃ y : ℝ, a3 (ix2 0 k) = (y : EReal)) := by
  -- the precondition at its one index, as the nested conjunction of one "all entries are below +infinity" per float argument
  have h0 := congrFun h ValueIdx.ix0
  dsimp only [fn, fn_part1, fn_part2, fn_part3] at h0
  -- the conjunction is nested to the left: drop the nine later conjuncts, keep the first two
  obtain ⟨h1, -⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  obtain ⟨h5, -⟩ := IntOp.andi_eq_one.1 h4
  obtain ⟨h6, -⟩ := IntOp.andi_eq_one.1 h5
  obtain ⟨h7, -⟩ := IntOp.andi_eq_one.1 h6
  obtain ⟨h8, -⟩ := IntOp.andi_eq_one.1 h7
  obtain ⟨h9, -⟩ := IntOp.andi_eq_one.1 h8
  obtain ⟨hx, hw⟩ := IntOp.andi_eq_one.1 h9
  -- a conjunction over all entries that holds, holds at each entry: there |entry| < +infinity
  haveI : Subsingleton S_.Idx := ⟨fun a b => funext fun d => d.elim0⟩
  refine ⟨fun r => ?_, fun k => ?_⟩
  · exact real_of_abs_lt _ (Host.reduce_andi_all _ _ _ _ _ hx (ix2 r 0))
  · exact real_of_abs_lt _ (Host.reduce_andi_all _ _ _ _ _ hw (ix2 0 k))

end Cert.Finite

end
-- ==== Proof.lean ====
/-
  The kernel is a three-layer graph convolution with mean pooling and a two-layer head, computed by four
  pallas_calls with the edge gathers and scatter-adds between them on the host; the reference is the same network in
  plain array operations. They differ in arrangement only. The reference joins a self-loop entry per node to the edge
  list and, per layer, sums lin[source] * (dinv[source] * dinv[destination]) over the entries landing at a node; the
  kernel scales rows by dinv first, sums the scaled rows over the real edges, adds the node's own scaled row for the
  self loop and multiplies the total by dinv once. Since dinv is a nonnegative real, the product distributes over the
  sum of extended reals and the two agree; in layer 0 the kernel moreover aggregates the width-one input before the
  outer product with the weight row, which is the same number when the inputs and that row are real: this is where the
  precondition is used. Pooling sums each graph's node features by a one-hot product over two halves of the node range
  in the kernel and by a scatter-add in the reference: the same finite sums.

  The frames of the two kernel programs are the generated ones; the reference's frame is its run with the result
  dropped; the ideal pass rewrote nothing, so the fourth conjunct is trivial.
-/
import proofs.«410623_j52072183497149_3_alg».proof.Defs
import proofs.«410623_j52072183497149_3_alg».proof.Proof.Gen.Kernel
import proofs.«410623_j52072183497149_3_alg».proof.Proof.Gen.Kernel.Skeleton
import proofs.«410623_j52072183497149_3_alg».proof.Proof.Gen.Kernel.Launch
import proofs.«410623_j52072183497149_3_alg».proof.Proof.Gen.Kernel.Points
import proofs.«410623_j52072183497149_3_alg».proof.Proof.Gen.Kernel.Frame
import proofs.«410623_j52072183497149_3_alg».proof.Proof.Gen.KernelIdeal
import proofs.«410623_j52072183497149_3_alg».proof.Proof.Gen.KernelIdeal.Skeleton
import proofs.«410623_j52072183497149_3_alg».proof.Proof.Gen.KernelIdeal.Launch
import proofs.«410623_j52072183497149_3_alg».proof.Proof.Gen.KernelIdeal.Points
import proofs.«410623_j52072183497149_3_alg».proof.Proof.Gen.KernelIdeal.Frame
import proofs.«410623_j52072183497149_3_alg».proof.Proof.Gen.ReferenceIdeal
import proofs.«410623_j52072183497149_3_alg».proof.Proof.Gen.Pre_finite_inputs
import proofs.«410623_j52072183497149_3_alg».proof.Proof.KValue
import proofs.«410623_j52072183497149_3_alg».proof.Proof.RefValue
import proofs.«410623_j52072183497149_3_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The common result: the network's output column, as an array. -/
def outArr (m : (ℓ : Loc Cert.KernelIdeal.nD Cert.KernelIdeal.τ Cert.KernelIdeal.sig) → Buf (Elt Ideal) ℓ)
    (c : Dev Cert.KernelIdeal.nD) : Cert.KernelIdeal.S512x1.Idx → EReal :=
  fun i => Cert.Gcn.outK (Cert.KernelIdeal.Val.P m c) ⟨(i 0).val, (i 0).isLt⟩

/-- Every index of a one-column array is a row and column 0. -/
theorem col_index (i : Cert.KernelIdeal.S512x1.Idx) : i = ix2 (⟨(i 0).val, (i 0).isLt⟩ : Fin 512) (0 : Fin 1) := by
  funext a
  match a with
  | ⟨0, _⟩ => rfl
  | ⟨1, _⟩ => exact Subsingleton.elim (α := Fin 1) _ _

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

/-- Both programs end with the network's output column: the kernel by its regions' and host stretches' readings, the
    reference by its operations' readings and the agreement of the two arrangements on real inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨outArr m, ?_, ?_⟩
  · refine (θ_run Cert.KernelIdeal.defs _ _).mono (fun r h c => ⟨(h c).1.trans ?_, (h c).2⟩)
      (Cert.KernelIdeal.RunValue.run (F := Ideal) m ρ)
    funext i
    rw [col_index i]
    exact Cert.KernelIdeal.Val.result m ρ c _
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v156_eq]
    obtain ⟨e0, e1, e2, e3, e4, e5, e6, e7, e8, e9, e10, e11, e12⟩ := hagree c
    rw [e0, e1, e2, e3, e4, e5, e6, e7, e8, e9, e10, e11, e12]
    obtain ⟨hx, hw⟩ := @Cert.Finite.of_pre Cert.Pre_finite_inputs.Gen.facts _ _ _ _ _ _ _ _ _ _ _ _ _ (hpre c)
    funext i
    rw [col_index i, Cert.ReferenceIdeal.RefValue.out156]
    exact congrFun (Cert.Gcn.outR_eq_outK _ hx hw) _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
